-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x50257 : Shape := ⟨3, ![2, 1024, 50257]⟩
abbrev S2x1024 : Shape := ⟨2, ![2, 1024]⟩
abbrev S_ : Shape := ⟨0, ![]⟩

class Facts : Prop where
  bcast_S_S2x1024x50257 : S_.BroadcastsInDim S2x1024x50257 (![] : Fin 0 → Fin S2x1024x50257.rank)
  reducesTo_S2x1024x50257_S_d0_1_2 : S2x1024x50257.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_

variable [Facts]

def fn {F : FTy → Type} [FloatOps F] (main_arg0 : FVec F S2x1024x50257 .f32) (main_arg1 : IVec S2x1024 32) : IVec S_ 1 :=
  let main_v0 : FVec F S2x1024x50257 .f32 := Host.absf main_arg0
  let main_cst : FVec F S_ .f32 := constant S_ .f32 0x7F800000#32
  let main_v1 : FVec F S2x1024x50257 .f32 := broadcastInDim S2x1024x50257 ![] bcast_S_S2x1024x50257 main_cst
  let main_v2 : IVec S2x1024x50257 1 := cmpf .olt main_v0 main_v1
  let main_c : IVec S_ 1 := constantI S_ 1 1#1
  let main_v3 : IVec S_ 1 := (fun x v => Host.reduce IntOp.andi x v reducesTo_S2x1024x50257_S_d0_1_2 h_S_) main_v2 main_c
  let main_c_0 : IVec S_ 32 := constantI S_ 32 0#32
  let main_v4 : IVec S2x1024 32 := broadcastInDim S2x1024 ![] bcast_S_S2x1024 main_c_0
  let main_v5 : IVec S2x1024 1 := cmpi .sge main_arg1 main_v4
  let main_c_1 : IVec S_ 32 := constantI S_ 32 50257#32
  let main_v6 : IVec S2x1024 32 := broadcastInDim S2x1024 ![] bcast_S_S2x1024 main_c_1
  let main_v7 : IVec S2x1024 1 := cmpi .slt main_arg1 main_v6
  let main_v8 : IVec S2x1024 1 := andi main_v5 main_v7
  let main_c_2 : IVec S_ 1 := constantI S_ 1 1#1
  let main_v9 : IVec S_ 1 := (fun x v => Host.reduce IntOp.andi x v reducesTo_S2x1024_S_d0_1 h_S_) main_v8 main_c_2
  let main_v10 : IVec S_ 1 := andi main_v3 main_v9
  main_v10
-- ==== Kernel.lean ====
abbrev S2x1024x50257 : Shape := ⟨3, ![2, 1024, 50257]⟩
abbrev S2x1024 : Shape := ⟨2, ![2, 1024]⟩
abbrev S19 : Shape := ⟨1, ![19]⟩
abbrev S19x7 : Shape := ⟨2, ![19, 7]⟩
abbrev S2048x50257 : Shape := ⟨2, ![2048, 50257]⟩
abbrev S2048x1 : Shape := ⟨2, ![2048, 1]⟩
abbrev S1x1 : Shape := ⟨2, ![1, 1]⟩
abbrev S32x50257 : Shape := ⟨2, ![32, 50257]⟩
abbrev S32x1 : Shape := ⟨2, ![32, 1]⟩
abbrev S32 : Shape := ⟨1, ![32]⟩
abbrev S1 : Shape := ⟨1, ![1]⟩
abbrev S_ : Shape := ⟨0, ![]⟩
abbrev S2x1023 : Shape := ⟨2, ![2, 1023]⟩
abbrev S2x1023x1 : Shape := ⟨3, ![2, 1023, 1]⟩
abbrev S1x1x19 : Shape := ⟨3, ![1, 1, 19]⟩
abbrev S2x1023x19 : Shape := ⟨3, ![2, 1023, 19]⟩
abbrev S2x1023x1x1 : Shape := ⟨4, ![2, 1023, 1, 1]⟩
abbrev S1x1x19x7 : Shape := ⟨4, ![1, 1, 19, 7]⟩
abbrev S2x1023x19x7 : Shape := ⟨4, ![2, 1023, 19, 7]⟩
abbrev S1023 : Shape := ⟨1, ![1023]⟩
abbrev S1023x1 : Shape := ⟨2, ![1023, 1]⟩

abbrev nBuf : Space → Nat
  | .hbm => 150
  | .vmem => 6
  | .smem => 0
  | _ => 0

abbrev hbmTy0_0 (i : Nat) : BufTy := match i % 128 with
  | 0 => ⟨S2x1024x50257, .f32⟩
  | 1 => ⟨S2x1024, .i32⟩
  | 2 => ⟨S19, .i32⟩
  | 3 => ⟨S19x7, .i32⟩
  | 4 => ⟨S2048x50257, .f32⟩
  | 5 => ⟨S2048x1, .i32⟩
  | 6 => ⟨S1x1, .f32⟩
  | 7 => ⟨S_, .f32⟩
  | 8 => ⟨S_, .f32⟩
  | 9 => ⟨S_, .f32⟩
  | 10 => ⟨S2x1023, .i32⟩
  | 11 => ⟨S2x1023, .i32⟩
  | 12 => ⟨S2x1023x1, .i32⟩
  | 13 => ⟨S1x1x19, .i32⟩
  | 14 => ⟨S2x1023x19, .i32⟩
  | 15 => ⟨S2x1023x19, .i32⟩
  | 16 => ⟨S2x1023x19, .i1⟩
  | 17 => ⟨S2x1023x1x1, .i32⟩
  | 18 => ⟨S1x1x19x7, .i32⟩
  | 19 => ⟨S2x1023x19x7, .i32⟩
  | 20 => ⟨S2x1023x19x7, .i32⟩
  | 21 => ⟨S2x1023x19x7, .i1⟩
  | 22 => ⟨S_, .i1⟩
  | 23 => ⟨S2x1023x19, .i1⟩
  | 24 => ⟨S2x1023x19, .i1⟩
  | 25 => ⟨S2x1023x19, .i1⟩
  | 26 => ⟨S_, .i1⟩
  | 27 => ⟨S2x1023, .i1⟩
  | 28 => ⟨S_, .i32⟩
  | 29 => ⟨S2x1023, .i32⟩
  | 30 => ⟨S2x1023, .i1⟩
  | 31 => ⟨S_, .i32⟩
  | 32 => ⟨S2x1023, .i32⟩
  | 33 => ⟨S2x1023, .i1⟩
  | 34 => ⟨S2x1023, .i1⟩
  | 35 => ⟨S_, .i32⟩
  | 36 => ⟨S2x1023, .i32⟩
  | 37 => ⟨S2x1023, .i1⟩
  | 38 => ⟨S2x1023, .i1⟩
  | 39 => ⟨S_, .i32⟩
  | 40 => ⟨S2x1023, .i32⟩
  | 41 => ⟨S2x1023, .i1⟩
  | 42 => ⟨S2x1023, .i1⟩
  | 43 => ⟨S_, .i32⟩
  | 44 => ⟨S2x1023, .i32⟩
  | 45 => ⟨S2x1023, .i1⟩
  | 46 => ⟨S_, .i32⟩
  | 47 => ⟨S2x1024, .i32⟩
  | 48 => ⟨S2x1024, .i1⟩
  | 49 => ⟨S2x1024, .i32⟩
  | 50 => ⟨S_, .i32⟩
  | 51 => ⟨S_, .i32⟩
  | 52 => ⟨S2x1024, .i32⟩
  | 53 => ⟨S1023, .i32⟩
  | 54 => ⟨S_, .i32⟩
  | 55 => ⟨S1023, .i32⟩
  | 56 => ⟨S1023, .i32⟩
  | 57 => ⟨S_, .i32⟩
  | 58 => ⟨S1023, .i32⟩
  | 59 => ⟨S1023, .i32⟩
  | 60 => ⟨S_, .i32⟩
  | 61 => ⟨S1023, .i32⟩
  | 62 => ⟨S1023, .i1⟩
  | 63 => ⟨S_, .i32⟩
  | 64 => ⟨S1023, .i32⟩
  | 65 => ⟨S1023, .i32⟩
  | 66 => ⟨S1023, .i32⟩
  | 67 => ⟨S1023x1, .i32⟩
  | 68 => ⟨S2x1023, .i32⟩
  | 69 => ⟨S2x1023, .i32⟩
  | 70 => ⟨S2x1023, .i32⟩
  | 71 => ⟨S_, .i32⟩
  | 72 => ⟨S2x1023, .i32⟩
  | 73 => ⟨S2x1023, .i1⟩
  | 74 => ⟨S2x1023, .i1⟩
  | 75 => ⟨S2x1023, .i1⟩
  | 76 => ⟨S_, .i32⟩
  | 77 => ⟨S2x1023, .i32⟩
  | 78 => ⟨S2x1023, .i1⟩
  | 79 => ⟨S_, .i32⟩
  | 80 => ⟨S2x1024, .i32⟩
  | 81 => ⟨S2x1024, .i1⟩
  | 82 => ⟨S2x1024, .i32⟩
  | 83 => ⟨S_, .i32⟩
  | 84 => ⟨S_, .i32⟩
  | 85 => ⟨S2x1024, .i32⟩
  | 86 => ⟨S1023, .i32⟩
  | 87 => ⟨S_, .i32⟩
  | 88 => ⟨S1023, .i32⟩
  | 89 => ⟨S1023, .i32⟩
  | 90 => ⟨S_, .i32⟩
  | 91 => ⟨S1023, .i32⟩
  | 92 => ⟨S1023, .i32⟩
  | 93 => ⟨S_, .i32⟩
  | 94 => ⟨S1023, .i32⟩
  | 95 => ⟨S1023, .i1⟩
  | 96 => ⟨S_, .i32⟩
  | 97 => ⟨S1023, .i32⟩
  | 98 => ⟨S1023, .i32⟩
  | 99 => ⟨S1023, .i32⟩
  | 100 => ⟨S1023x1, .i32⟩
  | 101 => ⟨S2x1023, .i32⟩
  | 102 => ⟨S2x1023, .i32⟩
  | 103 => ⟨S2x1023, .i32⟩
  | 104 => ⟨S_, .i32⟩
  | 105 => ⟨S2x1023, .i32⟩
  | 106 => ⟨S2x1023, .i1⟩
  | 107 => ⟨S2x1023, .i1⟩
  | 108 => ⟨S2x1023, .i1⟩
  | 109 => ⟨S2x1023, .i32⟩
  | 110 => ⟨S_, .i32⟩
  | 111 => ⟨S_, .i32⟩
  | 112 => ⟨S_, .f32⟩
  | 113 => ⟨S2x1023, .i32⟩
  | 114 => ⟨S_, .i32⟩
  | 115 => ⟨S_, .i32⟩
  | 116 => ⟨S_, .f32⟩
  | 117 => ⟨S2x1023, .i32⟩
  | 118 => ⟨S_, .i32⟩
  | 119 => ⟨S_, .i32⟩
  | 120 => ⟨S_, .f32⟩
  | 121 => ⟨S2x1023, .i32⟩
  | 122 => ⟨S_, .i32⟩
  | 123 => ⟨S_, .i32⟩
  | 124 => ⟨S_, .f32⟩
  | 125 => ⟨S_, .f32⟩
  | 126 => ⟨S_, .f32⟩
  | 127 => ⟨S_, .f32⟩
  | _ => ⟨S2x1024x50257, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .i1⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S2x1024x50257, .f32⟩

abbrev hbmTy (i : Nat) : BufTy := match i / 128 with
  | 0 => hbmTy0_0 i
  | 1 => hbmTy0_1 i
  | _ => ⟨S2x1024x50257, .f32⟩

abbrev bufTy : (tb : Table) → Fin (tcTables nBuf tb) → BufTy
  | .hbm, ⟨i, _⟩ => hbmTy i
  | .local _ .vmem, ⟨0, _⟩ => ⟨S32x50257, .f32⟩
  | .local _ .vmem, ⟨1, _⟩ => ⟨S32x50257, .f32⟩
  | .local _ .vmem, ⟨2, _⟩ => ⟨S32x1, .i32⟩
  | .local _ .vmem, ⟨3, _⟩ => ⟨S32x1, .i32⟩
  | .local _ .vmem, ⟨4, _⟩ => ⟨S1x1, .f32⟩
  | .local _ .vmem, ⟨5, _⟩ => ⟨S1x1, .f32⟩
  | _, _ => ⟨S2x1024x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_call0_c : Ref sig .tc := ⟨.hbm, 50, rfl⟩
abbrev main_call0_call0_v0 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_c_10 : Ref sig .tc := ⟨.hbm, 57, rfl⟩
abbrev main_v41 : Ref sig .tc := ⟨.hbm, 58, rfl⟩
abbrev main_v42 : Ref sig .tc := ⟨.hbm, 59, rfl⟩
abbrev main_c_11 : Ref sig .tc := ⟨.hbm, 60, rfl⟩
abbrev main_v43 : Ref sig .tc := ⟨.hbm, 61, rfl⟩
abbrev main_v44 : Ref sig .tc := ⟨.hbm, 62, rfl⟩
abbrev main_c_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_13 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_14 : Ref sig .tc := ⟨.hbm, 76, rfl⟩
abbrev main_v56 : Ref sig .tc := ⟨.hbm, 77, rfl⟩
abbrev main_v57 : Ref sig .tc := ⟨.hbm, 78, rfl⟩
abbrev main_c_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call1_call0_c : Ref sig .tc := ⟨.hbm, 83, rfl⟩
abbrev main_call1_call0_v0 : Ref sig .tc := ⟨.hbm, 84, rfl⟩
abbrev main_v61 : Ref sig .tc := ⟨.hbm, 85, rfl⟩
abbrev main_v62 : Ref sig .tc := ⟨.hbm, 86, rfl⟩
abbrev main_c_16 : Ref sig .tc := ⟨.hbm, 87, rfl⟩
abbrev main_v63 : Ref sig .tc := ⟨.hbm, 88, rfl⟩
abbrev main_v64 : Ref sig .tc := ⟨.hbm, 89, rfl⟩
abbrev main_c_17 : Ref sig .tc := ⟨.hbm, 90, rfl⟩
abbrev main_v65 : Ref sig .tc := ⟨.hbm, 91, rfl⟩
abbrev main_v66 : Ref sig .tc := ⟨.hbm, 92, rfl⟩
abbrev main_c_18 : Ref sig .tc := ⟨.hbm, 93, rfl⟩
abbrev main_v67 : Ref sig .tc := ⟨.hbm, 94, rfl⟩
abbrev main_v68 : Ref sig .tc := ⟨.hbm, 95, rfl⟩
abbrev main_c_19 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_20 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_21 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_c_22 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_23 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_24 : Ref sig .tc := ⟨.hbm, 122, rfl⟩
abbrev main_v90 : Ref sig .tc := ⟨.hbm, 123, rfl⟩
abbrev main_v91 : Ref sig .tc := ⟨.hbm, 124, rfl⟩
abbrev main_cst_25 : Ref sig .tc := ⟨.hbm, 125, rfl⟩
abbrev main_v92 : Ref sig .tc := ⟨.hbm, 126, rfl⟩
abbrev main_cst_26 : Ref sig .tc := ⟨.hbm, 127, rfl⟩
abbrev main_v93 : Ref sig .tc := ⟨.hbm, 128, rfl⟩
abbrev main_v94 : Ref sig .tc := ⟨.hbm, 129, rfl⟩
abbrev main_cst_27 : Ref sig .tc := ⟨.hbm, 130, rfl⟩
abbrev main_v95 : Ref sig .tc := ⟨.hbm, 131, rfl⟩
abbrev main_v96 : Ref sig .tc := ⟨.hbm, 132, rfl⟩
abbrev main_cst_28 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_29 : Ref sig .tc := ⟨.hbm, 139, rfl⟩
abbrev main_v102 : Ref sig .tc := ⟨.hbm, 140, rfl⟩
abbrev main_cst_30 : Ref sig .tc := ⟨.hbm, 141, rfl⟩
abbrev main_v103 : Ref sig .tc := ⟨.hbm, 142, rfl⟩
abbrev main_v104 : Ref sig .tc := ⟨.hbm, 143, rfl⟩
abbrev main_cst_31 : Ref sig .tc := ⟨.hbm, 144, rfl⟩
abbrev main_call2_v0 : Ref sig .tc := ⟨.hbm, 145, rfl⟩
abbrev main_v105 : Ref sig .tc := ⟨.hbm, 146, rfl⟩
abbrev main_cst_32 : Ref sig .tc := ⟨.hbm, 147, rfl⟩
abbrev main_v106 : Ref sig .tc := ⟨.hbm, 148, rfl⟩
abbrev main_v107 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v33 : BitVec 1 := Scalar.cmpi .eq arg0 c63_i32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x50257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S2x1024x50257_S2048x50257 : S2x1024x50257.ShapeCasts S2048x50257
  shapeCasts_S2x1024_S2048x1 : S2x1024.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x50257_S32x50257_0_0 : ∀ a, (![0, 0] : Fin 2 → Nat) a + S32x50257.size a ≤ S32x50257.size a
  h_S32x50257 : 0 < S32x50257.numel
  shapeCasts_S32x50257_S32x50257 : S32x50257.ShapeCasts S32x50257
  reduces_S32x50257_S32 : S32x50257.Reduces [1] S32
  shapeCasts_S32_S32x1 : S32.ShapeCasts S32x1
  broadcasts_S32x1_S32x50257 : S32x1.Broadcasts S32x50257
  inb_S32x1_S32x1_0_0 : ∀ a, (![0, 0] : Fin 2 → Nat) a + S32x1.size a ≤ S32x1.size a
  h_S32x1 : 0 < S32x1.numel
  shapeCasts_S32x1_S32x1 : S32x1.ShapeCasts S32x1
  iota_S32x50257_d1_w32 : S32x50257.Iotas .tc 32 [1]
  reduces_S32x1_S1 : S32x1.Reduces [0] S1
  shapeCasts_S1_S1x1 : S1.ShapeCasts S1x1
  shapeCasts_S1x1_S_ : S1x1.ShapeCasts S_
  slices_S2x1024_S2x1023_0_0 : S2x1024.Slices ![0, 0] S2x1023
  slices_S2x1024_S2x1023_0_1 : S2x1024.Slices ![0, 1] S2x1023
  bcast_S2x1023_S2x1023x1_0_1 : S2x1023.BroadcastsInDim S2x1023x1 (![0, 1] : Fin 2 → Fin S2x1023x1.rank)
  bcast_S19_S1x1x19_2 : S19.BroadcastsInDim S1x1x19 (![2] : Fin 1 → Fin S1x1x19.rank)
  bcast_S2x1023x1_S2x1023x19_0_1_2 : S2x1023x1.BroadcastsInDim S2x1023x19 (![0, 1, 2] : Fin 3 → Fin S2x1023x19.rank)
  bcast_S1x1x19_S2x1023x19_0_1_2 : S1x1x19.BroadcastsInDim S2x1023x19 (![0, 1, 2] : Fin 3 → Fin S2x1023x19.rank)
  bcast_S2x1023_S2x1023x1x1_0_1 : S2x1023.BroadcastsInDim S2x1023x1x1 (![0, 1] : Fin 2 → Fin S2x1023x1x1.rank)
  bcast_S19x7_S1x1x19x7_2_3 : S19x7.BroadcastsInDim S1x1x19x7 (![2, 3] : Fin 2 → Fin S1x1x19x7.rank)
  bcast_S2x1023x1x1_S2x1023x19x7_0_1_2_3 : S2x1023x1x1.BroadcastsInDim S2x1023x19x7 (![0, 1, 2, 3] : Fin 4 → Fin S2x1023x19x7.rank)
  bcast_S1x1x19x7_S2x1023x19x7_0_1_2_3 : S1x1x19x7.BroadcastsInDim S2x1023x19x7 (![0, 1, 2, 3] : Fin 4 → Fin S2x1023x19x7.rank)
  reducesTo_S2x1023x19x7_S2x1023x19_d3 : S2x1023x19x7.ReducesTo [3] S2x1023x19
  h_S_ : 0 < S_.numel
  reducesTo_S2x1023x19_S2x1023_d2 : S2x1023x19.ReducesTo [2] S2x1023
  bcast_S_S2x1023 : S_.BroadcastsInDim S2x1023 (![] : Fin 0 → Fin S2x1023.rank)
  bcast_S_S2x1024 : S_.BroadcastsInDim S2x1024 (![] : Fin 0 → Fin S2x1024.rank)
  natLt_1_32 : 1 < 32
  bcast_S_S_ : S_.BroadcastsInDim S_ (![] : Fin 0 → Fin S_.rank)
  reduceWindows_S2x1024_S2x1024_w1s1p0_0_w1024s1p1023_0 : S2x1024.ReduceWindows (![1, 1024] : Fin 2 → Nat) ![1, 1] ![0, 1023] ![0, 0] S2x1024
  bcast_S_S1023 : S_.BroadcastsInDim S1023 (![] : Fin 0 → Fin S1023.rank)
  bcast_S1023_S1023x1_0 : S1023.BroadcastsInDim S1023x1 (![0] : Fin 1 → Fin S1023x1.rank)
  reducesTo_S2x1023_S_d0_1 : S2x1023.ReducesTo [0, 1] S_
  gather_S2x1024_S1023x1_S2x1023_0_1_n_n_1_1_21_wf : GatherDims.WF S2x1024 S1023x1 S2x1023 [0] [1] [] [1] [] 1 ![2, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50257.size a ≤ S2048x50257.size a
  hwx0_0 : ∀ i : grid0.Coords, EltTy.bits .f32 = 32 ∨ (Rect.block (s := S2048x50257) S32x50257.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S2048x1.size a
  hwx0_1 : ∀ i : grid0.Coords, EltTy.bits .i32 = 32 ∨ (Rect.block (s := S2048x1) S32x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S2x1024_S1023x1_S2x1023_0_1_n_n_1_1_21 : GatherDims S2x1024 S1023x1 S2x1023 where
  offsetDims := [0]
  collapsedSliceDims := [1]
  operandBatchingDims := []
  startIndicesBatchingDims := []
  startIndexMap := [1]
  indexVectorDim := 1
  sliceSizes := ![2, 1]
  wf := gather_S2x1024_S1023x1_S2x1023_0_1_n_n_1_1_21_wf

abbrev win0_0 : Pipeline.Window sig grid0 :=
  Pipeline.Window.ofSpec (Memref.whole main_v0) S32x50257.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2x1024x50257 : Shape := ⟨3, ![2, 1024, 50257]⟩
abbrev S2x1024 : Shape := ⟨2, ![2, 1024]⟩
abbrev S19 : Shape := ⟨1, ![19]⟩
abbrev S19x7 : Shape := ⟨2, ![19, 7]⟩
abbrev S_ : Shape := ⟨0, ![]⟩
abbrev S2x1024x1 : Shape := ⟨3, ![2, 1024, 1]⟩
abbrev S2x1024x1x1 : Shape := ⟨4, ![2, 1024, 1, 1]⟩
abbrev S1 : Shape := ⟨1, ![1]⟩
abbrev S1x1x1x1 : Shape := ⟨4, ![1, 1, 1, 1]⟩
abbrev S2x1023 : Shape := ⟨2, ![2, 1023]⟩
abbrev S2x1023x1 : Shape := ⟨3, ![2, 1023, 1]⟩
abbrev S1x1x19 : Shape := ⟨3, ![1, 1, 19]⟩
abbrev S2x1023x19 : Shape := ⟨3, ![2, 1023, 19]⟩
abbrev S2x1023x1x1 : Shape := ⟨4, ![2, 1023, 1, 1]⟩
abbrev S1x1x19x7 : Shape := ⟨4, ![1, 1, 19, 7]⟩
abbrev S2x1023x19x7 : Shape := ⟨4, ![2, 1023, 19, 7]⟩
abbrev S1023 : Shape := ⟨1, ![1023]⟩
abbrev S1023x1 : Shape := ⟨2, ![1023, 1]⟩

abbrev nBuf : Space → Nat
  | .hbm => 187
  | .vmem => 0
  | .smem => 0
  | _ => 0

abbrev hbmTy0_0 (i : Nat) : BufTy := match i % 128 with
  | 0 => ⟨S2x1024x50257, .f32⟩
  | 1 => ⟨S2x1024, .i32⟩
  | 2 => ⟨S19, .i32⟩
  | 3 => ⟨S19x7, .i32⟩
  | 4 => ⟨S_, .f32⟩
  | 5 => ⟨S2x1024, .f32⟩
  | 6 => ⟨S_, .f32⟩
  | 7 => ⟨S2x1024, .f32⟩
  | 8 => ⟨S2x1024, .f32⟩
  | 9 => ⟨S2x1024x1, .f32⟩
  | 10 => ⟨S2x1024x50257, .f32⟩
  | 11 => ⟨S2x1024x50257, .f32⟩
  | 12 => ⟨S2x1024x50257, .f32⟩
  | 13 => ⟨S_, .f32⟩
  | 14 => ⟨S2x1024, .f32⟩
  | 15 => ⟨S2x1024x1, .f32⟩
  | 16 => ⟨S2x1024x1, .f32⟩
  | 17 => ⟨S2x1024x50257, .f32⟩
  | 18 => ⟨S2x1024x50257, .f32⟩
  | 19 => ⟨S2x1024x1, .i32⟩
  | 20 => ⟨S_, .i32⟩
  | 21 => ⟨S2x1024x1, .i32⟩
  | 22 => ⟨S2x1024x1, .i1⟩
  | 23 => ⟨S_, .i32⟩
  | 24 => ⟨S2x1024x1, .i32⟩
  | 25 => ⟨S2x1024x1, .i32⟩
  | 26 => ⟨S2x1024x1, .i32⟩
  | 27 => ⟨S2x1024x1x1, .i32⟩
  | 28 => ⟨S1, .i32⟩
  | 29 => ⟨S_, .i32⟩
  | 30 => ⟨S2x1024x1x1, .i32⟩
  | 31 => ⟨S2x1024x1x1, .i1⟩
  | 32 => ⟨S1x1x1x1, .i32⟩
  | 33 => ⟨S2x1024x1x1, .i32⟩
  | 34 => ⟨S2x1024x1x1, .i1⟩
  | 35 => ⟨S2x1024x1x1, .i1⟩
  | 36 => ⟨S_, .i1⟩
  | 37 => ⟨S2x1024x1, .i1⟩
  | 38 => ⟨S2x1024x1, .f32⟩
  | 39 => ⟨S_, .f32⟩
  | 40 => ⟨S2x1024x1, .f32⟩
  | 41 => ⟨S2x1024x1, .f32⟩
  | 42 => ⟨S_, .f32⟩
  | 43 => ⟨S_, .f32⟩
  | 44 => ⟨S_, .f32⟩
  | 45 => ⟨S_, .f32⟩
  | 46 => ⟨S_, .f32⟩
  | 47 => ⟨S2x1023, .i32⟩
  | 48 => ⟨S2x1023, .i32⟩
  | 49 => ⟨S2x1023x1, .i32⟩
  | 50 => ⟨S1x1x19, .i32⟩
  | 51 => ⟨S2x1023x19, .i32⟩
  | 52 => ⟨S2x1023x19, .i32⟩
  | 53 => ⟨S2x1023x19, .i1⟩
  | 54 => ⟨S2x1023x1x1, .i32⟩
  | 55 => ⟨S1x1x19x7, .i32⟩
  | 56 => ⟨S2x1023x19x7, .i32⟩
  | 57 => ⟨S2x1023x19x7, .i32⟩
  | 58 => ⟨S2x1023x19x7, .i1⟩
  | 59 => ⟨S_, .i1⟩
  | 60 => ⟨S2x1023x19, .i1⟩
  | 61 => ⟨S2x1023x19, .i1⟩
  | 62 => ⟨S2x1023x19, .i1⟩
  | 63 => ⟨S_, .i1⟩
  | 64 => ⟨S2x1023, .i1⟩
  | 65 => ⟨S_, .i32⟩
  | 66 => ⟨S2x1023, .i32⟩
  | 67 => ⟨S2x1023, .i1⟩
  | 68 => ⟨S_, .i32⟩
  | 69 => ⟨S2x1023, .i32⟩
  | 70 => ⟨S2x1023, .i1⟩
  | 71 => ⟨S2x1023, .i1⟩
  | 72 => ⟨S_, .i32⟩
  | 73 => ⟨S2x1023, .i32⟩
  | 74 => ⟨S2x1023, .i1⟩
  | 75 => ⟨S2x1023, .i1⟩
  | 76 => ⟨S_, .i32⟩
  | 77 => ⟨S2x1023, .i32⟩
  | 78 => ⟨S2x1023, .i1⟩
  | 79 => ⟨S2x1023, .i1⟩
  | 80 => ⟨S_, .i32⟩
  | 81 => ⟨S2x1023, .i32⟩
  | 82 => ⟨S2x1023, .i1⟩
  | 83 => ⟨S_, .i32⟩
  | 84 => ⟨S2x1024, .i32⟩
  | 85 => ⟨S2x1024, .i1⟩
  | 86 => ⟨S2x1024, .i32⟩
  | 87 => ⟨S_, .i32⟩
  | 88 => ⟨S_, .i32⟩
  | 89 => ⟨S2x1024, .i32⟩
  | 90 => ⟨S1023, .i32⟩
  | 91 => ⟨S_, .i32⟩
  | 92 => ⟨S1023, .i32⟩
  | 93 => ⟨S1023, .i32⟩
  | 94 => ⟨S_, .i32⟩
  | 95 => ⟨S1023, .i32⟩
  | 96 => ⟨S1023, .i32⟩
  | 97 => ⟨S_, .i32⟩
  | 98 => ⟨S1023, .i32⟩
  | 99 => ⟨S1023, .i1⟩
  | 100 => ⟨S_, .i32⟩
  | 101 => ⟨S1023, .i32⟩
  | 102 => ⟨S1023, .i32⟩
  | 103 => ⟨S1023, .i32⟩
  | 104 => ⟨S1023x1, .i32⟩
  | 105 => ⟨S2x1023, .i32⟩
  | 106 => ⟨S2x1023, .i32⟩
  | 107 => ⟨S2x1023, .i32⟩
  | 108 => ⟨S_, .i32⟩
  | 109 => ⟨S2x1023, .i32⟩
  | 110 => ⟨S2x1023, .i1⟩
  | 111 => ⟨S2x1023, .i1⟩
  | 112 => ⟨S2x1023, .i1⟩
  | 113 => ⟨S_, .i32⟩
  | 114 => ⟨S2x1023, .i32⟩
  | 115 => ⟨S2x1023, .i1⟩
  | 116 => ⟨S_, .i32⟩
  | 117 => ⟨S2x1024, .i32⟩
  | 118 => ⟨S2x1024, .i1⟩
  | 119 => ⟨S2x1024, .i32⟩
  | 120 => ⟨S_, .i32⟩
  | 121 => ⟨S_, .i32⟩
  | 122 => ⟨S2x1024, .i32⟩
  | 123 => ⟨S1023, .i32⟩
  | 124 => ⟨S_, .i32⟩
  | 125 => ⟨S1023, .i32⟩
  | 126 => ⟨S1023, .i32⟩
  | 127 => ⟨S_, .i32⟩
  | _ => ⟨S2x1024x50257, .f32⟩

abbrev hbmTy0_1 (i : Nat) : BufTy := match i % 128 with
  | 0 => ⟨S1023, .i32⟩
  | 1 => ⟨S1023, .i32⟩
  | 2 => ⟨S_, .i32⟩
  | 3 => ⟨S1023, .i32⟩
  | 4 => ⟨S1023, .i1⟩
  | 5 => ⟨S_, .i32⟩
  | 6 => ⟨S1023, .i32⟩
  | 7 => ⟨S1023, .i32⟩
  | 8 => ⟨S1023, .i32⟩
  | 9 => ⟨S1023x1, .i32⟩
  | 10 => ⟨S2x1023, .i32⟩
  | 11 => ⟨S2x1023, .i32⟩
  | 12 => ⟨S2x1023, .i32⟩
  | 13 => ⟨S_, .i32⟩
  | 14 => ⟨S2x1023, .i32⟩
  | 15 => ⟨S2x1023, .i1⟩
  | 16 => ⟨S2x1023, .i1⟩
  | 17 => ⟨S2x1023, .i1⟩
  | 18 => ⟨S2x1023, .i32⟩
  | 19 => ⟨S_, .i32⟩
  | 20 => ⟨S_, .i32⟩
  | 21 => ⟨S_, .f32⟩
  | 22 => ⟨S2x1023, .i32⟩
  | 23 => ⟨S_, .i32⟩
  | 24 => ⟨S_, .i32⟩
  | 25 => ⟨S_, .f32⟩
  | 26 => ⟨S2x1023, .i32⟩
  | 27 => ⟨S_, .i32⟩
  | 28 => ⟨S_, .i32⟩
  | 29 => ⟨S_, .f32⟩
  | 30 => ⟨S2x1023, .i32⟩
  | 31 => ⟨S_, .i32⟩
  | 32 => ⟨S_, .i32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | _ => ⟨S2x1024x50257, .f32⟩

abbrev hbmTy (i : Nat) : BufTy := match i / 128 with
  | 0 => hbmTy0_0 i
  | 1 => hbmTy0_1 i
  | _ => ⟨S2x1024x50257, .f32⟩

abbrev bufTy : (tb : Table) → Fin (tcTables nBuf tb) → BufTy
  | .hbm, ⟨i, _⟩ => hbmTy i
  | _, _ => ⟨S2x1024x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_cst : Ref sig .tc := ⟨.hbm, 42, rfl⟩
abbrev main_v3 : Ref sig .tc := ⟨.hbm, 43, rfl⟩
abbrev main_cst_1 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_c_2 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_c_3 : Ref sig .tc := ⟨.hbm, 63, rfl⟩
abbrev main_v21 : Ref sig .tc := ⟨.hbm, 64, rfl⟩
abbrev main_c_4 : Ref sig .tc := ⟨.hbm, 65, rfl⟩
abbrev main_v22 : Ref sig .tc := ⟨.hbm, 66, rfl⟩
abbrev main_v23 : Ref sig .tc := ⟨.hbm, 67, rfl⟩
abbrev main_c_5 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_c_6 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_c_7 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_c_8 : Ref sig .tc := ⟨.hbm, 80, rfl⟩
abbrev main_v33 : Ref sig .tc := ⟨.hbm, 81, rfl⟩
abbrev main_v34 : Ref sig .tc := ⟨.hbm, 82, rfl⟩
abbrev main_c_9 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_call2_call0_c : Ref sig .tc := ⟨.hbm, 87, rfl⟩
abbrev main_call2_call0_v0 : Ref sig .tc := ⟨.hbm, 88, rfl⟩
abbrev main_v38 : Ref sig .tc := ⟨.hbm, 89, rfl⟩
abbrev main_v39 : Ref sig .tc := ⟨.hbm, 90, rfl⟩
abbrev main_c_10 : Ref sig .tc := ⟨.hbm, 91, rfl⟩
abbrev main_v40 : Ref sig .tc := ⟨.hbm, 92, rfl⟩
abbrev main_v41 : Ref sig .tc := ⟨.hbm, 93, rfl⟩
abbrev main_c_11 : Ref sig .tc := ⟨.hbm, 94, rfl⟩
abbrev main_v42 : Ref sig .tc := ⟨.hbm, 95, rfl⟩
abbrev main_v43 : Ref sig .tc := ⟨.hbm, 96, rfl⟩
abbrev main_c_12 : Ref sig .tc := ⟨.hbm, 97, rfl⟩
abbrev main_v44 : Ref sig .tc := ⟨.hbm, 98, rfl⟩
abbrev main_v45 : Ref sig .tc := ⟨.hbm, 99, rfl⟩
abbrev main_c_13 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_c_14 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_c_15 : Ref sig .tc := ⟨.hbm, 113, rfl⟩
abbrev main_v57 : Ref sig .tc := ⟨.hbm, 114, rfl⟩
abbrev main_v58 : Ref sig .tc := ⟨.hbm, 115, rfl⟩
abbrev main_c_16 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_call3_call0_c : Ref sig .tc := ⟨.hbm, 120, rfl⟩
abbrev main_call3_call0_v0 : Ref sig .tc := ⟨.hbm, 121, rfl⟩
abbrev main_v62 : Ref sig .tc := ⟨.hbm, 122, rfl⟩
abbrev main_v63 : Ref sig .tc := ⟨.hbm, 123, rfl⟩
abbrev main_c_17 : Ref sig .tc := ⟨.hbm, 124, rfl⟩
abbrev main_v64 : Ref sig .tc := ⟨.hbm, 125, rfl⟩
abbrev main_v65 : Ref sig .tc := ⟨.hbm, 126, rfl⟩
abbrev main_c_18 : Ref sig .tc := ⟨.hbm, 127, rfl⟩
abbrev main_v66 : Ref sig .tc := ⟨.hbm, 128, rfl⟩
abbrev main_v67 : Ref sig .tc := ⟨.hbm, 129, rfl⟩
abbrev main_c_19 : Ref sig .tc := ⟨.hbm, 130, rfl⟩
abbrev main_v68 : Ref sig .tc := ⟨.hbm, 131, rfl⟩
abbrev main_v69 : Ref sig .tc := ⟨.hbm, 132, rfl⟩
abbrev main_c_20 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_c_21 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_c_22 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_c_23 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_c_24 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_c_25 : Ref sig .tc := ⟨.hbm, 159, rfl⟩
abbrev main_v91 : Ref sig .tc := ⟨.hbm, 160, rfl⟩
abbrev main_v92 : Ref sig .tc := ⟨.hbm, 161, rfl⟩
abbrev main_cst_26 : Ref sig .tc := ⟨.hbm, 162, rfl⟩
abbrev main_v93 : Ref sig .tc := ⟨.hbm, 163, rfl⟩
abbrev main_cst_27 : Ref sig .tc := ⟨.hbm, 164, rfl⟩
abbrev main_v94 : Ref sig .tc := ⟨.hbm, 165, rfl⟩
abbrev main_v95 : Ref sig .tc := ⟨.hbm, 166, rfl⟩
abbrev main_cst_28 : Ref sig .tc := ⟨.hbm, 167, rfl⟩
abbrev main_v96 : Ref sig .tc := ⟨.hbm, 168, rfl⟩
abbrev main_v97 : Ref sig .tc := ⟨.hbm, 169, rfl⟩
abbrev main_cst_29 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_cst_30 : Ref sig .tc := ⟨.hbm, 176, rfl⟩
abbrev main_v103 : Ref sig .tc := ⟨.hbm, 177, rfl⟩
abbrev main_cst_31 : Ref sig .tc := ⟨.hbm, 178, rfl⟩
abbrev main_v104 : Ref sig .tc := ⟨.hbm, 179, rfl⟩
abbrev main_v105 : Ref sig .tc := ⟨.hbm, 180, rfl⟩
abbrev main_cst_32 : Ref sig .tc := ⟨.hbm, 181, rfl⟩
abbrev main_call4_v0 : Ref sig .tc := ⟨.hbm, 182, rfl⟩
abbrev main_v106 : Ref sig .tc := ⟨.hbm, 183, rfl⟩
abbrev main_cst_33 : Ref sig .tc := ⟨.hbm, 184, rfl⟩
abbrev main_v107 : Ref sig .tc := ⟨.hbm, 185, rfl⟩
abbrev main_v108 : Ref sig .tc := ⟨.hbm, 186, rfl⟩

abbrev nD : Nat := 1
abbrev τ : Topo := Topo.v7x

variable {F : FTy → Type} [FloatOps F]

class Facts₀ : Prop where
  reducesTo_S2x1024x50257_S2x1024_d2 : S2x1024x50257.ReducesTo [2] S2x1024
  h_S_ : 0 < S_.numel
  bcast_S_S2x1024 : S_.BroadcastsInDim S2x1024 (![] : Fin 0 → Fin S2x1024.rank)
  bcast_S2x1024_S2x1024x1_0_1 : S2x1024.BroadcastsInDim S2x1024x1 (![0, 1] : Fin 2 → Fin S2x1024x1.rank)
  bcast_S2x1024x1_S2x1024x50257_0_1_2 : S2x1024x1.BroadcastsInDim S2x1024x50257 (![0, 1, 2] : Fin 3 → Fin S2x1024x50257.rank)
  bcast_S_S2x1024x1 : S_.BroadcastsInDim S2x1024x1 (![] : Fin 0 → Fin S2x1024x1.rank)
  shapeCasts_S2x1024x1_S2x1024x1x1 : S2x1024x1.ShapeCasts S2x1024x1x1
  bcast_S_S2x1024x1x1 : S_.BroadcastsInDim S2x1024x1x1 (![] : Fin 0 → Fin S2x1024x1x1.rank)
  bcast_S1_S1x1x1x1_3 : S1.BroadcastsInDim S1x1x1x1 (![3] : Fin 1 → Fin S1x1x1x1.rank)
  bcast_S1x1x1x1_S2x1024x1x1_0_1_2_3 : S1x1x1x1.BroadcastsInDim S2x1024x1x1 (![0, 1, 2, 3] : Fin 4 → Fin S2x1024x1x1.rank)
  reducesTo_S2x1024x1x1_S2x1024x1_d3 : S2x1024x1x1.ReducesTo [3] S2x1024x1
  reducesTo_S2x1024x1_S_d0_1_2 : S2x1024x1.ReducesTo [0, 1, 2] S_
  slices_S2x1024_S2x1023_0_0 : S2x1024.Slices ![0, 0] S2x1023
  slices_S2x1024_S2x1023_0_1 : S2x1024.Slices ![0, 1] S2x1023
  bcast_S2x1023_S2x1023x1_0_1 : S2x1023.BroadcastsInDim S2x1023x1 (![0, 1] : Fin 2 → Fin S2x1023x1.rank)
  bcast_S19_S1x1x19_2 : S19.BroadcastsInDim S1x1x19 (![2] : Fin 1 → Fin S1x1x19.rank)
  bcast_S2x1023x1_S2x1023x19_0_1_2 : S2x1023x1.BroadcastsInDim S2x1023x19 (![0, 1, 2] : Fin 3 → Fin S2x1023x19.rank)
  bcast_S1x1x19_S2x1023x19_0_1_2 : S1x1x19.BroadcastsInDim S2x1023x19 (![0, 1, 2] : Fin 3 → Fin S2x1023x19.rank)
  bcast_S2x1023_S2x1023x1x1_0_1 : S2x1023.BroadcastsInDim S2x1023x1x1 (![0, 1] : Fin 2 → Fin S2x1023x1x1.rank)
  bcast_S19x7_S1x1x19x7_2_3 : S19x7.BroadcastsInDim S1x1x19x7 (![2, 3] : Fin 2 → Fin S1x1x19x7.rank)
  bcast_S2x1023x1x1_S2x1023x19x7_0_1_2_3 : S2x1023x1x1.BroadcastsInDim S2x1023x19x7 (![0, 1, 2, 3] : Fin 4 → Fin S2x1023x19x7.rank)
  bcast_S1x1x19x7_S2x1023x19x7_0_1_2_3 : S1x1x19x7.BroadcastsInDim S2x1023x19x7 (![0, 1, 2, 3] : Fin 4 → Fin S2x1023x19x7.rank)
  reducesTo_S2x1023x19x7_S2x1023x19_d3 : S2x1023x19x7.ReducesTo [3] S2x1023x19
  reducesTo_S2x1023x19_S2x1023_d2 : S2x1023x19.ReducesTo [2] S2x1023
  bcast_S_S2x1023 : S_.BroadcastsInDim S2x1023 (![] : Fin 0 → Fin S2x1023.rank)
  natLt_1_32 : 1 < 32
  bcast_S_S_ : S_.BroadcastsInDim S_ (![] : Fin 0 → Fin S_.rank)
  reduceWindows_S2x1024_S2x1024_w1s1p0_0_w1024s1p1023_0 : S2x1024.ReduceWindows (![1, 1024] : Fin 2 → Nat) ![1, 1] ![0, 1023] ![0, 0] S2x1024
  bcast_S_S1023 : S_.BroadcastsInDim S1023 (![] : Fin 0 → Fin S1023.rank)
  bcast_S1023_S1023x1_0 : S1023.BroadcastsInDim S1023x1 (![0] : Fin 1 → Fin S1023x1.rank)
  reducesTo_S2x1023_S_d0_1 : S2x1023.ReducesTo [0, 1] S_
  gather_S2x1024x50257_S2x1024x1x1_S2x1024x1_n_2_01_01_2_3_111_wf : GatherDims.WF S2x1024x50257 S2x1024x1x1 S2x1024x1 [] [2] [0, 1] [2] [0, 1] 3 ![1, 1, 1]
  gather_S2x1024_S1023x1_S2x1023_0_1_n_n_1_1_21_wf : GatherDims.WF S2x1024 S1023x1 S2x1023 [0] [1] [] [1] [] 1 ![2, 1]

variable [Facts₀]

def gather_S2x1024x50257_S2x1024x1x1_S2x1024x1_n_2_01_01_2_3_111 : GatherDims S2x1024x50257 S2x1024x1x1 S2x1024x1 where
  offsetDims := []
  collapsedSliceDims := [2]
  operandBatchingDims := [0, 1]
  startIndicesBatchingDims := [0, 1]
  startIndexMap := [2]
  indexVectorDim := 3
  sliceSizes := ![1, 1, 1]
  wf := gather_S2x1024x50257_S2x1024x1x1_S2x1024x1_n_2_01_01_2_3_111_wf
def gather_S2x1024_S1023x1_S2x1023_0_1_n_n_1_1_21 : GatherDims S2x1024 S1023x1 S2x1023 where
  offsetDims := [0]
  collapsedSliceDims := [1]
  operandBatchingDims := []
  startIndicesBatchingDims := []
  startIndexMap := [1]
  indexVectorDim := 1
  sliceSizes := ![2, 1]
  wf := gather_S2x1024_S1023x1_S2x1023_0_1_n_n_1_1_21_wf

class Facts : Prop extends Facts₀ where

variable [Facts]
-- ==== Proof.KBKit.lean ====
/-
  The frame of the cross-entropy kernel's program, first part: the program around its one pipelined region.
  @main runs four host operations (two constant tables and the reshapes of the logits to [2048, 50257] and of the
  targets to [2048, 1]), the region, and then 143 more host operations (the division of the region's (1, 1) result by
  2048, the syntax penalty computed from the targets, and the final sum). Here: the buffers' contents when the region is
  entered (`V`), that @main reduces to the region continued by the later operations (`hmain`), that those operations
  touch only unscoped buffers, allocate nothing and write none of the region's three arrays, that the two arguments are
  untouched when the region is entered, the windows' blocks (`iblk`), that an input window's staging buffer holds its
  block at every grid point, and how the frame claim follows from a frame run (`frame_of`); then the body's two branch
  conditions decided over the 64 grid points (the accumulator is reset at point 0 and stored to the output at point 63),
  where the output window is idle, and the staging and scratch memrefs the body is called with.
-/
import proofs.«426039_j807453852038_3_alg».proof.Proof.Gen.Kernel.Launch
import proofs.«426039_j807453852038_3_alg».proof.Proof.Gen.Kernel.Skeleton
import proofs.«426039_j807453852038_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) :=
  [hostOps1, hostOps1_1, hostOps1_2, hostOps1_3, hostOps1_4, hostOps1_5, hostOps1_6]

/-- Core `c`'s buffer contents when the region is entered: after the four host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host operations before the region, the region, and the region's continuation by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Membership in the list of stretches, one stretch at a time. -/
theorem tail_cases {P : List (HloOp τ sig (Elt F)) → Prop} (h0 : P hostOps1) (h1 : P hostOps1_1) (h2 : P hostOps1_2) (h3 : P hostOps1_3)
    (h4 : P hostOps1_4) (h5 : P hostOps1_5) (h6 : P hostOps1_6) : ∀ ops ∈ (tailOps : List (List (HloOp τ sig (Elt F)))), P ops := by
  intro ops hops
  simp only [List.mem_cons, List.mem_nil_iff, or_false] at hops
  rcases hops with rfl | rfl | rfl | rfl | rfl | rfl | rfl
  · exact h0
  · exact h1
  · exact h2
  · exact h3
  · exact h4
  · exact h5
  · exact h6

/-- The later operations touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_cases
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
    (fun op hop => Pipeline.sub_ucRefs op ((List.forall_iff_forall_mem.mp hostOps1_5_sub) op hop))
    (fun op hop => Pipeline.sub_ucRefs op ((List.forall_iff_forall_mem.mp hostOps1_6_sub) op hop))
/-- They allocate nothing. -/
theorem sfx_fresh : ∀ ops ∈ (tailOps : List (List (HloOp τ sig (Elt F)))), ∀ op ∈ ops, op.fresh = ∅ :=
  tail_cases
    (fun op hop => (List.forall_iff_forall_mem.mp hostOps1_fresh) op hop)
    (fun op hop => (List.forall_iff_forall_mem.mp hostOps1_1_fresh) op hop)
    (fun op hop => (List.forall_iff_forall_mem.mp hostOps1_2_fresh) op hop)
    (fun op hop => (List.forall_iff_forall_mem.mp hostOps1_3_fresh) op hop)
    (fun op hop => (List.forall_iff_forall_mem.mp hostOps1_4_fresh) op hop)
    (fun op hop => (List.forall_iff_forall_mem.mp hostOps1_5_fresh) op hop)
    (fun op hop => (List.forall_iff_forall_mem.mp hostOps1_6_fresh) op hop)

/-- No later operation writes reference `r`, for a reference `r` that is no result of theirs: every operation writes only
    its own result buffer. Used for the region's three arrays and for the two arguments. -/
theorem tail_keeps (r : Ref sig .tc)
    (h : (List.flatten (tailOps : List (List (HloOp τ sig (Elt F))))).Forall fun op => Proc.devRef .tc r ∉ op.writes) :
    ∀ ops ∈ (tailOps : List (List (HloOp τ sig (Elt F)))), ∀ op ∈ ops, Proc.devRef .tc r ∉ op.writes := by
  intro ops hops op hop
  exact (List.forall_iff_forall_mem.mp h) op (List.mem_flatten.mpr ⟨ops, hops, hop⟩)

set_option maxHeartbeats 4000000 in
theorem keeps_v0 : (List.flatten (tailOps : List (List (HloOp τ sig (Elt F))))).Forall fun op => Proc.devRef .tc main_v0 ∉ op.writes := by
  simp only [hostOps1, hostOps1_1, hostOps1_2, hostOps1_3, hostOps1_4, hostOps1_5, hostOps1_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
theorem keeps_v1 : (List.flatten (tailOps : List (List (HloOp τ sig (Elt F))))).Forall fun op => Proc.devRef .tc main_v1 ∉ op.writes := by
  simp only [hostOps1, hostOps1_1, hostOps1_2, hostOps1_3, hostOps1_4, hostOps1_5, hostOps1_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
theorem keeps_v2 : (List.flatten (tailOps : List (List (HloOp τ sig (Elt F))))).Forall fun op => Proc.devRef .tc main_v2 ∉ op.writes := by
  simp only [hostOps1, hostOps1_1, hostOps1_2, hostOps1_3, hostOps1_4, hostOps1_5, hostOps1_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
theorem keeps_arg0 : (List.flatten (tailOps : List (List (HloOp τ sig (Elt F))))).Forall fun op => Proc.devRef .tc main_arg0 ∉ op.writes := by
  simp only [hostOps1, hostOps1_1, hostOps1_2, hostOps1_3, hostOps1_4, hostOps1_5, hostOps1_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
theorem keeps_arg1 : (List.flatten (tailOps : List (List (HloOp τ sig (Elt F))))).Forall fun op => Proc.devRef .tc main_arg1 ∉ op.writes := by
  simp only [hostOps1, hostOps1_1, hostOps1_2, hostOps1_3, hostOps1_4, hostOps1_5, hostOps1_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps main_v0 keeps_v0 ops hops op hop
  · exact tail_keeps main_v1 keeps_v1 ops hops op hop
  · exact tail_keeps main_v2 keeps_v2 ops hops op hop

/-- The four operations before the region write neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- What an argument holds after the later operations: what it held at launch (no window stages it, nothing writes it). -/
theorem tail_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c.tc : Thread nD τ).loc main_arg0) := by
  unfold Pipeline.afterTail₀
  rw [StableHlo.after_of_forall_not_mem _ _ (List.forall_iff_forall_mem.mp keeps_arg0),
    Pipeline.withArrays_of_ne _ c (V0 m c) _ main_arg0 (by decide)]
  exact V_main_arg0 m c
theorem tail_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c.tc : Thread nD τ).loc main_arg1) := by
  unfold Pipeline.afterTail₀
  rw [StableHlo.after_of_forall_not_mem _ _ (List.forall_iff_forall_mem.mp keeps_arg1),
    Pipeline.withArrays_of_ne _ c (V0 m c) _ main_arg1 (by decide)]
  exact V_main_arg1 m c

/-- THE FRAME from a frame run: both arguments are unscoped buffers that no window stages, so the run's post has them at
    what the later operations leave, which is their launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (tail_arg0 m dats c),
     ((h c).2 main_arg1 (Pipeline.mem_restRefs_of main_arg1 rfl (by decide))).trans (tail_arg1 m dats c)⟩) h

/-! ## The body's branch conditions -/

/-- The condition of the body's first `scf.if` (reset the accumulator), from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The condition of the body's second `scf.if` (store the accumulator to the output). -/
abbrev cond0_1 (i : grid0.Coords) : Prop := k0_cond2 i = 1#1
/-- It holds at point 63 only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second condition fails the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where it holds the output window is live. -/
theorem liveAt0_2 : ∀ t : Fin cfg0.N, cond0_1 (grid0.coords t) → cfg0.idle 2 (grid0.coords t) = false := by decide +kernel

/-! ## The staging and scratch memrefs -/

/-- One staging buffer of the output window, through which its contents are stated. -/
abbrev VO0_2 : View sig .tc .vmem S1x1 .f32 := (Memref.whole cc0_stg2_0 : Memref sig .tc .vmem S1x1 .f32).view
/-- Each window's current staging memref at point `t`, as the pipeline passes it, and its wholeness. -/
abbrev ms0_0 (t : Fin cfg0.N) : Memref sig .tc .vmem S32x50257 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0_0 : Memref sig .tc .vmem S1x1 .f32 := Memref.whole cc0_scratch0
abbrev VS0_0 : View sig .tc .vmem S1x1 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KBRunA.lean ====
/-
  The kernel body run whole at grid point 0 (the accumulator is reset, the output is not stored): on whole staging
  memrefs holding the logits block, the targets block and, in the idle output's buffer, anything, and with the scratch
  accumulator at anything, the body runs to its end leaving the three staging buffers as they were and the scratch with
  its two stores written (the zero, then the block's total added to it). The list of stores is found by the run.
-/
import proofs.«426039_j807453852038_3_alg».proof.Proof.KBKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at point 0, as pieces (last first), with the proof that the body runs to a continuation holding
    the staging buffers unchanged and the scratch with those pieces written. -/
noncomputable def kernelRun0_A (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S32x50257 .f32) (x1 : Vec F S32x1 .i32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__ce_kernel i arg1 harg1 arg2 harg2 arg3 harg3 arg4 harg4) K } := by
  refine ⟨[], ?_, fun xi2 E K => ?run⟩
  case run =>
    simp only [cc0__ce_kernel_eq_skeleton]; unfold cc0__ce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.KBRunB.lean ====
/-
  The kernel body run whole at a middle grid point (1 … 62: no reset, no store to the output): with the scratch
  accumulator at what the point before left, the body leaves the three staging buffers as they were and the scratch
  with its one store written (the block's total added to the old value).
-/
import proofs.«426039_j807453852038_3_alg».proof.Proof.KBKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at a middle point, as pieces, with the run's proof. -/
noncomputable def kernelRun0_B (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S32x50257 .f32) (x1 : Vec F S32x1 .i32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__ce_kernel i arg1 harg1 arg2 harg2 arg3 harg3 arg4 harg4) K } := by
  refine ⟨[], ?_, fun xi2 E K => ?run⟩
  case run =>
    simp only [cc0__ce_kernel_eq_skeleton]; unfold cc0__ce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Fr

end
-- ==== Proof.KBRunC.lean ====
/-
  The kernel body run whole at the last grid point (63: no reset; the accumulator is stored to the output): with the
  scratch accumulator at what the point before left and the output's buffer at anything, the body leaves the two input
  staging buffers as they were, the scratch with its one store written and the output's buffer with the store of the
  accumulator's new value written.
-/
import proofs.«426039_j807453852038_3_alg».proof.Proof.KBKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at the last point, as pieces, with the run's proof. -/
noncomputable def kernelRun0_C (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S32x50257 .f32) (x1 : Vec F S32x1 .i32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__ce_kernel i arg1 harg1 arg2 harg2 arg3 harg3 arg4 harg4) K } := by
  refine ⟨?_, ?_, fun E K => ?run⟩
  case run =>
    simp only [cc0__ce_kernel_eq_skeleton]; unfold cc0__ce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Fr

end
-- ==== Proof.KBFrame.lean ====
/-
  The frame of the cross-entropy kernel's program, second part: what the output's staging buffer and the scratch
  accumulator hold after each of the 64 grid points (`outsAt0`: at point 0 the body's two stores over the reset
  accumulator, at a later point its one store over what the point before left, and at point 63 also the store of the
  accumulator into the output's buffer), the pipeline's proof data over them, the body obligation at every grid point
  (by the three whole-body runs, chosen by the two branch conditions' closed forms), the frame run around the region
  with the 143 host operations after it, and the frame claim.
-/
import proofs.«426039_j807453852038_3_alg».proof.Proof.KBRunA
import proofs.«426039_j807453852038_3_alg».proof.Proof.KBRunB
import proofs.«426039_j807453852038_3_alg».proof.Proof.KBRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At point 0 the body stores nothing into the output's buffer: a placeholder nothing consults. -/
def out0_A_2 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S32x50257 .f32) (x1 : Vec F S32x1 .i32) : Vec F S1x1 .f32 :=
  VO0_2.read (Elt F) (VO0_2.writes (Elt F) VO0_2.junk (kernelRun0_A c i arg1 harg1 arg2 harg2 arg3 harg3 arg4 harg4 hc0 hc1 x0 x1).1)
/-- Its two stores into the scratch cover it. -/
theorem scover0_A_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S32x50257 .f32) (x1 : Vec F S32x1 .i32) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y
/-- What point 0 leaves in the scratch: its stores read back. -/
def sout0_A_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S32x50257 .f32) (x1 : Vec F S32x1 .i32) : Vec F S1x1 .f32 :=
  VS0_0.read (Elt F) (VS0_0.writes (Elt F) VS0_0.junk (kernelRun0_A c i arg1 harg1 arg2 harg2 arg3 harg3 arg4 harg4 hc0 hc1 x0 x1).2.1)

/-- At a middle point the body stores nothing into the output's buffer either. -/
def out0_B_2 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S32x50257 .f32) (x1 : Vec F S32x1 .i32) (xs0 : Vec F S1x1 .f32) : Vec F S1x1 .f32 :=
  VO0_2.read (Elt F) (VO0_2.writes (Elt F) VO0_2.junk (kernelRun0_B c i arg1 harg1 arg2 harg2 arg3 harg3 arg4 harg4 hc0 hc1 x0 x1 xs0).1)
theorem scover0_B_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S32x50257 .f32) (x1 : Vec F S32x1 .i32) (xs0 : Vec F S1x1 .f32) (y : S1x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x1.size (by sl_kernel_rfl) y
/-- What a middle point leaves in the scratch. -/
def sout0_B_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S32x50257 .f32) (x1 : Vec F S32x1 .i32) (xs0 : Vec F S1x1 .f32) : Vec F S1x1 .f32 :=
  VS0_0.read (Elt F) (VS0_0.writes (Elt F) VS0_0.junk (kernelRun0_B c i arg1 harg1 arg2 harg2 arg3 harg3 arg4 harg4 hc0 hc1 x0 x1 xs0).2.1)

/-- At the last point the one store into the output's buffer covers it. -/
theorem cover0_C_2 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S32x50257 .f32) (x1 : Vec F S32x1 .i32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y
/-- What the last point leaves in the output's buffer. -/
def out0_C_2 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S32x50257 .f32) (x1 : Vec F S32x1 .i32) (xs0 : Vec F S1x1 .f32) : Vec F S1x1 .f32 :=
  VO0_2.read (Elt F) (VO0_2.writes (Elt F) VO0_2.junk (kernelRun0_C c i arg1 harg1 arg2 harg2 arg3 harg3 arg4 harg4 hc0 hc1 x0 x1 xs0).1)
theorem scover0_C_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S32x50257 .f32) (x1 : Vec F S32x1 .i32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y
/-- What the last point leaves in the scratch. -/
def sout0_C_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S32x50257 .f32) (x1 : Vec F S32x1 .i32) (xs0 : Vec F S1x1 .f32) : Vec F S1x1 .f32 :=
  VS0_0.read (Elt F) (VS0_0.writes (Elt F) VS0_0.junk (kernelRun0_C c i arg1 harg1 arg2 harg2 arg3 harg3 arg4 harg4 hc0 hc1 x0 x1 xs0).2.1)

/-! ## What the output's buffer and the scratch hold after each point -/

/-- After point `n`: (the output's staging buffer, the scratch accumulator). Point 0 resets; every later point adds to
    what the point before left; point 63 also stores into the output's buffer. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩))
  | n + 1, hn =>
    if h1 : n + 1 = 63 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at point 0. -/
theorem outsAt0_A (c : Dev nD) (t : Fin cfg0.N) (h0 : t.val = 0) (h1 : ¬t.val = 63) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : ¬t.val = 0) (h1 : ¬t.val = 63) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 63) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point the scratch at anything; afterwards the scratch at
    what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer at its block and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms of the two conditions say which of the
    three runs applies; the invariant hands the run the scratch (at anything at point 0, at what the point before left
    afterwards) and takes it back at this point's contents; the output's buffer is handed back untouched where the body
    stores nothing into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val = 63
  · have h0 : ¬t.val = 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [outsAt0_C m c t h0 h1]
    unfold out0_C_2 sout0_C_0; (try dsimp only)
    rw [PhiS_castSucc m c t, PhiS_pos m c _ _ h0]
    iintro ⟨⟨HS0, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)
  · have hc1 : ¬cond0_1 (grid0.coords t) := fun h => h1 ((hcond0_1 t).mp h)
    rw [Dat.leavesExact_idle (dats m 0 c) 2 t (idleAt0_2 t hc1) (noFlush0_2 t hc1)]
    by_cases h0 : t.val = 0
    · rw [outsAt0_A m c t h0 h1]
      unfold sout0_A_0; (try dsimp only)
      rw [PhiS_castSucc m c t, PhiS_zero m c _ _ h0, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · rw [outsAt0_B m c t h0 h1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) hc1 (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of @main terminates, and every final state has each
    array of the pipeline at what the library computes from the proof data and every other unscoped buffer as the
    operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: both arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Fr

end
-- ==== Proof.KIKit.lean ====
/-
  The frame of the cross-entropy kernel's program, first part: the program around its one pipelined region.
  @main runs four host operations (two constant tables and the reshapes of the logits to [2048, 50257] and of the
  targets to [2048, 1]), the region, and then 143 more host operations (the division of the region's (1, 1) result by
  2048, the syntax penalty computed from the targets, and the final sum). Here: the buffers' contents when the region is
  entered (`V`), that @main reduces to the region continued by the later operations (`hmain`), that those operations
  touch only unscoped buffers, allocate nothing and write none of the region's three arrays, that the two arguments are
  untouched when the region is entered, the windows' blocks (`iblk`), that an input window's staging buffer holds its
  block at every grid point, and how the frame claim follows from a frame run (`frame_of`); then the body's two branch
  conditions decided over the 64 grid points (the accumulator is reset at point 0 and stored to the output at point 63),
  where the output window is idle, and the staging and scratch memrefs the body is called with.
-/
import proofs.«426039_j807453852038_3_alg».proof.Proof.Gen.KernelIdeal.Launch
import proofs.«426039_j807453852038_3_alg».proof.Proof.Gen.KernelIdeal.Skeleton
import proofs.«426039_j807453852038_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch. -/
abbrev tailOps : List (List (HloOp τ sig (Elt F))) :=
  [hostOps1, hostOps1_1, hostOps1_2, hostOps1_3, hostOps1_4, hostOps1_5, hostOps1_6]

/-- Core `c`'s buffer contents when the region is entered: after the four host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the host operations before the region, the region, and the region's continuation by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Membership in the list of stretches, one stretch at a time. -/
theorem tail_cases {P : List (HloOp τ sig (Elt F)) → Prop} (h0 : P hostOps1) (h1 : P hostOps1_1) (h2 : P hostOps1_2) (h3 : P hostOps1_3)
    (h4 : P hostOps1_4) (h5 : P hostOps1_5) (h6 : P hostOps1_6) : ∀ ops ∈ (tailOps : List (List (HloOp τ sig (Elt F)))), P ops := by
  intro ops hops
  simp only [List.mem_cons, List.mem_nil_iff, or_false] at hops
  rcases hops with rfl | rfl | rfl | rfl | rfl | rfl | rfl
  · exact h0
  · exact h1
  · exact h2
  · exact h3
  · exact h4
  · exact h5
  · exact h6

/-- The later operations touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_cases
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
    (fun op hop => Pipeline.sub_ucRefs op ((List.forall_iff_forall_mem.mp hostOps1_5_sub) op hop))
    (fun op hop => Pipeline.sub_ucRefs op ((List.forall_iff_forall_mem.mp hostOps1_6_sub) op hop))
/-- They allocate nothing. -/
theorem sfx_fresh : ∀ ops ∈ (tailOps : List (List (HloOp τ sig (Elt F)))), ∀ op ∈ ops, op.fresh = ∅ :=
  tail_cases
    (fun op hop => (List.forall_iff_forall_mem.mp hostOps1_fresh) op hop)
    (fun op hop => (List.forall_iff_forall_mem.mp hostOps1_1_fresh) op hop)
    (fun op hop => (List.forall_iff_forall_mem.mp hostOps1_2_fresh) op hop)
    (fun op hop => (List.forall_iff_forall_mem.mp hostOps1_3_fresh) op hop)
    (fun op hop => (List.forall_iff_forall_mem.mp hostOps1_4_fresh) op hop)
    (fun op hop => (List.forall_iff_forall_mem.mp hostOps1_5_fresh) op hop)
    (fun op hop => (List.forall_iff_forall_mem.mp hostOps1_6_fresh) op hop)

/-- No later operation writes reference `r`, for a reference `r` that is no result of theirs: every operation writes only
    its own result buffer. Used for the region's three arrays and for the two arguments. -/
theorem tail_keeps (r : Ref sig .tc)
    (h : (List.flatten (tailOps : List (List (HloOp τ sig (Elt F))))).Forall fun op => Proc.devRef .tc r ∉ op.writes) :
    ∀ ops ∈ (tailOps : List (List (HloOp τ sig (Elt F)))), ∀ op ∈ ops, Proc.devRef .tc r ∉ op.writes := by
  intro ops hops op hop
  exact (List.forall_iff_forall_mem.mp h) op (List.mem_flatten.mpr ⟨ops, hops, hop⟩)

set_option maxHeartbeats 4000000 in
theorem keeps_v0 : (List.flatten (tailOps : List (List (HloOp τ sig (Elt F))))).Forall fun op => Proc.devRef .tc main_v0 ∉ op.writes := by
  simp only [hostOps1, hostOps1_1, hostOps1_2, hostOps1_3, hostOps1_4, hostOps1_5, hostOps1_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
theorem keeps_v1 : (List.flatten (tailOps : List (List (HloOp τ sig (Elt F))))).Forall fun op => Proc.devRef .tc main_v1 ∉ op.writes := by
  simp only [hostOps1, hostOps1_1, hostOps1_2, hostOps1_3, hostOps1_4, hostOps1_5, hostOps1_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
theorem keeps_v2 : (List.flatten (tailOps : List (List (HloOp τ sig (Elt F))))).Forall fun op => Proc.devRef .tc main_v2 ∉ op.writes := by
  simp only [hostOps1, hostOps1_1, hostOps1_2, hostOps1_3, hostOps1_4, hostOps1_5, hostOps1_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
theorem keeps_arg0 : (List.flatten (tailOps : List (List (HloOp τ sig (Elt F))))).Forall fun op => Proc.devRef .tc main_arg0 ∉ op.writes := by
  simp only [hostOps1, hostOps1_1, hostOps1_2, hostOps1_3, hostOps1_4, hostOps1_5, hostOps1_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxHeartbeats 4000000 in
theorem keeps_arg1 : (List.flatten (tailOps : List (List (HloOp τ sig (Elt F))))).Forall fun op => Proc.devRef .tc main_arg1 ∉ op.writes := by
  simp only [hostOps1, hostOps1_1, hostOps1_2, hostOps1_3, hostOps1_4, hostOps1_5, hostOps1_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop w
  fin_cases w
  · exact tail_keeps main_v0 keeps_v0 ops hops op hop
  · exact tail_keeps main_v1 keeps_v1 ops hops op hop
  · exact tail_keeps main_v2 keeps_v2 ops hops op hop

/-- The four operations before the region write neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- What an argument holds after the later operations: what it held at launch (no window stages it, nothing writes it). -/
theorem tail_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c.tc : Thread nD τ).loc main_arg0) := by
  unfold Pipeline.afterTail₀
  rw [StableHlo.after_of_forall_not_mem _ _ (List.forall_iff_forall_mem.mp keeps_arg0),
    Pipeline.withArrays_of_ne _ c (V0 m c) _ main_arg0 (by decide)]
  exact V_main_arg0 m c
theorem tail_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c.tc : Thread nD τ).loc main_arg1) := by
  unfold Pipeline.afterTail₀
  rw [StableHlo.after_of_forall_not_mem _ _ (List.forall_iff_forall_mem.mp keeps_arg1),
    Pipeline.withArrays_of_ne _ c (V0 m c) _ main_arg1 (by decide)]
  exact V_main_arg1 m c

/-- THE FRAME from a frame run: both arguments are unscoped buffers that no window stages, so the run's post has them at
    what the later operations leave, which is their launch contents. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (tail_arg0 m dats c),
     ((h c).2 main_arg1 (Pipeline.mem_restRefs_of main_arg1 rfl (by decide))).trans (tail_arg1 m dats c)⟩) h

/-! ## The body's branch conditions -/

/-- The condition of the body's first `scf.if` (reset the accumulator), from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-- The condition of the body's second `scf.if` (store the accumulator to the output). -/
abbrev cond0_1 (i : grid0.Coords) : Prop := k0_cond2 i = 1#1
/-- It holds at point 63 only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Where the second condition fails the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where it holds the output window is live. -/
theorem liveAt0_2 : ∀ t : Fin cfg0.N, cond0_1 (grid0.coords t) → cfg0.idle 2 (grid0.coords t) = false := by decide +kernel

/-! ## The staging and scratch memrefs -/

/-- One staging buffer of the output window, through which its contents are stated. -/
abbrev VO0_2 : View sig .tc .vmem S1x1 .f32 := (Memref.whole cc0_stg2_0 : Memref sig .tc .vmem S1x1 .f32).view
/-- Each window's current staging memref at point `t`, as the pipeline passes it, and its wholeness. -/
abbrev ms0_0 (t : Fin cfg0.N) : Memref sig .tc .vmem S32x50257 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch accumulator: a whole scoped buffer of the kernel's own. -/
abbrev scM0_0 : Memref sig .tc .vmem S1x1 .f32 := Memref.whole cc0_scratch0
abbrev VS0_0 : View sig .tc .vmem S1x1 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIRunA.lean ====
/-
  The kernel body run whole at grid point 0 (the accumulator is reset, the output is not stored): on whole staging
  memrefs holding the logits block, the targets block and, in the idle output's buffer, anything, and with the scratch
  accumulator at anything, the body runs to its end leaving the three staging buffers as they were and the scratch with
  its two stores written (the zero, then the block's total added to it). The list of stores is found by the run.
-/
import proofs.«426039_j807453852038_3_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at point 0, as pieces (last first), with the proof that the body runs to a continuation holding
    the staging buffers unchanged and the scratch with those pieces written. -/
noncomputable def kernelRun0_A (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S32x50257 .f32) (x1 : Vec F S32x1 .i32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__ce_kernel i arg1 harg1 arg2 harg2 arg3 harg3 arg4 harg4) K } := by
  refine ⟨[], ?_, fun xi2 E K => ?run⟩
  case run =>
    simp only [cc0__ce_kernel_eq_skeleton]; unfold cc0__ce_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KIRunB.lean ====
/-
  The kernel body run whole at a middle grid point (1 … 62: no reset, no store to the output): with the scratch
  accumulator at what the point before left, the body leaves the three staging buffers as they were and the scratch
  with its one store written (the block's total added to the old value).
-/
import proofs.«426039_j807453852038_3_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at a middle point, as pieces, with the run's proof. -/
noncomputable def kernelRun0_B (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S32x50257 .f32) (x1 : Vec F S32x1 .i32) (xs0 : Vec F S1x1 .f32) :
    Σ' (L2 : List (View.Piece (Elt F) S1x1 .f32)), { LS0 : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__ce_kernel i arg1 harg1 arg2 harg2 arg3 harg3 arg4 harg4) K } := by
  refine ⟨[], ?_, fun xi2 E K => ?run⟩
  case run =>
    simp only [cc0__ce_kernel_eq_skeleton]; unfold cc0__ce_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Fr

end
-- ==== Proof.KIRunC.lean ====
/-
  The kernel body run whole at the last grid point (63: no reset; the accumulator is stored to the output): with the
  scratch accumulator at what the point before left and the output's buffer at anything, the body leaves the two input
  staging buffers as they were, the scratch with its one store written and the output's buffer with the store of the
  accumulator's new value written.
-/
import proofs.«426039_j807453852038_3_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's stores at the last point, as pieces, with the run's proof. -/
noncomputable def kernelRun0_C (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S32x50257 .f32) (x1 : Vec F S32x1 .i32) (xs0 : Vec F S1x1 .f32) :
    Σ' (L2 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__ce_kernel i arg1 harg1 arg2 harg2 arg3 harg3 arg4 harg4) K } := by
  refine ⟨?_, ?_, fun E K => ?run⟩
  case run =>
    simp only [cc0__ce_kernel_eq_skeleton]; unfold cc0__ce_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Fr

end
-- ==== Proof.KIFrame.lean ====
/-
  The frame of the cross-entropy kernel's program, second part: what the output's staging buffer and the scratch
  accumulator hold after each of the 64 grid points (`outsAt0`: at point 0 the body's two stores over the reset
  accumulator, at a later point its one store over what the point before left, and at point 63 also the store of the
  accumulator into the output's buffer), the pipeline's proof data over them, the body obligation at every grid point
  (by the three whole-body runs, chosen by the two branch conditions' closed forms), the frame run around the region
  with the 143 host operations after it, and the frame claim.
-/
import proofs.«426039_j807453852038_3_alg».proof.Proof.KIRunA
import proofs.«426039_j807453852038_3_alg».proof.Proof.KIRunB
import proofs.«426039_j807453852038_3_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At point 0 the body stores nothing into the output's buffer: a placeholder nothing consults. -/
def out0_A_2 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S32x50257 .f32) (x1 : Vec F S32x1 .i32) : Vec F S1x1 .f32 :=
  VO0_2.read (Elt F) (VO0_2.writes (Elt F) VO0_2.junk (kernelRun0_A c i arg1 harg1 arg2 harg2 arg3 harg3 arg4 harg4 hc0 hc1 x0 x1).1)
/-- Its two stores into the scratch cover it. -/
theorem scover0_A_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S32x50257 .f32) (x1 : Vec F S32x1 .i32) (y : S1x1.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x1.size (by sl_kernel_rfl) y
/-- What point 0 leaves in the scratch: its stores read back. -/
def sout0_A_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S32x50257 .f32) (x1 : Vec F S32x1 .i32) : Vec F S1x1 .f32 :=
  VS0_0.read (Elt F) (VS0_0.writes (Elt F) VS0_0.junk (kernelRun0_A c i arg1 harg1 arg2 harg2 arg3 harg3 arg4 harg4 hc0 hc1 x0 x1).2.1)

/-- At a middle point the body stores nothing into the output's buffer either. -/
def out0_B_2 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S32x50257 .f32) (x1 : Vec F S32x1 .i32) (xs0 : Vec F S1x1 .f32) : Vec F S1x1 .f32 :=
  VO0_2.read (Elt F) (VO0_2.writes (Elt F) VO0_2.junk (kernelRun0_B c i arg1 harg1 arg2 harg2 arg3 harg3 arg4 harg4 hc0 hc1 x0 x1 xs0).1)
theorem scover0_B_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S32x50257 .f32) (x1 : Vec F S32x1 .i32) (xs0 : Vec F S1x1 .f32) (y : S1x1.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x1.size (by sl_kernel_rfl) y
/-- What a middle point leaves in the scratch. -/
def sout0_B_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S32x50257 .f32) (x1 : Vec F S32x1 .i32) (xs0 : Vec F S1x1 .f32) : Vec F S1x1 .f32 :=
  VS0_0.read (Elt F) (VS0_0.writes (Elt F) VS0_0.junk (kernelRun0_B c i arg1 harg1 arg2 harg2 arg3 harg3 arg4 harg4 hc0 hc1 x0 x1 xs0).2.1)

/-- At the last point the one store into the output's buffer covers it. -/
theorem cover0_C_2 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S32x50257 .f32) (x1 : Vec F S32x1 .i32) (xs0 : Vec F S1x1 .f32) (y : S1x1.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x1.size (by sl_kernel_rfl) y
/-- What the last point leaves in the output's buffer. -/
def out0_C_2 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S32x50257 .f32) (x1 : Vec F S32x1 .i32) (xs0 : Vec F S1x1 .f32) : Vec F S1x1 .f32 :=
  VO0_2.read (Elt F) (VO0_2.writes (Elt F) VO0_2.junk (kernelRun0_C c i arg1 harg1 arg2 harg2 arg3 harg3 arg4 harg4 hc0 hc1 x0 x1 xs0).1)
theorem scover0_C_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S32x50257 .f32) (x1 : Vec F S32x1 .i32) (xs0 : Vec F S1x1 .f32) (y : S1x1.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x1.size (by sl_kernel_rfl) y
/-- What the last point leaves in the scratch. -/
def sout0_C_0 (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S32x50257 .f32) (x1 : Vec F S32x1 .i32) (xs0 : Vec F S1x1 .f32) : Vec F S1x1 .f32 :=
  VS0_0.read (Elt F) (VS0_0.writes (Elt F) VS0_0.junk (kernelRun0_C c i arg1 harg1 arg2 harg2 arg3 harg3 arg4 harg4 hc0 hc1 x0 x1 xs0).2.1)

/-! ## What the output's buffer and the scratch hold after each point -/

/-- After point `n`: (the output's staging buffer, the scratch accumulator). Point 0 resets; every later point adds to
    what the point before left; point 63 also stores into the output's buffer. -/
def outsAt0 (c : Dev nD) : (n : ℕ) → n < cfg0.N → Vec F S1x1 .f32 × Vec F S1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩))
  | n + 1, hn =>
    if h1 : n + 1 = 63 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at point 0. -/
theorem outsAt0_A (c : Dev nD) (t : Fin cfg0.N) (h0 : t.val = 0) (h1 : ¬t.val = 63) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : ¬t.val = 0) (h1 : ¬t.val = 63) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 63) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region's invariant before position `n`: before the first point the scratch at anything; afterwards the scratch at
    what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the pipeline on core `c`: the arrays as the region finds them; after the body at point `t` each
    input's buffer at its block and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms of the two conditions say which of the
    three runs applies; the invariant hands the run the scratch (at anything at point 0, at what the point before left
    afterwards) and takes it back at this point's contents; the output's buffer is handed back untouched where the body
    stores nothing into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h1 : t.val = 63
  · have h0 : ¬t.val = 0 := by omega
    rw [show (dats m 0 c).leavesExact 2 t = owns (c : Thread nD τ) (ms0_2 t) fullShare ((dats m 0 c).after 2 t) from by
      unfold Dat.leavesExact; rw [liveAt0_2 t ((hcond0_1 t).mpr h1)], after0_2]
    rw [outsAt0_C m c t h0 h1]
    unfold out0_C_2 sout0_C_0; (try dsimp only)
    rw [PhiS_castSucc m c t, PhiS_pos m c _ _ h0]
    iintro ⟨⟨HS0, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk m c 0 t) (iblk m c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)
  · have hc1 : ¬cond0_1 (grid0.coords t) := fun h => h1 ((hcond0_1 t).mp h)
    rw [Dat.leavesExact_idle (dats m 0 c) 2 t (idleAt0_2 t hc1) (noFlush0_2 t hc1)]
    by_cases h0 : t.val = 0
    · rw [outsAt0_A m c t h0 h1]
      unfold sout0_A_0; (try dsimp only)
      rw [PhiS_castSucc m c t, PhiS_zero m c _ _ h0, PhiA0_eq]
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) hc1 (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _)
        iexact Hg
      isplitl [Ho]; · iexact Ho
      isplitl [H0]; · iexact H0
      isplitl [H1]; · iexact H1
      iexists _; iexact H2
    · rw [outsAt0_B m c t h0 h1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) hc1 (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of @main terminates, and every final state has each
    array of the pipeline at what the library computes from the proof data and every other unscoped buffer as the
    operations after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- THE FRAME: both arguments end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Fr

end
-- ==== Proof.KIOut.lean ====
/-
  What the kernel's program leaves in its result buffer, as a fold: after the region every array of the pipeline holds
  what the proof data says and every other buffer what it held at the region's entry; the 143 host operations after
  the region run from there. Here: that starting valuation read at the four buffers those operations consume (the
  region's (1, 1) result, the targets, and the two constant tables written before the region), and the frame run
  restated for the program's result buffer and its two arguments.
-/
import proofs.«426039_j807453852038_3_alg».proof.Proof.KIFrame

set_option maxRecDepth 16384

noncomputable section

namespace Cert.KernelIdeal.Out

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The buffers' contents when the operations after the region start: the pipeline's arrays as the region leaves them,
    every other buffer as the region found it. -/
abbrev W (c : Dev nD) : Valuation τ sig (Elt F) :=
  Pipeline.withArrays spec0 c (Fr.V0 m c) (fun w => (Fr.dats m 0 c).arrAt w cfg0.N)

/-- The region's result array. -/
theorem W_out (c : Dev nD) : W m c (Proc.devRef .tc (Pipeline.arrRef spec0 2)) = (Fr.dats m 0 c).arrAt 2 cfg0.N :=
  Pipeline.withArrays_arr spec0 launch0.win.arr_inj c _ _ 2

/-- The targets: no window stages them and nothing before the region writes them. -/
theorem W_arg1 (c : Dev nD) : W m c (Proc.devRef .tc main_arg1) = m ((c.tc : Thread nD τ).loc main_arg1) :=
  (Pipeline.withArrays_of_ne _ c (Fr.V0 m c) _ main_arg1 (by decide)).trans (Fr.V_main_arg1 m c)

/-- The keyword table, written before the region. -/
theorem W_c (c : Dev nD) : W m c (Proc.devRef .tc main_c) = fun i => lit0 (S19.rowMajor i) := by
  refine (Pipeline.withArrays_of_ne _ c (Fr.V0 m c) _ main_c (by decide)).trans ?_
  show StableHlo.after (List.flatten [hostOps0]) (fun b => m (c, b)) (Proc.devRef .tc main_c) = _
  simp only [hostOps0, List.flatten_cons, List.flatten_nil, List.append_nil]
  after_results
  rfl

/-- The follower table, written before the region. -/
theorem W_c_0 (c : Dev nD) : W m c (Proc.devRef .tc main_c_0) = fun i => lit1 (S19x7.rowMajor i) := by
  refine (Pipeline.withArrays_of_ne _ c (Fr.V0 m c) _ main_c_0 (by decide)).trans ?_
  show StableHlo.after (List.flatten [hostOps0]) (fun b => m (c, b)) (Proc.devRef .tc main_c_0) = _
  simp only [hostOps0, List.flatten_cons, List.flatten_nil, List.append_nil]
  after_results
  rfl

/-- The frame run read at the result buffer and the arguments: the result is the later operations' fold from `W`. -/
theorem run_value : θ_run defs (onTc (τ := τ) (main (F := F))) ⟨m, fun _ => 0, ρ⟩ (fun r => ∀ c : Dev nD,
      r.2.mem ((c.tc : Thread nD τ).loc main_v107) = StableHlo.after (List.flatten (Fr.tailOps (F := F))) (W m c) (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v107 (Pipeline.mem_restRefs_of main_v107 rfl (by decide)),
     ((h c).2 main_arg0 (Pipeline.mem_restRefs_of main_arg0 rfl (by decide))).trans (Fr.tail_arg0 m (Fr.dats m) c),
     ((h c).2 main_arg1 (Pipeline.mem_restRefs_of main_arg1 rfl (by decide))).trans (Fr.tail_arg1 m (Fr.dats m) c)⟩) (Fr.run_main m ρ)

end Cert.KernelIdeal.Out

end
-- ==== Proof.Spec.lean ====
/-
  The mathematics both programs compute, stated once over the extended reals with no program in sight.
  A row of logits `xr : Fin 50257 → EReal` has a maximum `rowMax xr` (the fold of `max` from −∞), a shifted
  log-sum-exp `rowLse xr = log ∑ᵥ exp (xr v − rowMax xr)`, and, for a target word `w`, the target's logit.
  The kernel forms `pick xr w − (rowMax xr + rowLse xr)` per row (the target's logit as a masked lane sum),
  sums it over the 32 rows of a block, negates, and adds the blocks up one grid point after the other
  (`accK`); the reference forms `(xr[w] − rowMax xr) − rowLse xr` per row and sums all 2048 rows at once
  (`gR`). For finite logits and in-range targets every one of these terms is a real number, and the two
  totals, each divided by 2048, are opposite numbers: `ce_eq`.
-/
import Idealize.ShloMosaic.PureOps.Ideal
import Idealize.ShloMosaic.Lib.ValueIdx

noncomputable section

open scoped BigOperators

namespace Cert.Spec

open Idealize.ShloMosaic Idealize.ShloMosaic.ValueIdx

/-- The logits' shape [2, 1024, 50257], the targets' [2, 1024], and the per-row results' [2, 1024, 1]. -/
abbrev SX : Shape := ⟨3, ![2, 1024, 50257]⟩
abbrev ST : Shape := ⟨2, ![2, 1024]⟩
abbrev SG : Shape := ⟨3, ![2, 1024, 1]⟩

/-- The divisor 2048.0 as both programs print it. -/
abbrev c2048 : EReal := Ideal.ofBits .f32 0x45000000#32

/-- Row (b, s) of the logits, over the vocabulary. -/
def row (x : SX.Idx → EReal) (b : Fin 2) (s : Fin 1024) : Fin 50257 → EReal := fun v => x (ix3 b s v)
/-- The target word of row (b, s). -/
def tgt (t : ST.Idx → BitVec 32) (b : Fin 2) (s : Fin 1024) : BitVec 32 := t (ix2 b s)

/-- A row's maximum: the fold of `max` over the vocabulary from −∞. -/
def rowMax (xr : Fin 50257 → EReal) : EReal := (Finset.univ : Finset (Fin 50257)).fold max (⊥ : EReal) xr
/-- A row's shifted log-sum-exp: log ∑ᵥ exp (xr v − max). -/
def rowLse (xr : Fin 50257 → EReal) : EReal := Ideal.log (∑ v : Fin 50257, Ideal.exp (xr v - rowMax xr))

/-- The target's logit as a masked lane sum: the logit where the lane's number IS the target word, zero elsewhere. -/
def pick (xr : Fin 50257 → EReal) (w : BitVec 32) : EReal :=
  ∑ v : Fin 50257, if BitVec.ofNat 32 v.val = w then xr v else 0
/-- The target's logit as an indexed read, the word clamped into the vocabulary. -/
def pickR (xr : Fin 50257 → EReal) (w : BitVec 32) : EReal := xr ⟨min w.toNat 50256, by omega⟩

/-- The kernel's log-probability of a row's target: logit − (max + lse). -/
def nllK (xr : Fin 50257 → EReal) (w : BitVec 32) : EReal := pick xr w - (rowMax xr + rowLse xr)
/-- The reference's: (logit − max) − lse. -/
def nllR (xr : Fin 50257 → EReal) (w : BitVec 32) : EReal := (pickR xr w - rowMax xr) - rowLse xr

/-- Row number R of the flattened [2048]-row view is row (R / 1024, R % 1024). -/
def rb (R : Fin 2048) : Fin 2 := ⟨R.val / 1024, by omega⟩
def rs (R : Fin 2048) : Fin 1024 := ⟨R.val % 1024, by omega⟩
/-- Grid point p's block holds rows 32 p … 32 p + 31. -/
def blkRow (p : Fin 64) (r : Fin 32) : Fin 2048 := ⟨32 * p.val + r.val, by omega⟩

/-- What grid point p adds to the running total: minus the sum of its 32 rows' log-probabilities. -/
def blockSum (x : SX.Idx → EReal) (t : ST.Idx → BitVec 32) (p : Fin 64) : EReal :=
  0 - ∑ r : Fin 32, nllK (row x (rb (blkRow p r)) (rs (blkRow p r))) (tgt t (rb (blkRow p r)) (rs (blkRow p r)))
/-- The same at a natural number (zero past the grid). -/
def bsN (x : SX.Idx → EReal) (t : ST.Idx → BitVec 32) (p : ℕ) : EReal :=
  if h : p < 64 then blockSum x t ⟨p, h⟩ else 0
/-- The running total after grid point n. -/
def accK (x : SX.Idx → EReal) (t : ST.Idx → BitVec 32) (n : ℕ) : EReal := ∑ p ∈ Finset.range (n + 1), bsN x t p

theorem accK_zero (x : SX.Idx → EReal) (t : ST.Idx → BitVec 32) : accK x t 0 = bsN x t 0 := by
  simp [accK]
theorem accK_succ (x : SX.Idx → EReal) (t : ST.Idx → BitVec 32) (n : ℕ) : accK x t (n + 1) = accK x t n + bsN x t (n + 1) := by
  simp [accK, Finset.sum_range_succ]

/-- The reference's per-row term at an index of the [2, 1024, 1] array. -/
def gR (x : SX.Idx → EReal) (t : ST.Idx → BitVec 32) (i : SG.Idx) : EReal :=
  nllR (row x (i 0) (i 1)) (tgt t (i 0) (i 1))

/-! ### From the extended reals down to the reals

For a row of real logits every quantity above is a real number; the lemmas below say so one at a time, and then
the two totals are compared as real sums over the 2048 rows. -/

/-- The coercion of the reals passes through a finite sum. -/
theorem coe_finsum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The fold of `max` from −∞ over a nonempty family of reals is a real. -/
theorem fold_max_coe {ι : Type*} (s : Finset ι) (f : ι → ℝ) (hs : s.Nonempty) :
    ∃ r : ℝ, s.fold max (⊥ : EReal) (fun i => ((f i : ℝ) : EReal)) = (r : EReal) := by
  classical
  revert hs
  refine Finset.induction_on s (fun h => absurd h (by simp)) ?_
  intro a s ha ih _
  rw [Finset.fold_insert ha]
  rcases s.eq_empty_or_nonempty with rfl | hne
  · exact ⟨f a, by simp⟩
  · obtain ⟨r, hr⟩ := ih hne
    exact ⟨max (f a) r, by rw [hr]; exact (EReal.coe_strictMono.monotone.map_max).symm⟩

/-- A real row's maximum is a real. -/
theorem rowMax_coe (g : Fin 50257 → ℝ) : ∃ M : ℝ, rowMax (fun v => ((g v : ℝ) : EReal)) = (M : EReal) :=
  fold_max_coe Finset.univ g ⟨⟨0, by norm_num⟩, Finset.mem_univ _⟩

/-- A real row's shifted log-sum-exp is a real: the sum of 50257 positive reals is positive. -/
theorem rowLse_coe (g : Fin 50257 → ℝ) : ∃ L : ℝ, rowLse (fun v => ((g v : ℝ) : EReal)) = (L : EReal) := by
  obtain ⟨M, hM⟩ := rowMax_coe g
  have hsum : ∑ v : Fin 50257, Ideal.exp (((g v : ℝ) : EReal) - rowMax (fun v => ((g v : ℝ) : EReal)))
      = ((∑ v : Fin 50257, Real.exp (g v - M) : ℝ) : EReal) := by
    rw [← coe_finsum]
    refine Finset.sum_congr rfl (fun v _ => ?_)
    rw [hM, ← EReal.coe_sub, Ideal.exp_coe]
  have hpos : 0 < ∑ v : Fin 50257, Real.exp (g v - M) :=
    Finset.sum_pos (fun v _ => Real.exp_pos _) ⟨⟨0, by norm_num⟩, Finset.mem_univ _⟩
  refine ⟨Real.log (∑ v : Fin 50257, Real.exp (g v - M)), ?_⟩
  rw [rowLse, hsum, Ideal.log_coe, if_neg (not_le.mpr hpos)]

/-- For a target word inside the vocabulary the masked lane sum is the target's logit: one lane's number is the word. -/
theorem pick_eq (xr : Fin 50257 → EReal) (w : BitVec 32) (hw : w.toNat < 50257) :
    pick xr w = xr ⟨w.toNat, hw⟩ := by
  unfold pick
  rw [Finset.sum_eq_single (⟨w.toNat, hw⟩ : Fin 50257)]
  · rw [if_pos]
    apply BitVec.eq_of_toNat_eq
    simp
  · intro v _ hv
    rw [if_neg]
    intro h
    apply hv
    apply Fin.ext
    have h' := congrArg BitVec.toNat h
    rw [BitVec.toNat_ofNat, Nat.mod_eq_of_lt (by have := v.isLt; omega)] at h'
    exact h'
  · intro h; exact absurd (Finset.mem_univ _) h

/-- … and so is the clamped indexed read: the clamp does nothing. -/
theorem pickR_eq (xr : Fin 50257 → EReal) (w : BitVec 32) (hw : w.toNat < 50257) :
    pickR xr w = xr ⟨w.toNat, hw⟩ := by
  unfold pickR
  congr 1
  apply Fin.ext
  show min w.toNat 50256 = w.toNat
  omega

/-- For a real row and a target inside the vocabulary the kernel's and the reference's log-probability are one
    real number: on the reals a − (M + L) = (a − M) − L. -/
theorem nll_coe (g : Fin 50257 → ℝ) (w : BitVec 32) (hw : w.toNat < 50257) :
    ∃ c : ℝ, nllK (fun v => ((g v : ℝ) : EReal)) w = (c : EReal) ∧
      nllR (fun v => ((g v : ℝ) : EReal)) w = (c : EReal) := by
  obtain ⟨M, hM⟩ := rowMax_coe g
  obtain ⟨L, hL⟩ := rowLse_coe g
  refine ⟨g ⟨w.toNat, hw⟩ - (M + L), ?_, ?_⟩
  · rw [nllK, pick_eq _ _ hw, hM, hL, ← EReal.coe_add, ← EReal.coe_sub]
  · rw [nllR, pickR_eq _ _ hw, hM, hL, ← EReal.coe_sub, ← EReal.coe_sub]
    exact EReal.coe_eq_coe_iff.mpr (by ring)

/-- The 64 blocks of 32 rows are the 2048 rows: R = 32 p + r. -/
theorem sum_blocks {M : Type*} [AddCommMonoid M] (C : Fin 2048 → M) :
    ∑ p : Fin 64, ∑ r : Fin 32, C (blkRow p r) = ∑ R : Fin 2048, C R := by
  rw [← Fintype.sum_prod_type' (fun p r => C (blkRow p r))]
  refine Fintype.sum_equiv (finProdFinEquiv (m := 64) (n := 32)) _ _ (fun q => ?_)
  congr 1
  apply Fin.ext
  show 32 * q.1.val + q.2.val = q.2.val + 32 * q.1.val
  omega

/-- The indices of the [2, 1024, 1] array are the 2048 rows: R = 1024 b + s. -/
theorem sum_rows {M : Type*} [AddCommMonoid M] (c : Fin 2 → Fin 1024 → M) :
    ∑ i : SG.Idx, c (i 0) (i 1) = ∑ R : Fin 2048, c (rb R) (rs R) := by
  let e : SG.Idx ≃ Fin 2 × Fin 1024 :=
    { toFun := fun i => (i 0, i 1)
      invFun := fun p => ix3 p.1 p.2 (0 : Fin 1)
      left_inv := fun i => by
        have h2 : @Eq (Fin 1) (i 2) 0 := Subsingleton.elim (α := Fin 1) _ _
        have := eq_ix3 i
        rw [h2] at this
        exact this.symm
      right_inv := fun _ => rfl }
  rw [Fintype.sum_equiv e (fun i => c (i 0) (i 1)) (fun p => c p.1 p.2) (fun _ => rfl)]
  exact (Fintype.sum_equiv (finProdFinEquiv (m := 2) (n := 1024)).symm (fun R => c (rb R) (rs R))
    (fun p => c p.1 p.2) (fun _ => rfl)).symm

/-- The divisor's pattern denotes the real 2048. -/
theorem c2048_eq : c2048 = ((2048 : ℝ) : EReal) := by
  simp [Ideal.ofBits, Ideal.ieee, -EReal.coe_mul]; norm_num

/-- THE BRIDGE. For finite logits and targets inside the vocabulary, the kernel's total over 2048 is minus the
    reference's total over 2048. -/
theorem ce_eq (x : SX.Idx → EReal) (t : ST.Idx → BitVec 32)
    (hx : ∀ i, ∃ r : ℝ, x i = (r : EReal)) (ht : ∀ j, (t j).toNat < 50257) :
    Ideal.div (accK x t 63) c2048 = -(Ideal.div (0 + ∑ i : SG.Idx, gR x t i) c2048) := by
  choose xf hxf using hx
  have hrow : ∀ b s, row x b s = fun v => ((xf (ix3 b s v) : ℝ) : EReal) := by
    intro b s; funext v; exact hxf _
  have hnll : ∀ b s, ∃ c : ℝ, nllK (row x b s) (tgt t b s) = (c : EReal) ∧
      nllR (row x b s) (tgt t b s) = (c : EReal) := by
    intro b s; rw [hrow]; exact nll_coe _ _ (ht _)
  choose c hcK hcR using hnll
  -- every block's contribution is minus a real sum of 32 terms
  have hbs : ∀ p : Fin 64, blockSum x t p
      = ((-(∑ r : Fin 32, c (rb (blkRow p r)) (rs (blkRow p r))) : ℝ) : EReal) := by
    intro p
    unfold blockSum
    simp only [hcK]
    rw [coe_finsum, ← EReal.coe_zero, ← EReal.coe_sub, zero_sub]
  -- the kernel's running total at the last grid point is minus the sum over all 2048 rows
  have hK : accK x t 63 = ((-(∑ R : Fin 2048, c (rb R) (rs R)) : ℝ) : EReal) := by
    show ∑ p ∈ Finset.range 64, bsN x t p = _
    rw [← Fin.sum_univ_eq_sum_range (fun p => bsN x t p) 64]
    have hb : ∀ p : Fin 64, bsN x t p.val = blockSum x t p := fun p => by simp [bsN]
    simp only [hb, hbs]
    rw [coe_finsum, Finset.sum_neg_distrib, sum_blocks (fun R => c (rb R) (rs R))]
  -- the reference's total is the sum over all 2048 rows
  have hR : ∑ i : SG.Idx, gR x t i = ((∑ R : Fin 2048, c (rb R) (rs R) : ℝ) : EReal) := by
    have hg : ∀ i : SG.Idx, gR x t i = ((c (i 0) (i 1) : ℝ) : EReal) := fun i => hcR (i 0) (i 1)
    simp only [hg]
    rw [coe_finsum, sum_rows c]
  rw [hK, hR, c2048_eq, Ideal.div_coe (by norm_num), Ideal.div_coe (by norm_num), zero_add,
    ← EReal.coe_mul, ← EReal.coe_mul, ← EReal.coe_neg]
  exact EReal.coe_eq_coe_iff.mpr (by ring)

end Cert.Spec

end
-- ==== Proof.KIPay.lean ====
/-
  The body's arithmetic read at the extended reals. The body's two payloads are the accumulator's reset (a zero splat)
  and its update: from a [32, 50257] block of logits and a [32, 1] block of target words it forms, per row, the maximum
  M, the shifted log-sum-exp L = log ∑ᵥ exp (xᵥ − M), the target's logit a as the lane sum of the block masked where the
  lane number equals the target word, and a − (M + L); it sums these over the 32 rows, negates, and adds the result to
  the accumulator's old value. Each layout operation, reduction and masked select is read at an index once, over
  variables; the three per-row columns are then the specification's `rowMax`, `rowLse` and `pick`, and the update is
  the old value plus minus the sum of `nllK` over the block's rows.
-/
import proofs.«426039_j807453852038_3_alg».proof.Proof.Gen.KernelIdeal.Skeleton
import proofs.«426039_j807453852038_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-! ## Layout operations of the body read at an index -/

section Layout
variable {α : Type}

/-- A `[32]` vector cast to the column `[32, 1]` reads, at `(r, u)`, the vector at `r`. -/
theorem cast_col (x : S32.Idx → α) (r : Fin 32) (u : Fin 1) :
    shapeCast S32x1 x shapeCasts_S32_S32x1 (ix2 r u) = x (ix1 r) :=
  shapeCast_apply x _ _ _ (by
    have hu : u.val = 0 := by omega
    rw [Shape.rowMajor_val_one, Shape.rowMajor_val_two]
    show r.val = r.val * 1 + u.val
    rw [hu, Nat.mul_one, Nat.add_zero])

/-- A `[1]` vector cast to `[1, 1]` reads its one element. -/
theorem cast_one (x : S1.Idx → α) (a b : Fin 1) :
    shapeCast S1x1 x shapeCasts_S1_S1x1 (ix2 a b) = x (ix1 (0 : Fin 1)) :=
  shapeCast_apply x _ _ _ (by
    have ha : a.val = 0 := by omega
    have hb : b.val = 0 := by omega
    rw [Shape.rowMajor_val_one, Shape.rowMajor_val_two]
    show 0 = a.val * 1 + b.val
    rw [ha, hb])

/-- The column `[32, 1]` broadcast along the lanes reads, at `(r, v)`, the column at `r`. -/
theorem bcast_col (x : S32x1.Idx → α) (r : Fin 32) (v : Fin 50257) :
    broadcastTo S32x50257 x broadcasts_S32x1_S32x50257 (ix2 r v) = x (ix2 r (0 : Fin 1)) := by
  refine broadcastTo_apply x _ (ix2 r v) (ix2 r (0 : Fin 1)) fun ax => ?_
  match ax with
  | ⟨0, _⟩ => rfl
  | ⟨1, _⟩ => rfl

end Layout

/-! ## The body's reductions, its lane numbers and its masked select, read at an index -/

/-- The lane sum of a `[32, 50257]` block at row `r`: the sum over the vocabulary. -/
theorem lane_sum (src : FVec Ideal S32x50257 .f32) (r : Fin 32) :
    multiReduction .add [1] S32 src 0x00000000#32 reduces_S32x50257_S32 (.inl rfl) rfl (ix1 r)
      = ∑ v : Fin 50257, src (ix2 r v) :=
  (Ideal.multiReduction_add_single src 0x00000000#32 reduces_S32x50257_S32 (.inl rfl) rfl (ix1 r)).trans
    (Finset.sum_congr rfl fun v _ => congrArg src (funext fun a => Fin.ext (match a with | ⟨0, _⟩ => rfl | ⟨1, _⟩ => rfl)))

/-- The row sum of a `[32, 1]` column: the sum over the 32 rows. -/
theorem row_sum (src : FVec Ideal S32x1 .f32) (u : Fin 1) :
    multiReduction .add [0] S1 src 0x00000000#32 reduces_S32x1_S1 (.inl rfl) rfl (ix1 u)
      = ∑ r : Fin 32, src (ix2 r u) :=
  (Ideal.multiReduction_add_single src 0x00000000#32 reduces_S32x1_S1 (.inl rfl) rfl (ix1 u)).trans
    (Finset.sum_congr rfl fun r _ => congrArg src (funext fun a => Fin.ext (match a with | ⟨0, _⟩ => rfl | ⟨1, _⟩ => rfl)))

/-- The word `0xFF800000` is −∞. -/
theorem ofBits_neg_inf : Ideal.ofBits .f32 0xFF800000#32 = (⊥ : EReal) := by
  simp [Ideal.ofBits, Ideal.ieee]

/-- The lane maximum of a `[32, 50257]` block at row `r`: the row's maximum. -/
theorem lane_max (src : FVec Ideal S32x50257 .f32) (r : Fin 32) :
    multiReduction .maximumf [1] S32 src 0xFF800000#32 reduces_S32x50257_S32 (.inl rfl) rfl (ix1 r)
      = Cert.Spec.rowMax fun v : Fin 50257 => src (ix2 r v) := by
  refine (Ideal.multiReduction_maximumf_single src 0xFF800000#32 reduces_S32x50257_S32 (.inl rfl) rfl (ix1 r)).trans ?_
  have hf : (src ∘ reduces_S32x50257_S32.lift (ix1 r)) = fun v : Fin 50257 => src (ix2 r v) :=
    funext fun v => congrArg src (funext fun a => Fin.ext (match a with | ⟨0, _⟩ => rfl | ⟨1, _⟩ => rfl))
  rw [hf, Ideal.ofBits_def, ofBits_neg_inf]
  rfl

/-- The lane number along axis 1, as a 32-bit word. -/
theorem lane_iota (r : Fin 32) (v : Fin 50257) :
    iota .tc S32x50257 32 [1] iota_S32x50257_d1_w32 (ix2 r v) = BitVec.ofNat 32 v.val :=
  iota_single_apply .tc S32x50257 32 1 iota_S32x50257_d1_w32 (ix2 r v)

/-- A select on an equality test of two words is the `if` on their equality. -/
theorem select_cmpi_eq {β : Type} (x y : BitVec 32) (a b : β) :
    Scalar.select (IntOp.cmpi .eq x y) a b = if x = y then a else b := by
  unfold Scalar.select IntOp.cmpi
  by_cases h : x = y
  · simp [h]
  · have hb : (x == y) = false := by simpa using h
    simp [h, hb]

/-! ## The pointwise operations the library has no index form for -/

section Pointwise
variable {s : Shape} {φ : FTy}

/-- An exponential at an index is the exponential of the element. -/
theorem exp_apply (a : FVec Ideal s φ) (i : s.Idx) : exp a i = Ideal.exp (a i) := rfl
/-- A logarithm at an index is the logarithm of the element. -/
theorem log_apply (a : FVec Ideal s φ) (i : s.Idx) : log a i = Ideal.log (a i) := rfl
/-- A comparison of words at an index compares the elements. -/
theorem cmpi_apply {w : Nat} (p : CmpIPredicate) (a b : IVec s w) (i : s.Idx) : cmpi p a b i = IntOp.cmpi p (a i) (b i) := rfl

end Pointwise

/-! ## The three per-row columns of the body -/

/-- The rows' maxima as a `[32, 1]` column, as the body forms it. -/
def maxCol (x : FVec Ideal S32x50257 .f32) : FVec Ideal S32x1 .f32 :=
  shapeCast S32x1 (multiReduction .maximumf [1] S32 x 0xFF800000#32 reduces_S32x50257_S32 (.inl rfl) rfl) shapeCasts_S32_S32x1

theorem maxCol_apply (x : FVec Ideal S32x50257 .f32) (r : Fin 32) (u : Fin 1) :
    maxCol x (ix2 r u) = Cert.Spec.rowMax fun v : Fin 50257 => x (ix2 r v) :=
  (cast_col _ r u).trans (lane_max x r)

/-- The rows' shifted log-sum-exp as a column: the log of the lane sum of `exp (x − max)`. -/
def lseCol (x : FVec Ideal S32x50257 .f32) : FVec Ideal S32x1 .f32 :=
  log (shapeCast S32x1
    (multiReduction .add [1] S32 (exp (subf x (broadcastTo S32x50257 (maxCol x) broadcasts_S32x1_S32x50257)))
      0x00000000#32 reduces_S32x50257_S32 (.inl rfl) rfl) shapeCasts_S32_S32x1)

theorem lseCol_apply (x : FVec Ideal S32x50257 .f32) (r : Fin 32) (u : Fin 1) :
    lseCol x (ix2 r u) = Cert.Spec.rowLse fun v : Fin 50257 => x (ix2 r v) := by
  unfold lseCol Cert.Spec.rowLse
  rw [log_apply, cast_col, lane_sum]
  refine congrArg Ideal.log (Finset.sum_congr rfl fun v _ => ?_)
  rw [exp_apply, subf_apply, bcast_col, maxCol_apply]

/-- The targets' logits as a column: the lane sum of the block masked where the lane number is the target word. -/
def pickCol (x : FVec Ideal S32x50257 .f32) (t : IVec S32x1 32) : FVec Ideal S32x1 .f32 :=
  shapeCast S32x1
    (multiReduction .add [1] S32
      (select (cmpi .eq (iota .tc S32x50257 32 [1] iota_S32x50257_d1_w32) (broadcastTo S32x50257 t broadcasts_S32x1_S32x50257))
        x (broadcast S32x50257 (Scalar.ofBits (F := Ideal) .f32 0x00000000#32)))
      0x00000000#32 reduces_S32x50257_S32 (.inl rfl) rfl) shapeCasts_S32_S32x1

theorem pickCol_apply (x : FVec Ideal S32x50257 .f32) (t : IVec S32x1 32) (r : Fin 32) (u : Fin 1) :
    pickCol x t (ix2 r u) = Cert.Spec.pick (fun v : Fin 50257 => x (ix2 r v)) (t (ix2 r (0 : Fin 1))) := by
  refine (cast_col _ r u).trans ((lane_sum _ r).trans ?_)
  unfold Cert.Spec.pick
  refine Finset.sum_congr rfl fun v _ => ?_
  rw [select_apply, cmpi_apply, broadcast_apply, lane_iota, bcast_col, select_cmpi_eq]
  exact congrArg (fun z : EReal => if BitVec.ofNat 32 v.val = t (ix2 r (0 : Fin 1)) then x (ix2 r v) else z) Ideal.ofBits_zero_f32

/-! ## The two payloads -/

/-- The accumulator's reset: the zero splat. -/
theorem pay1_eq : (k0_pay1 (F := Ideal)) = fun _ => (0 : EReal) := by
  funext j
  unfold k0_pay1
  rw [shapeCast_self, broadcast_apply]
  exact Ideal.ofBits_zero_f32

/-- The accumulator's update as the body's three columns: by unfolding. -/
theorem pay2_cols (xb : FVec Ideal S32x50257 .f32) (tb : IVec S32x1 32) (acc : FVec Ideal S1x1 .f32) :
    k0_pay2 (F := Ideal) xb tb acc
      = shapeCast S1x1
          (addf acc (subf (broadcast S1x1 (Scalar.ofBits (F := Ideal) .f32 0x00000000#32))
            (shapeCast S1x1
              (multiReduction .add [0] S1
                (subf (pickCol (shapeCast S32x50257 xb shapeCasts_S32x50257_S32x50257) (shapeCast S32x1 tb shapeCasts_S32x1_S32x1))
                  (addf (maxCol (shapeCast S32x50257 xb shapeCasts_S32x50257_S32x50257))
                    (lseCol (shapeCast S32x50257 xb shapeCasts_S32x50257_S32x50257))))
                0x00000000#32 reduces_S32x1_S1 (.inl rfl) rfl) shapeCasts_S1_S1x1)))
          shapeCasts_S1x1_S1x1 := by
  unfold k0_pay2 pickCol lseCol maxCol
  rfl

/-- The accumulator's update: the old value plus minus the sum of the block's 32 rows' log-probabilities. -/
theorem pay2_eq (xb : FVec Ideal S32x50257 .f32) (tb : IVec S32x1 32) (acc : FVec Ideal S1x1 .f32) :
    k0_pay2 (F := Ideal) xb tb acc
      = fun j => acc j + (0 - ∑ r : Fin 32, Cert.Spec.nllK (fun v : Fin 50257 => xb (ix2 r v)) (tb (ix2 r (0 : Fin 1)))) := by
  rw [pay2_cols, shapeCast_self, shapeCast_self, shapeCast_self]
  funext j
  obtain ⟨a, b, rfl⟩ : ∃ (a b : Fin 1), j = ix2 a b := ⟨j 0, j 1, eq_ix2 j⟩
  rw [addf_apply, subf_apply, broadcast_apply, cast_one, row_sum]
  refine congrArg₂ (fun z s : EReal => acc (ix2 a b) + (z - s)) Ideal.ofBits_zero_f32 (Finset.sum_congr rfl fun r _ => ?_)
  rw [subf_apply, addf_apply, pickCol_apply, maxCol_apply, lseCol_apply]
  rfl

end Cert.KernelIdeal.Val

end
-- ==== Proof.KIValue.lean ====
/-
  The kernel's value at the extended reals, read off its frame. Each of the three control cases leaves in the scratch
  accumulator the body's update payload over the point's two input blocks (at point 0 over the freshly reset zero, later
  over what the point before left), and the last point stores that same value into the output's buffer. The two input
  windows stage the arguments reshaped to [2048, 50257] and [2048, 1], so entry (r, v) of the logits' block at point t is
  the logit of row 32 t + r, that is of (batch, position) = ((32 t + r) / 1024, (32 t + r) % 1024), and likewise the
  targets' block. Hence one point adds the specification's block term to the accumulator; by induction on the point the
  scratch after point n holds the running total `accK n`; and the (1, 1) output array, written back at point 63 only,
  ends holding `accK 63`.
-/
import proofs.«426039_j807453852038_3_alg».proof.Proof.KIFrame
import proofs.«426039_j807453852038_3_alg».proof.Proof.KIPay
import proofs.«426039_j807453852038_3_alg».proof.Proof.Spec
import Idealize.ShloMosaic.Lib.ValueIdx
import Idealize.ShloMosaic.Lib.Pipeline.Value
import Idealize.ShloMosaic.Lib.ValueLayout
import Idealize.ShloMosaic.Lib.Tactic
import Idealize.ShloMosaic.Lib.StableHlo.Run

set_option maxRecDepth 16384

noncomputable section

open scoped BigOperators

namespace Cert.KernelIdeal.Val

open Cert.KernelIdeal Cert.KernelIdeal.Gen Idealize.ShloMosaic Idealize.ShloMosaic.ValueIdx
open Idealize.ShloMosaic.TcCoe Idealize.SL.Sem Idealize.ShloMosaic.Tactic
open Idealize.ShloMosaic.Pipeline (Dat)

/-! ## What each case's stores leave, as the body's payloads -/

section Pieces
variable {F : FTy → Type} [FloatOps F]

theorem hz : (![0, 0] : Fin 2 → Nat) = fun _ => 0 := funext fun a => by fin_cases a <;> rfl

/-- Point 0 leaves in the scratch the update of the freshly reset accumulator. -/
theorem sout_A (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : Fr.cond0_0 i) (hc1 : ¬Fr.cond0_1 i)
    (x0 : Vec F S32x50257 .f32) (x1 : Vec F S32x1 .i32) :
    Fr.sout0_A_0 c i arg1 harg1 arg2 harg2 arg3 harg3 arg4 harg4 hc0 hc1 x0 x1 = k0_pay2 x0 x1 k0_pay1 := by
  unfold Fr.sout0_A_0
  rw [View.read_writes_eq_canon _ _ _ (Fr.scover0_A_0 c i arg1 harg1 arg2 harg2 arg3 harg3 arg4 harg4 hc0 hc1 x0 x1)]
  unfold Fr.kernelRun0_A
  dsimp only
  sl_unfold_words
  rw [View.canon_cons_unit_zero (S := S1x1) hz, View.readCov_unit_zero (S := S1x1) _ hz]
  simp only [View.readAt_eq_ld, harg1.read_unread, harg2.read_unread, View.ld_unit_zero (S := S32x50257) hz, View.ld_unit_zero (S := S32x1) hz]

/-- A middle point leaves in the scratch the update of what the point before left. -/
theorem sout_B (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬Fr.cond0_0 i) (hc1 : ¬Fr.cond0_1 i)
    (x0 : Vec F S32x50257 .f32) (x1 : Vec F S32x1 .i32) (xs0 : Vec F S1x1 .f32) :
    Fr.sout0_B_0 c i arg1 harg1 arg2 harg2 arg3 harg3 arg4 harg4 hc0 hc1 x0 x1 xs0 = k0_pay2 x0 x1 xs0 := by
  unfold Fr.sout0_B_0
  rw [View.read_writes_eq_canon _ _ _ (Fr.scover0_B_0 c i arg1 harg1 arg2 harg2 arg3 harg3 arg4 harg4 hc0 hc1 x0 x1 xs0)]
  unfold Fr.kernelRun0_B
  dsimp only
  sl_unfold_words
  rw [View.canon_unit_zero (S := S1x1) hz]
  simp only [View.readAt_eq_ld, harg1.read_unread, harg2.read_unread, harg4.read_unread, View.ld_unit_zero (S := S32x50257) hz, View.ld_unit_zero (S := S32x1) hz, View.ld_unit_zero (S := S1x1) hz]

/-- So does the last point, -/
theorem sout_C (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬Fr.cond0_0 i) (hc1 : Fr.cond0_1 i)
    (x0 : Vec F S32x50257 .f32) (x1 : Vec F S32x1 .i32) (xs0 : Vec F S1x1 .f32) :
    Fr.sout0_C_0 c i arg1 harg1 arg2 harg2 arg3 harg3 arg4 harg4 hc0 hc1 x0 x1 xs0 = k0_pay2 x0 x1 xs0 := by
  unfold Fr.sout0_C_0
  rw [View.read_writes_eq_canon _ _ _ (Fr.scover0_C_0 c i arg1 harg1 arg2 harg2 arg3 harg3 arg4 harg4 hc0 hc1 x0 x1 xs0)]
  unfold Fr.kernelRun0_C
  dsimp only
  sl_unfold_words
  rw [View.canon_unit_zero (S := S1x1) hz]
  simp only [View.readAt_eq_ld, harg1.read_unread, harg2.read_unread, harg4.read_unread, View.ld_unit_zero (S := S32x50257) hz, View.ld_unit_zero (S := S32x1) hz, View.ld_unit_zero (S := S1x1) hz]

/-- and it stores that same value into the output's buffer. -/
theorem out_C (c : Dev nD) (i : grid0.Coords) (arg1 : Memref sig .tc .vmem S32x50257 .f32) (harg1 : arg1.IsWhole) (arg2 : Memref sig .tc .vmem S32x1 .i32) (harg2 : arg2.IsWhole) (arg3 : Memref sig .tc .vmem S1x1 .f32) (harg3 : arg3.IsWhole) (arg4 : Memref sig .tc .vmem S1x1 .f32) (harg4 : arg4.IsWhole) (hc0 : ¬Fr.cond0_0 i) (hc1 : Fr.cond0_1 i)
    (x0 : Vec F S32x50257 .f32) (x1 : Vec F S32x1 .i32) (xs0 : Vec F S1x1 .f32) :
    Fr.out0_C_2 c i arg1 harg1 arg2 harg2 arg3 harg3 arg4 harg4 hc0 hc1 x0 x1 xs0 = k0_pay2 x0 x1 xs0 := by
  unfold Fr.out0_C_2
  rw [View.read_writes_eq_canon _ _ _ (Fr.cover0_C_2 c i arg1 harg1 arg2 harg2 arg3 harg3 arg4 harg4 hc0 hc1 x0 x1 xs0)]
  unfold Fr.kernelRun0_C
  dsimp only
  sl_unfold_words
  rw [View.canon_unit_zero (S := S1x1) hz, View.readCov_unit_zero (S := S1x1) _ hz]
  simp only [View.readAt_eq_ld, harg1.read_unread, harg2.read_unread, harg4.read_unread, View.ld_unit_zero (S := S32x50257) hz, View.ld_unit_zero (S := S32x1) hz, View.ld_unit_zero (S := S1x1) hz]

end Pieces

/-! ## The windows' blocks read off the two arguments -/

section Reads
variable (m : (ℓ : Loc nD τ sig) → Buf (Elt Ideal) ℓ)

/-- The logits and the targets as the program is launched with them. -/
abbrev xarr (c : Dev nD) : FVec Ideal S2x1024x50257 .f32 := m ((c.tc : Thread nD τ).loc main_arg0)
abbrev tarr (c : Dev nD) : IVec S2x1024 32 := m ((c.tc : Thread nD τ).loc main_arg1)
/-- The two input windows' blocks at grid point `t`. -/
abbrev xblk (c : Dev nD) (t : Fin cfg0.N) : FVec Ideal S32x50257 .f32 := Fr.iblk m c 0 t
abbrev tblk (c : Dev nD) (t : Fin cfg0.N) : IVec S32x1 32 := Fr.iblk m c 1 t

/-- When the region is entered the first window's array is the logits reshaped to [2048, 50257], -/
theorem V_v0 (c : Dev nD) :
    (Fr.V m c main_v0 : FVec Ideal S2048x50257 .f32) = shapeCast S2048x50257 (xarr m c) shapeCasts_S2x1024x50257_S2048x50257 := by
  show StableHlo.after hostOps0 (fun b => m (c, b)) (Proc.devRef .tc main_v0) = _
  after_results
  rfl

/-- and the second window's the targets reshaped to [2048, 1]. -/
theorem V_v1 (c : Dev nD) :
    (Fr.V m c main_v1 : IVec S2048x1 32) = shapeCast S2048x1 (tarr m c) shapeCasts_S2x1024_S2048x1 := by
  show StableHlo.after hostOps0 (fun b => m (c, b)) (Proc.devRef .tc main_v1) = _
  after_results
  rfl

/-- The two input windows' block indices: point `t` reads block row `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry (r, v) of the logits' block at point `t` is the logit of row 32 t + r of the flattened rows, at lane v. -/
theorem xblk_apply (c : Dev nD) (t : Fin cfg0.N) (ht : t.val < 64) (r : Fin 32) (v : Fin 50257) :
    xblk m c t (ix2 r v)
      = xarr m c (ix3 (Cert.Spec.rb (Cert.Spec.blkRow ⟨t.val, ht⟩ r)) (Cert.Spec.rs (Cert.Spec.blkRow ⟨t.val, ht⟩ r)) v) := by
  unfold xblk Fr.iblk
  rw [View.read_apply]
  show Fr.V m c main_v0 (((cfg0.win 0).blk t).view.emb (ix2 r v)) = _
  refine (congrFun (V_v0 m c) _).trans ?_
  refine shapeCast_apply _ _ _ _ ?_
  have e0 : ((((cfg0.win 0).blk t).view.emb (ix2 r v)) 0 : ℕ) = t.val * 32 + r.val := by
    show win0_0.index t 0 * 32 + 1 * r.val = _
    rw [(idx_facts t).1]; omega
  have e1 : ((((cfg0.win 0).blk t).view.emb (ix2 r v)) 1 : ℕ) = v.val := by
    show win0_0.index t 1 * 50257 + 1 * v.val = _
    rw [(idx_facts t).2.1]; omega
  rw [Shape.rowMajor_val_three, Shape.rowMajor_val_two, e0, e1]
  show ((32 * t.val + r.val) / 1024 * 1024 + (32 * t.val + r.val) % 1024) * 50257 + v.val = (t.val * 32 + r.val) * 50257 + v.val
  omega

/-- Entry (r, 0) of the targets' block at point `t` is the target of row 32 t + r of the flattened rows. -/
theorem tblk_apply (c : Dev nD) (t : Fin cfg0.N) (ht : t.val < 64) (r : Fin 32) :
    tblk m c t (ix2 r (0 : Fin 1))
      = tarr m c (ix2 (Cert.Spec.rb (Cert.Spec.blkRow ⟨t.val, ht⟩ r)) (Cert.Spec.rs (Cert.Spec.blkRow ⟨t.val, ht⟩ r))) := by
  unfold tblk Fr.iblk
  rw [View.read_apply]
  show Fr.V m c main_v1 (((cfg0.win 1).blk t).view.emb (ix2 r (0 : Fin 1))) = _
  refine (congrFun (V_v1 m c) _).trans ?_
  refine shapeCast_apply _ _ _ _ ?_
  have e0 : ((((cfg0.win 1).blk t).view.emb (ix2 r (0 : Fin 1))) 0 : ℕ) = t.val * 32 + r.val := by
    show win0_1.index t 0 * 32 + 1 * r.val = _
    rw [(idx_facts t).2.2.1]; omega
  have e1 : ((((cfg0.win 1).blk t).view.emb (ix2 r (0 : Fin 1))) 1 : ℕ) = 0 := by
    show win0_1.index t 1 * 1 + 1 * 0 = _
    rw [(idx_facts t).2.2.2]
  rw [Shape.rowMajor_val_two, Shape.rowMajor_val_two, e0, e1]
  show (32 * t.val + r.val) / 1024 * 1024 + (32 * t.val + r.val) % 1024 = (t.val * 32 + r.val) * 1 + 0
  omega

end Reads

/-! ## One grid point's step, and the running total -/

section Value
variable (m : (ℓ : Loc nD τ sig) → Buf (Elt Ideal) ℓ)

/-- What the body forms from point `t`'s two blocks is the specification's block term of point `t`. -/
theorem block_term (c : Dev nD) (t : Fin cfg0.N) :
    (0 - ∑ r : Fin 32, Cert.Spec.nllK (fun v : Fin 50257 => xblk m c t (ix2 r v)) (tblk m c t (ix2 r (0 : Fin 1))))
      = Cert.Spec.bsN (xarr m c) (tarr m c) t.val := by
  have ht : t.val < 64 := lt_of_lt_of_eq t.isLt (show cfg0.N = 64 from N_0)
  unfold Cert.Spec.bsN
  rw [dif_pos ht]
  unfold Cert.Spec.blockSum
  refine congrArg (fun s : EReal => 0 - s) (Finset.sum_congr rfl fun r _ => ?_)
  exact congrArg₂ Cert.Spec.nllK (funext fun v => xblk_apply m c t ht r v) (tblk_apply m c t ht r)

/-- The accumulator's update at point `t`: the old value plus the block term. -/
theorem step (c : Dev nD) (t : Fin cfg0.N) (acc : FVec Ideal S1x1 .f32) :
    k0_pay2 (F := Ideal) (xblk m c t) (tblk m c t) acc = fun j => acc j + Cert.Spec.bsN (xarr m c) (tarr m c) t.val :=
  (pay2_eq (xblk m c t) (tblk m c t) acc).trans
    (funext fun j => congrArg (fun z : EReal => acc j + z) (block_term m c t))

/-- After point 0 the scratch holds zero plus the first block term. -/
theorem scratch_A (c : Dev nD) (t : Fin cfg0.N) (h0 : t.val = 0) (h1 : ¬t.val = 63) :
    (Fr.outsAt0 m c t.val t.isLt).2 = fun _ => (0 : EReal) + Cert.Spec.bsN (xarr m c) (tarr m c) t.val := by
  rw [Fr.outsAt0_A m c t h0 h1]
  dsimp only
  refine (sout_A (F := Ideal) c (grid0.coords t) (Fr.ms0_0 t) (Fr.hs0_0 t) (Fr.ms0_1 t) (Fr.hs0_1 t) (Fr.ms0_2 t) (Fr.hs0_2 t) Fr.scM0_0 (Memref.isWhole_whole _) ((Fr.hcond0_0 t).mpr h0) (fun h => h1 ((Fr.hcond0_1 t).mp h)) (Fr.iblk m c 0 t) (Fr.iblk m c 1 t)).trans ?_
  exact (congrArg (k0_pay2 (F := Ideal) (xblk m c t) (tblk m c t)) pay1_eq).trans (step m c t fun _ => 0)

/-- After a middle point it holds what the point before left plus this point's block term. -/
theorem scratch_B (c : Dev nD) (t : Fin cfg0.N) (h0 : ¬t.val = 0) (h1 : ¬t.val = 63) :
    (Fr.outsAt0 m c t.val t.isLt).2
      = fun j => (Fr.outsAt0 m c (t.val - 1) (Nat.lt_of_le_of_lt (Nat.sub_le _ _) t.isLt)).2 j + Cert.Spec.bsN (xarr m c) (tarr m c) t.val := by
  rw [Fr.outsAt0_B m c t h0 h1]
  dsimp only
  refine (sout_B (F := Ideal) c (grid0.coords t) (Fr.ms0_0 t) (Fr.hs0_0 t) (Fr.ms0_1 t) (Fr.hs0_1 t) (Fr.ms0_2 t) (Fr.hs0_2 t) Fr.scM0_0 (Memref.isWhole_whole _) (fun h => h0 ((Fr.hcond0_0 t).mp h)) (fun h => h1 ((Fr.hcond0_1 t).mp h)) (Fr.iblk m c 0 t) (Fr.iblk m c 1 t) (Fr.outsAt0 m c (t.val - 1) (Nat.lt_of_le_of_lt (Nat.sub_le _ _) t.isLt)).2).trans ?_
  exact step m c t _

/-- So does the scratch after the last point, -/
theorem scratch_C (c : Dev nD) (t : Fin cfg0.N) (h0 : ¬t.val = 0) (h1 : t.val = 63) :
    (Fr.outsAt0 m c t.val t.isLt).2
      = fun j => (Fr.outsAt0 m c (t.val - 1) (Nat.lt_of_le_of_lt (Nat.sub_le _ _) t.isLt)).2 j + Cert.Spec.bsN (xarr m c) (tarr m c) t.val := by
  rw [Fr.outsAt0_C m c t h0 h1]
  dsimp only
  refine (sout_C (F := Ideal) c (grid0.coords t) (Fr.ms0_0 t) (Fr.hs0_0 t) (Fr.ms0_1 t) (Fr.hs0_1 t) (Fr.ms0_2 t) (Fr.hs0_2 t) Fr.scM0_0 (Memref.isWhole_whole _) (fun h => h0 ((Fr.hcond0_0 t).mp h)) ((Fr.hcond0_1 t).mpr h1) (Fr.iblk m c 0 t) (Fr.iblk m c 1 t) (Fr.outsAt0 m c (t.val - 1) (Nat.lt_of_le_of_lt (Nat.sub_le _ _) t.isLt)).2).trans ?_
  exact step m c t _

/-- and the output's buffer, into which the last point stores the accumulator's new value. -/
theorem outbuf_C (c : Dev nD) (t : Fin cfg0.N) (h0 : ¬t.val = 0) (h1 : t.val = 63) :
    (Fr.outsAt0 m c t.val t.isLt).1
      = fun j => (Fr.outsAt0 m c (t.val - 1) (Nat.lt_of_le_of_lt (Nat.sub_le _ _) t.isLt)).2 j + Cert.Spec.bsN (xarr m c) (tarr m c) t.val := by
  rw [Fr.outsAt0_C m c t h0 h1]
  dsimp only
  refine (out_C (F := Ideal) c (grid0.coords t) (Fr.ms0_0 t) (Fr.hs0_0 t) (Fr.ms0_1 t) (Fr.hs0_1 t) (Fr.ms0_2 t) (Fr.hs0_2 t) Fr.scM0_0 (Memref.isWhole_whole _) (fun h => h0 ((Fr.hcond0_0 t).mp h)) ((Fr.hcond0_1 t).mpr h1) (Fr.iblk m c 0 t) (Fr.iblk m c 1 t) (Fr.outsAt0 m c (t.val - 1) (Nat.lt_of_le_of_lt (Nat.sub_le _ _) t.isLt)).2).trans ?_
  exact step m c t _

/-- THE RUNNING TOTAL. After point `n` the scratch holds the sum of the block terms of points 0 … n. -/
theorem scratch_eq (c : Dev nD) : ∀ (n : ℕ) (hn : n < cfg0.N),
    (Fr.outsAt0 m c n hn).2 = fun _ => Cert.Spec.accK (xarr m c) (tarr m c) n
  | 0, hn => by
    refine (scratch_A m c ⟨0, hn⟩ rfl (by show ¬(0 : ℕ) = 63; decide)).trans ?_
    funext j
    rw [Cert.Spec.accK_zero]
    exact zero_add _
  | n + 1, hn => by
    have ih := scratch_eq c n (Nat.lt_of_succ_lt hn)
    have h0 : ¬(⟨n + 1, hn⟩ : Fin cfg0.N).val = 0 := Nat.succ_ne_zero n
    have key : (fun j => (Fr.outsAt0 m c ((⟨n + 1, hn⟩ : Fin cfg0.N).val - 1) (Nat.lt_of_le_of_lt (Nat.sub_le _ _) (⟨n + 1, hn⟩ : Fin cfg0.N).isLt)).2 j
          + Cert.Spec.bsN (xarr m c) (tarr m c) (⟨n + 1, hn⟩ : Fin cfg0.N).val)
        = fun _ => Cert.Spec.accK (xarr m c) (tarr m c) (n + 1) := by
      funext j
      refine Eq.trans ?_ (Cert.Spec.accK_succ (xarr m c) (tarr m c) n).symm
      exact congrArg (fun z : EReal => z + Cert.Spec.bsN (xarr m c) (tarr m c) (n + 1)) (congrFun ih j)
    by_cases h1 : (⟨n + 1, hn⟩ : Fin cfg0.N).val = 63
    · exact (scratch_C m c ⟨n + 1, hn⟩ h0 h1).trans key
    · exact (scratch_B m c ⟨n + 1, hn⟩ h0 h1).trans key

end Value

/-! ## The output array after the run -/

section Final
variable (m : (ℓ : Loc nD τ sig) → Buf (Elt Ideal) ℓ)

/-- The last grid point. -/
abbrev t63 : Fin cfg0.N := ⟨63, by rw [show cfg0.N = 64 from N_0]; decide⟩

/-- The total: every block term added up, as contents of the (1, 1) output array. -/
abbrev total (c : Dev nD) : Buf (Elt Ideal) ((c.tc : Thread nD τ).loc main_v2) :=
  fun _ => Cert.Spec.accK (xarr m c) (tarr m c) 63

/-- After the last point the output's buffer holds the total. -/
theorem outbuf_eq (c : Dev nD) : (Fr.outsAt0 m c t63.val t63.isLt).1 = total m c := by
  refine (outbuf_C m c t63 (by show ¬(63 : ℕ) = 0; decide) rfl).trans ?_
  funext j
  refine Eq.trans ?_ (Cert.Spec.accK_succ (xarr m c) (tarr m c) 62).symm
  exact congrArg (fun z : EReal => z + Cert.Spec.bsN (xarr m c) (tarr m c) 63)
    (congrFun (scratch_eq m c 62 (by rw [show cfg0.N = 64 from N_0]; decide)) j)

/-- The one write-back, at the last point, writes the total: block (0, 0) of the (1, 1) array is the array. -/
theorem flushed_eq (c : Dev nD) (t : Fin cfg0.N) (hf : (cfg0.win 2).flush t = true) :
    (Fr.dats m 0 c).flushed 2 t = ((cfg0.win 2).blk t).view.read (Elt Ideal) (total m c) := by
  have hN : cfg0.N = 64 := N_0
  have h63 : t.val = 63 := by have := (flush0_2 t).mp hf; have := t.isLt; omega
  obtain rfl : t = t63 := Fin.ext h63
  show (cfg0.win 2).cut (grid0.coords t63) ((Fr.dats m 0 c).after 2 t63) = _
  rw [Fr.after0_2, outbuf_eq]
  have hz' : (fun a => win0_2.index t63 a * main_v2.ty.shape.size a) = fun _ => 0 := funext fun a => by fin_cases a <;> decide
  exact (Memref.read_access_unit_zero (Elt Ideal) main_v2 hz' (fun a => by rw [congrFun hz' a]; simp) (total m c)).symm

/-- So the output array ends holding the total: the last point's block covers it. -/
theorem final (c : Dev nD) : (Fr.dats m 0 c).arrAt 2 cfg0.N = total m c :=
  (Fr.dats m 0 c).arrAt_eq_of_cover 2 (total m c) (flushed_eq m c) fun i =>
    ⟨t63, (flush0_2 t63).mpr rfl, by
      show i ∈ ((View.whole main_v2).slice (win0_2.rect t63)).set
      rw [View.set_slice_whole, Rect.mem_set_unit]
      intro a
      have h0 : (i 0 : Nat) < 1 := (i 0).isLt
      have h1 : (i 1 : Nat) < 1 := (i 1).isLt
      match a with
      | ⟨0, _⟩ => show win0_2.index t63 0 * win0_2.size 0 ≤ (i 0 : Nat) ∧ (i 0 : Nat) < win0_2.index t63 0 * win0_2.size 0 + win0_2.xsize (grid0.coords t63) 0
                  rw [show win0_2.index t63 0 * win0_2.size 0 = 0 from by decide +kernel, show win0_2.xsize (grid0.coords t63) 0 = 1 from by decide +kernel]; omega
      | ⟨1, _⟩ => show win0_2.index t63 1 * win0_2.size 1 ≤ (i 1 : Nat) ∧ (i 1 : Nat) < win0_2.index t63 1 * win0_2.size 1 + win0_2.xsize (grid0.coords t63) 1
                  rw [show win0_2.index t63 1 * win0_2.size 1 = 0 from by decide +kernel, show win0_2.xsize (grid0.coords t63) 1 = 1 from by decide +kernel]; omega⟩

/-- THE KERNEL'S VALUE. After the run the (1, 1) output array holds, at its one index, the running total after the last
    grid point, a function of the two arguments as the program was launched with them. -/
theorem out_value (m : (ℓ : Loc nD τ sig) → Buf (Elt Ideal) ℓ) (c : Dev nD) :
    (Fr.dats m 0 c).arrAt 2 cfg0.N
      = fun _ => Cert.Spec.accK (m ((c.tc : Thread nD τ).loc main_arg0)) (m ((c.tc : Thread nD τ).loc main_arg1)) 63 :=
  final m c

end Final

end Cert.KernelIdeal.Val

end
-- ==== Proof.RefRun.lean ====
/-
  The reference program's @main as a straight line of host operations, and its run.
  The program is a sequence of elementwise, broadcast, reduction, gather and slice operations, each writing one
  buffer from buffers written earlier; a call of a module-local function stands for the callee's operations over
  the buffers of that call. Listed in program order, the operations up to the negated mean (`opsCe`: the row
  maxima, the shifted log-sum-exp, the gathered target logits, their sum over all rows, the division by the
  row count and the negation) are followed by those of the penalty on the targets and the final sum (`opsPen`).
  Every weakly fair execution of the program terminates with each buffer holding the fold of these operations
  over the launch contents (`run_after`).
-/
import proofs.«426039_j807453852038_3_alg».proof.Proof.Gen.ReferenceIdeal
import Idealize.ShloMosaic.Lib.StableHlo.Run
import Idealize.ShloMosaic.Lib.Pipeline.Regions

set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 45 operations from the two constant tables through the negated mean, the calls of the log-softmax and of the indexed read laid out in place. -/
abbrev opsCe : List (HloOp τ sig (Elt F)) :=
  [ StableHlo.nullary main_c (fun i => lit0 (S19.rowMajor i)),
    StableHlo.nullary main_c_0 (fun i => lit1 (S19x7.rowMajor i)),
    StableHlo.TRef.nullary (.of main_call0_cst : StableHlo.TRef sig ⟨S_, .f32⟩) (constant S_ .f32 0xFF800000#32),
    StableHlo.TRef.binary (.of main_arg0 : StableHlo.TRef sig ⟨S2x1024x50257, .f32⟩) (.of main_call0_cst : StableHlo.TRef sig ⟨S_, .f32⟩) (.of main_call0_v0 : StableHlo.TRef sig ⟨S2x1024, .f32⟩) (fun x v => Host.reduce FloatOps.maximumf x v reducesTo_S2x1024x50257_S2x1024_d2 h_S_),
    StableHlo.TRef.nullary (.of main_call0_cst_0 : StableHlo.TRef sig ⟨S_, .f32⟩) (constant S_ .f32 0xFF800000#32),
    StableHlo.TRef.unary (.of main_call0_cst_0 : StableHlo.TRef sig ⟨S_, .f32⟩) (.of main_call0_v1 : StableHlo.TRef sig ⟨S2x1024, .f32⟩) (broadcastInDim S2x1024 ![] bcast_S_S2x1024),
    StableHlo.TRef.binary (.of main_call0_v1 : StableHlo.TRef sig ⟨S2x1024, .f32⟩) (.of main_call0_v0 : StableHlo.TRef sig ⟨S2x1024, .f32⟩) (.of main_call0_v2 : StableHlo.TRef sig ⟨S2x1024, .f32⟩) maximumf,
    StableHlo.TRef.unary (.of main_call0_v2 : StableHlo.TRef sig ⟨S2x1024, .f32⟩) (.of main_call0_v3 : StableHlo.TRef sig ⟨S2x1024x1, .f32⟩) (broadcastInDim S2x1024x1 ![0, 1] bcast_S2x1024_S2x1024x1_0_1),
    StableHlo.TRef.unary (.of main_call0_v3 : StableHlo.TRef sig ⟨S2x1024x1, .f32⟩) (.of main_call0_v4 : StableHlo.TRef sig ⟨S2x1024x50257, .f32⟩) (broadcastInDim S2x1024x50257 ![0, 1, 2] bcast_S2x1024x1_S2x1024x50257_0_1_2),
    StableHlo.TRef.binary (.of main_arg0 : StableHlo.TRef sig ⟨S2x1024x50257, .f32⟩) (.of main_call0_v4 : StableHlo.TRef sig ⟨S2x1024x50257, .f32⟩) (.of main_call0_v5 : StableHlo.TRef sig ⟨S2x1024x50257, .f32⟩) subf,
    StableHlo.TRef.unary (.of main_call0_v5 : StableHlo.TRef sig ⟨S2x1024x50257, .f32⟩) (.of main_call0_v6 : StableHlo.TRef sig ⟨S2x1024x50257, .f32⟩) Host.exp,
    StableHlo.TRef.nullary (.of main_call0_cst_1 : StableHlo.TRef sig ⟨S_, .f32⟩) (constant S_ .f32 0x00000000#32),
    StableHlo.TRef.binary (.of main_call0_v6 : StableHlo.TRef sig ⟨S2x1024x50257, .f32⟩) (.of main_call0_cst_1 : StableHlo.TRef sig ⟨S_, .f32⟩) (.of main_call0_v7 : StableHlo.TRef sig ⟨S2x1024, .f32⟩) (fun x v => Host.reduceAdd x v reducesTo_S2x1024x50257_S2x1024_d2 h_S_),
    StableHlo.TRef.unary (.of main_call0_v7 : StableHlo.TRef sig ⟨S2x1024, .f32⟩) (.of main_call0_v8 : StableHlo.TRef sig ⟨S2x1024x1, .f32⟩) (broadcastInDim S2x1024x1 ![0, 1] bcast_S2x1024_S2x1024x1_0_1),
    StableHlo.TRef.unary (.of main_call0_v8 : StableHlo.TRef sig ⟨S2x1024x1, .f32⟩) (.of main_call0_v9 : StableHlo.TRef sig ⟨S2x1024x1, .f32⟩) Host.log,
    StableHlo.TRef.unary (.of main_call0_v9 : StableHlo.TRef sig ⟨S2x1024x1, .f32⟩) (.of main_call0_v10 : StableHlo.TRef sig ⟨S2x1024x50257, .f32⟩) (broadcastInDim S2x1024x50257 ![0, 1, 2] bcast_S2x1024x1_S2x1024x50257_0_1_2),
    StableHlo.TRef.binary (.of main_call0_v5 : StableHlo.TRef sig ⟨S2x1024x50257, .f32⟩) (.of main_call0_v10 : StableHlo.TRef sig ⟨S2x1024x50257, .f32⟩) (.of main_v0 : StableHlo.TRef sig ⟨S2x1024x50257, .f32⟩) subf,
    StableHlo.unary main_arg1 main_v1 (broadcastInDim S2x1024x1 ![0, 1] bcast_S2x1024_S2x1024x1_0_1 : (⟨S2x1024, .i32⟩ : BufTy).Contents (Elt F) → (⟨S2x1024x1, .i32⟩ : BufTy).Contents (Elt F)),
    StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S2x1024x1, .i32⟩) (broadcastInDim S2x1024x1 ![] bcast_S_S2x1024x1),
    StableHlo.TRef.binary (.of main_v1 : StableHlo.TRef sig ⟨S2x1024x1, .i32⟩) (.of main_call1_v0 : StableHlo.TRef sig ⟨S2x1024x1, .i32⟩) (.of main_call1_v1 : StableHlo.TRef sig ⟨S2x1024x1, .i1⟩) (cmpi .slt),
    StableHlo.TRef.nullary (.of main_call1_c_0 : StableHlo.TRef sig ⟨S_, .i32⟩) (constantI S_ 32 50257#32),
    StableHlo.TRef.unary (.of main_call1_c_0 : StableHlo.TRef sig ⟨S_, .i32⟩) (.of main_call1_v2 : StableHlo.TRef sig ⟨S2x1024x1, .i32⟩) (broadcastInDim S2x1024x1 ![] bcast_S_S2x1024x1),
    StableHlo.TRef.binary (.of main_v1 : StableHlo.TRef sig ⟨S2x1024x1, .i32⟩) (.of main_call1_v2 : StableHlo.TRef sig ⟨S2x1024x1, .i32⟩) (.of main_call1_v3 : StableHlo.TRef sig ⟨S2x1024x1, .i32⟩) addi,
    StableHlo.TRef.ternary (.of main_call1_v1 : StableHlo.TRef sig ⟨S2x1024x1, .i1⟩) (.of main_call1_v3 : StableHlo.TRef sig ⟨S2x1024x1, .i32⟩) (.of main_v1 : StableHlo.TRef sig ⟨S2x1024x1, .i32⟩) (.of main_call1_v4 : StableHlo.TRef sig ⟨S2x1024x1, .i32⟩) select,
    StableHlo.TRef.reshape (.of main_call1_v4 : StableHlo.TRef sig ⟨S2x1024x1, .i32⟩) (.of main_call1_v5 : StableHlo.TRef sig ⟨S2x1024x1x1, .i32⟩) rfl shapeCasts_S2x1024x1_S2x1024x1x1,
    StableHlo.TRef.nullary (.of main_call1_c_1 : StableHlo.TRef sig ⟨S1, .i32⟩) (constantI S1 32 50256#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S2x1024x1x1, .i32⟩) (broadcastInDim S2x1024x1x1 ![] bcast_S_S2x1024x1x1),
    StableHlo.TRef.binary (.of main_call1_v5 : StableHlo.TRef sig ⟨S2x1024x1x1, .i32⟩) (.of main_call1_v6 : StableHlo.TRef sig ⟨S2x1024x1x1, .i32⟩) (.of main_call1_v7 : StableHlo.TRef sig ⟨S2x1024x1x1, .i1⟩) (cmpi .sge),
    StableHlo.TRef.unary (.of main_call1_c_1 : StableHlo.TRef sig ⟨S1, .i32⟩) (.of main_call1_v8 : StableHlo.TRef sig ⟨S1x1x1x1, .i32⟩) (broadcastInDim S1x1x1x1 ![3] bcast_S1_S1x1x1x1_3),
    StableHlo.TRef.unary (.of main_call1_v8 : StableHlo.TRef sig ⟨S1x1x1x1, .i32⟩) (.of main_call1_v9 : StableHlo.TRef sig ⟨S2x1024x1x1, .i32⟩) (broadcastInDim S2x1024x1x1 ![0, 1, 2, 3] bcast_S1x1x1x1_S2x1024x1x1_0_1_2_3),
    StableHlo.TRef.binary (.of main_call1_v5 : StableHlo.TRef sig ⟨S2x1024x1x1, .i32⟩) (.of main_call1_v9 : StableHlo.TRef sig ⟨S2x1024x1x1, .i32⟩) (.of main_call1_v10 : StableHlo.TRef sig ⟨S2x1024x1x1, .i1⟩) (cmpi .sle),
    StableHlo.TRef.binary (.of main_call1_v7 : StableHlo.TRef sig ⟨S2x1024x1x1, .i1⟩) (.of main_call1_v10 : StableHlo.TRef sig ⟨S2x1024x1x1, .i1⟩) (.of main_call1_v11 : StableHlo.TRef sig ⟨S2x1024x1x1, .i1⟩) andi,
    StableHlo.TRef.nullary (.of main_call1_c_3 : StableHlo.TRef sig ⟨S_, .i1⟩) (constantI S_ 1 1#1),
    StableHlo.TRef.binary (.of main_call1_v11 : StableHlo.TRef sig ⟨S2x1024x1x1, .i1⟩) (.of main_call1_c_3 : StableHlo.TRef sig ⟨S_, .i1⟩) (.of main_call1_v12 : StableHlo.TRef sig ⟨S2x1024x1, .i1⟩) (fun x v => Host.reduce IntOp.andi x v reducesTo_S2x1024x1x1_S2x1024x1_d3 h_S_),
    StableHlo.TRef.binary (.of main_v0 : StableHlo.TRef sig ⟨S2x1024x50257, .f32⟩) (.of main_call1_v5 : StableHlo.TRef sig ⟨S2x1024x1x1, .i32⟩) (.of main_call1_v13 : StableHlo.TRef sig ⟨S2x1024x1, .f32⟩) (fun x i => Host.gather gather_S2x1024x50257_S2x1024x1x1_S2x1024x1_n_2_01_01_2_3_111 x i),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v14 : StableHlo.TRef sig ⟨S2x1024x1, .f32⟩) (broadcastInDim S2x1024x1 ![] bcast_S_S2x1024x1),
    StableHlo.TRef.ternary (.of main_call1_v12 : StableHlo.TRef sig ⟨S2x1024x1, .i1⟩) (.of main_call1_v13 : StableHlo.TRef sig ⟨S2x1024x1, .f32⟩) (.of main_call1_v14 : StableHlo.TRef sig ⟨S2x1024x1, .f32⟩) (.of main_v2 : StableHlo.TRef sig ⟨S2x1024x1, .f32⟩) select,
    StableHlo.nullary main_cst (constant S_ .f32 0x00000000#32),
    StableHlo.binary main_v2 main_cst main_v3 ((fun x v => Host.reduceAdd x v reducesTo_S2x1024x1_S_d0_1_2 h_S_) : (⟨S2x1024x1, .f32⟩ : BufTy).Contents (Elt F) → (⟨S_, .f32⟩ : BufTy).Contents (Elt F) → (⟨S_, .f32⟩ : BufTy).Contents (Elt F)),
    StableHlo.nullary main_cst_1 (constant S_ .f32 0x45000000#32),
    StableHlo.binary main_v3 main_cst_1 main_v4 (Host.divf : (⟨S_, .f32⟩ : BufTy).Contents (Elt F) → (⟨S_, .f32⟩ : BufTy).Contents (Elt F) → (⟨S_, .f32⟩ : BufTy).Contents (Elt F)),
    StableHlo.unary main_v4 main_v5 (Host.negf : (⟨S_, .f32⟩ : BufTy).Contents (Elt F) → (⟨S_, .f32⟩ : BufTy).Contents (Elt F)) ]
theorem opsCe_sub : (opsCe : List (HloOp τ sig (Elt F))).Forall fun op => op.bufs ⊆ tcRefs τ sig :=
  ⟨nullary_bufs_sub .., nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., binary_bufs_sub .., unary_bufs_sub ..⟩
theorem opsCe_fresh : (opsCe : List (HloOp τ sig (Elt F))).Forall fun op => op.fresh = ∅ := by
  simp only [List.Forall]; repeat' constructor

/-- The penalty's first 52 operations (the rest of the first window). -/
abbrev pen0 : List (HloOp τ sig (Elt F)) :=
  [ StableHlo.unary main_arg1 main_v6 ((extractStridedSlice S2x1023 ![0, 0] · slices_S2x1024_S2x1023_0_0) : (⟨S2x1024, .i32⟩ : BufTy).Contents (Elt F) → (⟨S2x1023, .i32⟩ : BufTy).Contents (Elt F)),
    StableHlo.unary main_arg1 main_v7 ((extractStridedSlice S2x1023 ![0, 1] · slices_S2x1024_S2x1023_0_1) : (⟨S2x1024, .i32⟩ : BufTy).Contents (Elt F) → (⟨S2x1023, .i32⟩ : BufTy).Contents (Elt F)),
    StableHlo.unary main_v6 main_v8 (broadcastInDim S2x1023x1 ![0, 1] bcast_S2x1023_S2x1023x1_0_1 : (⟨S2x1023, .i32⟩ : BufTy).Contents (Elt F) → (⟨S2x1023x1, .i32⟩ : BufTy).Contents (Elt F)),
    StableHlo.unary main_c main_v9 (broadcastInDim S1x1x19 ![2] bcast_S19_S1x1x19_2 : (⟨S19, .i32⟩ : BufTy).Contents (Elt F) → (⟨S1x1x19, .i32⟩ : BufTy).Contents (Elt F)),
    StableHlo.unary main_v8 main_v10 (broadcastInDim S2x1023x19 ![0, 1, 2] bcast_S2x1023x1_S2x1023x19_0_1_2 : (⟨S2x1023x1, .i32⟩ : BufTy).Contents (Elt F) → (⟨S2x1023x19, .i32⟩ : BufTy).Contents (Elt F)),
    StableHlo.unary main_v9 main_v11 (broadcastInDim S2x1023x19 ![0, 1, 2] bcast_S1x1x19_S2x1023x19_0_1_2 : (⟨S1x1x19, .i32⟩ : BufTy).Contents (Elt F) → (⟨S2x1023x19, .i32⟩ : BufTy).Contents (Elt F)),
    StableHlo.binary main_v10 main_v11 main_v12 (cmpi .eq : (⟨S2x1023x19, .i32⟩ : BufTy).Contents (Elt F) → (⟨S2x1023x19, .i32⟩ : BufTy).Contents (Elt F) → (⟨S2x1023x19, .i1⟩ : BufTy).Contents (Elt F)),
    StableHlo.unary main_v7 main_v13 (broadcastInDim S2x1023x1x1 ![0, 1] bcast_S2x1023_S2x1023x1x1_0_1 : (⟨S2x1023, .i32⟩ : BufTy).Contents (Elt F) → (⟨S2x1023x1x1, .i32⟩ : BufTy).Contents (Elt F)),
    StableHlo.unary main_c_0 main_v14 (broadcastInDim S1x1x19x7 ![2, 3] bcast_S19x7_S1x1x19x7_2_3 : (⟨S19x7, .i32⟩ : BufTy).Contents (Elt F) → (⟨S1x1x19x7, .i32⟩ : BufTy).Contents (Elt F)),
    StableHlo.unary main_v13 main_v15 (broadcastInDim S2x1023x19x7 ![0, 1, 2, 3] bcast_S2x1023x1x1_S2x1023x19x7_0_1_2_3 : (⟨S2x1023x1x1, .i32⟩ : BufTy).Contents (Elt F) → (⟨S2x1023x19x7, .i32⟩ : BufTy).Contents (Elt F)),
    StableHlo.unary main_v14 main_v16 (broadcastInDim S2x1023x19x7 ![0, 1, 2, 3] bcast_S1x1x19x7_S2x1023x19x7_0_1_2_3 : (⟨S1x1x19x7, .i32⟩ : BufTy).Contents (Elt F) → (⟨S2x1023x19x7, .i32⟩ : BufTy).Contents (Elt F)),
    StableHlo.binary main_v15 main_v16 main_v17 (cmpi .eq : (⟨S2x1023x19x7, .i32⟩ : BufTy).Contents (Elt F) → (⟨S2x1023x19x7, .i32⟩ : BufTy).Contents (Elt F) → (⟨S2x1023x19x7, .i1⟩ : BufTy).Contents (Elt F)),
    StableHlo.nullary main_c_2 (constantI S_ 1 0#1),
    StableHlo.binary main_v17 main_c_2 main_v18 ((fun x v => Host.reduce IntOp.ori x v reducesTo_S2x1023x19x7_S2x1023x19_d3 h_S_) : (⟨S2x1023x19x7, .i1⟩ : BufTy).Contents (Elt F) → (⟨S_, .i1⟩ : BufTy).Contents (Elt F) → (⟨S2x1023x19, .i1⟩ : BufTy).Contents (Elt F)),
    StableHlo.unary main_v18 main_v19 (noti : (⟨S2x1023x19, .i1⟩ : BufTy).Contents (Elt F) → (⟨S2x1023x19, .i1⟩ : BufTy).Contents (Elt F)),
    StableHlo.binary main_v12 main_v19 main_v20 (andi : (⟨S2x1023x19, .i1⟩ : BufTy).Contents (Elt F) → (⟨S2x1023x19, .i1⟩ : BufTy).Contents (Elt F) → (⟨S2x1023x19, .i1⟩ : BufTy).Contents (Elt F)),
    StableHlo.nullary main_c_3 (constantI S_ 1 0#1),
    StableHlo.binary main_v20 main_c_3 main_v21 ((fun x v => Host.reduce IntOp.ori x v reducesTo_S2x1023x19_S2x1023_d2 h_S_) : (⟨S2x1023x19, .i1⟩ : BufTy).Contents (Elt F) → (⟨S_, .i1⟩ : BufTy).Contents (Elt F) → (⟨S2x1023, .i1⟩ : BufTy).Contents (Elt F)),
    StableHlo.nullary main_c_4 (constantI S_ 32 1009#32),
    StableHlo.unary main_c_4 main_v22 (broadcastInDim S2x1023 ![] bcast_S_S2x1023 : (⟨S_, .i32⟩ : BufTy).Contents (Elt F) → (⟨S2x1023, .i32⟩ : BufTy).Contents (Elt F)),
    StableHlo.binary main_v6 main_v22 main_v23 (cmpi .eq : (⟨S2x1023, .i32⟩ : BufTy).Contents (Elt F) → (⟨S2x1023, .i32⟩ : BufTy).Contents (Elt F) → (⟨S2x1023, .i1⟩ : BufTy).Contents (Elt F)),
    StableHlo.nullary main_c_5 (constantI S_ 32 1010#32),
    StableHlo.unary main_c_5 main_v24 (broadcastInDim S2x1023 ![] bcast_S_S2x1023 : (⟨S_, .i32⟩ : BufTy).Contents (Elt F) → (⟨S2x1023, .i32⟩ : BufTy).Contents (Elt F)),
    StableHlo.binary main_v6 main_v24 main_v25 (cmpi .eq : (⟨S2x1023, .i32⟩ : BufTy).Contents (Elt F) → (⟨S2x1023, .i32⟩ : BufTy).Contents (Elt F) → (⟨S2x1023, .i1⟩ : BufTy).Contents (Elt F)),
    StableHlo.binary main_v23 main_v25 main_v26 (ori : (⟨S2x1023, .i1⟩ : BufTy).Contents (Elt F) → (⟨S2x1023, .i1⟩ : BufTy).Contents (Elt F) → (⟨S2x1023, .i1⟩ : BufTy).Contents (Elt F)),
    StableHlo.nullary main_c_6 (constantI S_ 32 1011#32),
    StableHlo.unary main_c_6 main_v27 (broadcastInDim S2x1023 ![] bcast_S_S2x1023 : (⟨S_, .i32⟩ : BufTy).Contents (Elt F) → (⟨S2x1023, .i32⟩ : BufTy).Contents (Elt F)),
    StableHlo.binary main_v6 main_v27 main_v28 (cmpi .eq : (⟨S2x1023, .i32⟩ : BufTy).Contents (Elt F) → (⟨S2x1023, .i32⟩ : BufTy).Contents (Elt F) → (⟨S2x1023, .i1⟩ : BufTy).Contents (Elt F)),
    StableHlo.binary main_v26 main_v28 main_v29 (ori : (⟨S2x1023, .i1⟩ : BufTy).Contents (Elt F) → (⟨S2x1023, .i1⟩ : BufTy).Contents (Elt F) → (⟨S2x1023, .i1⟩ : BufTy).Contents (Elt F)),
    StableHlo.nullary main_c_7 (constantI S_ 32 14#32),
    StableHlo.unary main_c_7 main_v30 (broadcastInDim S2x1023 ![] bcast_S_S2x1023 : (⟨S_, .i32⟩ : BufTy).Contents (Elt F) → (⟨S2x1023, .i32⟩ : BufTy).Contents (Elt F)),
    StableHlo.binary main_v7 main_v30 main_v31 (cmpi .ne : (⟨S2x1023, .i32⟩ : BufTy).Contents (Elt F) → (⟨S2x1023, .i32⟩ : BufTy).Contents (Elt F) → (⟨S2x1023, .i1⟩ : BufTy).Contents (Elt F)),
    StableHlo.binary main_v29 main_v31 main_v32 (andi : (⟨S2x1023, .i1⟩ : BufTy).Contents (Elt F) → (⟨S2x1023, .i1⟩ : BufTy).Contents (Elt F) → (⟨S2x1023, .i1⟩ : BufTy).Contents (Elt F)),
    StableHlo.nullary main_c_8 (constantI S_ 32 10#32),
    StableHlo.unary main_c_8 main_v33 (broadcastInDim S2x1023 ![] bcast_S_S2x1023 : (⟨S_, .i32⟩ : BufTy).Contents (Elt F) → (⟨S2x1023, .i32⟩ : BufTy).Contents (Elt F)),
    StableHlo.binary main_v6 main_v33 main_v34 (cmpi .eq : (⟨S2x1023, .i32⟩ : BufTy).Contents (Elt F) → (⟨S2x1023, .i32⟩ : BufTy).Contents (Elt F) → (⟨S2x1023, .i1⟩ : BufTy).Contents (Elt F)),
    StableHlo.nullary main_c_9 (constantI S_ 32 11#32),
    StableHlo.unary main_c_9 main_v35 (broadcastInDim S2x1024 ![] bcast_S_S2x1024 : (⟨S_, .i32⟩ : BufTy).Contents (Elt F) → (⟨S2x1024, .i32⟩ : BufTy).Contents (Elt F)),
    StableHlo.binary main_arg1 main_v35 main_v36 (cmpi .eq : (⟨S2x1024, .i32⟩ : BufTy).Contents (Elt F) → (⟨S2x1024, .i32⟩ : BufTy).Contents (Elt F) → (⟨S2x1024, .i1⟩ : BufTy).Contents (Elt F)),
    StableHlo.unary main_v36 main_v37 ((extui 32 · natLt_1_32) : (⟨S2x1024, .i1⟩ : BufTy).Contents (Elt F) → (⟨S2x1024, .i32⟩ : BufTy).Contents (Elt F)),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v37 : StableHlo.TRef sig ⟨S2x1024, .i32⟩) (.of main_call2_call0_v0 : StableHlo.TRef sig ⟨S_, .i32⟩) (.of main_v38 : StableHlo.TRef sig ⟨S2x1024, .i32⟩) (fun x v => Host.reduceWindow IntOp.addi ![1, 1024] ![1, 1] ![0, 1023] ![0, 0] x v reduceWindows_S2x1024_S2x1024_w1s1p0_0_w1024s1p1023_0 h_S_),
    StableHlo.nullary main_v39 (iotaInDim S1023 32 0),
    StableHlo.nullary main_c_10 (constantI S_ 32 19#32),
    StableHlo.unary main_c_10 main_v40 (broadcastInDim S1023 ![] bcast_S_S1023 : (⟨S_, .i32⟩ : BufTy).Contents (Elt F) → (⟨S1023, .i32⟩ : BufTy).Contents (Elt F)),
    StableHlo.binary main_v39 main_v40 main_v41 (addi : (⟨S1023, .i32⟩ : BufTy).Contents (Elt F) → (⟨S1023, .i32⟩ : BufTy).Contents (Elt F) → (⟨S1023, .i32⟩ : BufTy).Contents (Elt F)),
    StableHlo.nullary main_c_11 (constantI S_ 32 1023#32),
    StableHlo.unary main_c_11 main_v42 (broadcastInDim S1023 ![] bcast_S_S1023 : (⟨S_, .i32⟩ : BufTy).Contents (Elt F) → (⟨S1023, .i32⟩ : BufTy).Contents (Elt F)),
    StableHlo.binary main_v41 main_v42 main_v43 (minsi : (⟨S1023, .i32⟩ : BufTy).Contents (Elt F) → (⟨S1023, .i32⟩ : BufTy).Contents (Elt F) → (⟨S1023, .i32⟩ : BufTy).Contents (Elt F)),
    StableHlo.nullary main_c_12 (constantI S_ 32 0#32),
    StableHlo.unary main_c_12 main_v44 (broadcastInDim S1023 ![] bcast_S_S1023 : (⟨S_, .i32⟩ : BufTy).Contents (Elt F) → (⟨S1023, .i32⟩ : BufTy).Contents (Elt F)) ]
theorem pen0_sub : (pen0 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub ..⟩
theorem pen0_fresh : (pen0 : List (HloOp τ sig (Elt F))).Forall fun op => op.fresh = ∅ := by
  simp only [List.Forall]; repeat' constructor

/-- The penalty's next 31 operations (the second window's first half). -/
abbrev pen1a : List (HloOp τ sig (Elt F)) :=
  [ StableHlo.binary main_v43 main_v44 main_v45 (cmpi .slt : (⟨S1023, .i32⟩ : BufTy).Contents (Elt F) → (⟨S1023, .i32⟩ : BufTy).Contents (Elt F) → (⟨S1023, .i1⟩ : BufTy).Contents (Elt F)),
    StableHlo.nullary main_c_13 (constantI S_ 32 1024#32),
    StableHlo.unary main_c_13 main_v46 (broadcastInDim S1023 ![] bcast_S_S1023 : (⟨S_, .i32⟩ : BufTy).Contents (Elt F) → (⟨S1023, .i32⟩ : BufTy).Contents (Elt F)),
    StableHlo.binary main_v43 main_v46 main_v47 (addi : (⟨S1023, .i32⟩ : BufTy).Contents (Elt F) → (⟨S1023, .i32⟩ : BufTy).Contents (Elt F) → (⟨S1023, .i32⟩ : BufTy).Contents (Elt F)),
    StableHlo.ternary main_v45 main_v47 main_v43 main_v48 (select : (⟨S1023, .i1⟩ : BufTy).Contents (Elt F) → (⟨S1023, .i32⟩ : BufTy).Contents (Elt F) → (⟨S1023, .i32⟩ : BufTy).Contents (Elt F) → (⟨S1023, .i32⟩ : BufTy).Contents (Elt F)),
    StableHlo.unary main_v48 main_v49 (broadcastInDim S1023x1 ![0] bcast_S1023_S1023x1_0 : (⟨S1023, .i32⟩ : BufTy).Contents (Elt F) → (⟨S1023x1, .i32⟩ : BufTy).Contents (Elt F)),
    StableHlo.binary main_v38 main_v49 main_v50 ((fun x i => Host.gather gather_S2x1024_S1023x1_S2x1023_0_1_n_n_1_1_21 x i) : (⟨S2x1024, .i32⟩ : BufTy).Contents (Elt F) → (⟨S1023x1, .i32⟩ : BufTy).Contents (Elt F) → (⟨S2x1023, .i32⟩ : BufTy).Contents (Elt F)),
    StableHlo.unary main_v38 main_v51 ((extractStridedSlice S2x1023 ![0, 0] · slices_S2x1024_S2x1023_0_0) : (⟨S2x1024, .i32⟩ : BufTy).Contents (Elt F) → (⟨S2x1023, .i32⟩ : BufTy).Contents (Elt F)),
    StableHlo.binary main_v50 main_v51 main_v52 (subi : (⟨S2x1023, .i32⟩ : BufTy).Contents (Elt F) → (⟨S2x1023, .i32⟩ : BufTy).Contents (Elt F) → (⟨S2x1023, .i32⟩ : BufTy).Contents (Elt F)),
    StableHlo.nullary main_c_14 (constantI S_ 32 0#32),
    StableHlo.unary main_c_14 main_v53 (broadcastInDim S2x1023 ![] bcast_S_S2x1023 : (⟨S_, .i32⟩ : BufTy).Contents (Elt F) → (⟨S2x1023, .i32⟩ : BufTy).Contents (Elt F)),
    StableHlo.binary main_v52 main_v53 main_v54 (cmpi .sgt : (⟨S2x1023, .i32⟩ : BufTy).Contents (Elt F) → (⟨S2x1023, .i32⟩ : BufTy).Contents (Elt F) → (⟨S2x1023, .i1⟩ : BufTy).Contents (Elt F)),
    StableHlo.unary main_v54 main_v55 (noti : (⟨S2x1023, .i1⟩ : BufTy).Contents (Elt F) → (⟨S2x1023, .i1⟩ : BufTy).Contents (Elt F)),
    StableHlo.binary main_v34 main_v55 main_v56 (andi : (⟨S2x1023, .i1⟩ : BufTy).Contents (Elt F) → (⟨S2x1023, .i1⟩ : BufTy).Contents (Elt F) → (⟨S2x1023, .i1⟩ : BufTy).Contents (Elt F)),
    StableHlo.nullary main_c_15 (constantI S_ 32 12#32),
    StableHlo.unary main_c_15 main_v57 (broadcastInDim S2x1023 ![] bcast_S_S2x1023 : (⟨S_, .i32⟩ : BufTy).Contents (Elt F) → (⟨S2x1023, .i32⟩ : BufTy).Contents (Elt F)),
    StableHlo.binary main_v6 main_v57 main_v58 (cmpi .eq : (⟨S2x1023, .i32⟩ : BufTy).Contents (Elt F) → (⟨S2x1023, .i32⟩ : BufTy).Contents (Elt F) → (⟨S2x1023, .i1⟩ : BufTy).Contents (Elt F)),
    StableHlo.nullary main_c_16 (constantI S_ 32 13#32),
    StableHlo.unary main_c_16 main_v59 (broadcastInDim S2x1024 ![] bcast_S_S2x1024 : (⟨S_, .i32⟩ : BufTy).Contents (Elt F) → (⟨S2x1024, .i32⟩ : BufTy).Contents (Elt F)),
    StableHlo.binary main_arg1 main_v59 main_v60 (cmpi .eq : (⟨S2x1024, .i32⟩ : BufTy).Contents (Elt F) → (⟨S2x1024, .i32⟩ : BufTy).Contents (Elt F) → (⟨S2x1024, .i1⟩ : BufTy).Contents (Elt F)),
    StableHlo.unary main_v60 main_v61 ((extui 32 · natLt_1_32) : (⟨S2x1024, .i1⟩ : BufTy).Contents (Elt F) → (⟨S2x1024, .i32⟩ : BufTy).Contents (Elt F)),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v61 : StableHlo.TRef sig ⟨S2x1024, .i32⟩) (.of main_call3_call0_v0 : StableHlo.TRef sig ⟨S_, .i32⟩) (.of main_v62 : StableHlo.TRef sig ⟨S2x1024, .i32⟩) (fun x v => Host.reduceWindow IntOp.addi ![1, 1024] ![1, 1] ![0, 1023] ![0, 0] x v reduceWindows_S2x1024_S2x1024_w1s1p0_0_w1024s1p1023_0 h_S_),
    StableHlo.nullary main_v63 (iotaInDim S1023 32 0),
    StableHlo.nullary main_c_17 (constantI S_ 32 49#32),
    StableHlo.unary main_c_17 main_v64 (broadcastInDim S1023 ![] bcast_S_S1023 : (⟨S_, .i32⟩ : BufTy).Contents (Elt F) → (⟨S1023, .i32⟩ : BufTy).Contents (Elt F)),
    StableHlo.binary main_v63 main_v64 main_v65 (addi : (⟨S1023, .i32⟩ : BufTy).Contents (Elt F) → (⟨S1023, .i32⟩ : BufTy).Contents (Elt F) → (⟨S1023, .i32⟩ : BufTy).Contents (Elt F)),
    StableHlo.nullary main_c_18 (constantI S_ 32 1023#32),
    StableHlo.unary main_c_18 main_v66 (broadcastInDim S1023 ![] bcast_S_S1023 : (⟨S_, .i32⟩ : BufTy).Contents (Elt F) → (⟨S1023, .i32⟩ : BufTy).Contents (Elt F)),
    StableHlo.binary main_v65 main_v66 main_v67 (minsi : (⟨S1023, .i32⟩ : BufTy).Contents (Elt F) → (⟨S1023, .i32⟩ : BufTy).Contents (Elt F) → (⟨S1023, .i32⟩ : BufTy).Contents (Elt F)) ]
theorem pen1a_sub : (pen1a : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., nullary_bufs_sub .., unary_bufs_sub .., binary_bufs_sub .., nullary_bufs_sub .., unary_bufs_sub .., binary_bufs_sub ..⟩
theorem pen1a_fresh : (pen1a : List (HloOp τ sig (Elt F))).Forall fun op => op.fresh = ∅ := by
  simp only [List.Forall]; repeat' constructor

/-- The penalty's next 31 operations (the second window's second half). -/
abbrev pen1b : List (HloOp τ sig (Elt F)) :=
  [ StableHlo.nullary main_c_19 (constantI S_ 32 0#32),
    StableHlo.unary main_c_19 main_v68 (broadcastInDim S1023 ![] bcast_S_S1023 : (⟨S_, .i32⟩ : BufTy).Contents (Elt F) → (⟨S1023, .i32⟩ : BufTy).Contents (Elt F)),
    StableHlo.binary main_v67 main_v68 main_v69 (cmpi .slt : (⟨S1023, .i32⟩ : BufTy).Contents (Elt F) → (⟨S1023, .i32⟩ : BufTy).Contents (Elt F) → (⟨S1023, .i1⟩ : BufTy).Contents (Elt F)),
    StableHlo.nullary main_c_20 (constantI S_ 32 1024#32),
    StableHlo.unary main_c_20 main_v70 (broadcastInDim S1023 ![] bcast_S_S1023 : (⟨S_, .i32⟩ : BufTy).Contents (Elt F) → (⟨S1023, .i32⟩ : BufTy).Contents (Elt F)),
    StableHlo.binary main_v67 main_v70 main_v71 (addi : (⟨S1023, .i32⟩ : BufTy).Contents (Elt F) → (⟨S1023, .i32⟩ : BufTy).Contents (Elt F) → (⟨S1023, .i32⟩ : BufTy).Contents (Elt F)),
    StableHlo.ternary main_v69 main_v71 main_v67 main_v72 (select : (⟨S1023, .i1⟩ : BufTy).Contents (Elt F) → (⟨S1023, .i32⟩ : BufTy).Contents (Elt F) → (⟨S1023, .i32⟩ : BufTy).Contents (Elt F) → (⟨S1023, .i32⟩ : BufTy).Contents (Elt F)),
    StableHlo.unary main_v72 main_v73 (broadcastInDim S1023x1 ![0] bcast_S1023_S1023x1_0 : (⟨S1023, .i32⟩ : BufTy).Contents (Elt F) → (⟨S1023x1, .i32⟩ : BufTy).Contents (Elt F)),
    StableHlo.binary main_v62 main_v73 main_v74 ((fun x i => Host.gather gather_S2x1024_S1023x1_S2x1023_0_1_n_n_1_1_21 x i) : (⟨S2x1024, .i32⟩ : BufTy).Contents (Elt F) → (⟨S1023x1, .i32⟩ : BufTy).Contents (Elt F) → (⟨S2x1023, .i32⟩ : BufTy).Contents (Elt F)),
    StableHlo.unary main_v62 main_v75 ((extractStridedSlice S2x1023 ![0, 0] · slices_S2x1024_S2x1023_0_0) : (⟨S2x1024, .i32⟩ : BufTy).Contents (Elt F) → (⟨S2x1023, .i32⟩ : BufTy).Contents (Elt F)),
    StableHlo.binary main_v74 main_v75 main_v76 (subi : (⟨S2x1023, .i32⟩ : BufTy).Contents (Elt F) → (⟨S2x1023, .i32⟩ : BufTy).Contents (Elt F) → (⟨S2x1023, .i32⟩ : BufTy).Contents (Elt F)),
    StableHlo.nullary main_c_21 (constantI S_ 32 0#32),
    StableHlo.unary main_c_21 main_v77 (broadcastInDim S2x1023 ![] bcast_S_S2x1023 : (⟨S_, .i32⟩ : BufTy).Contents (Elt F) → (⟨S2x1023, .i32⟩ : BufTy).Contents (Elt F)),
    StableHlo.binary main_v76 main_v77 main_v78 (cmpi .sgt : (⟨S2x1023, .i32⟩ : BufTy).Contents (Elt F) → (⟨S2x1023, .i32⟩ : BufTy).Contents (Elt F) → (⟨S2x1023, .i1⟩ : BufTy).Contents (Elt F)),
    StableHlo.unary main_v78 main_v79 (noti : (⟨S2x1023, .i1⟩ : BufTy).Contents (Elt F) → (⟨S2x1023, .i1⟩ : BufTy).Contents (Elt F)),
    StableHlo.binary main_v58 main_v79 main_v80 (andi : (⟨S2x1023, .i1⟩ : BufTy).Contents (Elt F) → (⟨S2x1023, .i1⟩ : BufTy).Contents (Elt F) → (⟨S2x1023, .i1⟩ : BufTy).Contents (Elt F)),
    StableHlo.unary main_v21 main_v81 ((extui 32 · natLt_1_32) : (⟨S2x1023, .i1⟩ : BufTy).Contents (Elt F) → (⟨S2x1023, .i32⟩ : BufTy).Contents (Elt F)),
    StableHlo.nullary main_c_22 (constantI S_ 32 0#32),
    StableHlo.binary main_v81 main_c_22 main_v82 ((fun x v => Host.reduce IntOp.addi x v reducesTo_S2x1023_S_d0_1 h_S_) : (⟨S2x1023, .i32⟩ : BufTy).Contents (Elt F) → (⟨S_, .i32⟩ : BufTy).Contents (Elt F) → (⟨S_, .i32⟩ : BufTy).Contents (Elt F)),
    StableHlo.unary main_v82 main_v83 (sitofp .f32 : (⟨S_, .i32⟩ : BufTy).Contents (Elt F) → (⟨S_, .f32⟩ : BufTy).Contents (Elt F)),
    StableHlo.unary main_v32 main_v84 ((extui 32 · natLt_1_32) : (⟨S2x1023, .i1⟩ : BufTy).Contents (Elt F) → (⟨S2x1023, .i32⟩ : BufTy).Contents (Elt F)),
    StableHlo.nullary main_c_23 (constantI S_ 32 0#32),
    StableHlo.binary main_v84 main_c_23 main_v85 ((fun x v => Host.reduce IntOp.addi x v reducesTo_S2x1023_S_d0_1 h_S_) : (⟨S2x1023, .i32⟩ : BufTy).Contents (Elt F) → (⟨S_, .i32⟩ : BufTy).Contents (Elt F) → (⟨S_, .i32⟩ : BufTy).Contents (Elt F)),
    StableHlo.unary main_v85 main_v86 (sitofp .f32 : (⟨S_, .i32⟩ : BufTy).Contents (Elt F) → (⟨S_, .f32⟩ : BufTy).Contents (Elt F)),
    StableHlo.unary main_v56 main_v87 ((extui 32 · natLt_1_32) : (⟨S2x1023, .i1⟩ : BufTy).Contents (Elt F) → (⟨S2x1023, .i32⟩ : BufTy).Contents (Elt F)),
    StableHlo.nullary main_c_24 (constantI S_ 32 0#32),
    StableHlo.binary main_v87 main_c_24 main_v88 ((fun x v => Host.reduce IntOp.addi x v reducesTo_S2x1023_S_d0_1 h_S_) : (⟨S2x1023, .i32⟩ : BufTy).Contents (Elt F) → (⟨S_, .i32⟩ : BufTy).Contents (Elt F) → (⟨S_, .i32⟩ : BufTy).Contents (Elt F)),
    StableHlo.unary main_v88 main_v89 (sitofp .f32 : (⟨S_, .i32⟩ : BufTy).Contents (Elt F) → (⟨S_, .f32⟩ : BufTy).Contents (Elt F)),
    StableHlo.unary main_v80 main_v90 ((extui 32 · natLt_1_32) : (⟨S2x1023, .i1⟩ : BufTy).Contents (Elt F) → (⟨S2x1023, .i32⟩ : BufTy).Contents (Elt F)),
    StableHlo.nullary main_c_25 (constantI S_ 32 0#32),
    StableHlo.binary main_v90 main_c_25 main_v91 ((fun x v => Host.reduce IntOp.addi x v reducesTo_S2x1023_S_d0_1 h_S_) : (⟨S2x1023, .i32⟩ : BufTy).Contents (Elt F) → (⟨S_, .i32⟩ : BufTy).Contents (Elt F) → (⟨S_, .i32⟩ : BufTy).Contents (Elt F)) ]
theorem pen1b_sub : (pen1b : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., unary_bufs_sub .., binary_bufs_sub .., unary_bufs_sub .., nullary_bufs_sub .., binary_bufs_sub .., unary_bufs_sub .., unary_bufs_sub .., nullary_bufs_sub .., binary_bufs_sub .., unary_bufs_sub .., unary_bufs_sub .., nullary_bufs_sub .., binary_bufs_sub .., unary_bufs_sub .., unary_bufs_sub .., nullary_bufs_sub .., binary_bufs_sub ..⟩
theorem pen1b_fresh : (pen1b : List (HloOp τ sig (Elt F))).Forall fun op => op.fresh = ∅ := by
  simp only [List.Forall]; repeat' constructor

/-- The last 26 operations: the weighted counts, the guarded quotient, the scaling and the final sum. -/
abbrev pen2 : List (HloOp τ sig (Elt F)) :=
  [ StableHlo.unary main_v91 main_v92 (sitofp .f32 : (⟨S_, .i32⟩ : BufTy).Contents (Elt F) → (⟨S_, .f32⟩ : BufTy).Contents (Elt F)),
    StableHlo.nullary main_cst_26 (constant S_ .f32 0x40000000#32),
    StableHlo.binary main_cst_26 main_v83 main_v93 (mulf : (⟨S_, .f32⟩ : BufTy).Contents (Elt F) → (⟨S_, .f32⟩ : BufTy).Contents (Elt F) → (⟨S_, .f32⟩ : BufTy).Contents (Elt F)),
    StableHlo.nullary main_cst_27 (constant S_ .f32 0x3FC00000#32),
    StableHlo.binary main_cst_27 main_v86 main_v94 (mulf : (⟨S_, .f32⟩ : BufTy).Contents (Elt F) → (⟨S_, .f32⟩ : BufTy).Contents (Elt F) → (⟨S_, .f32⟩ : BufTy).Contents (Elt F)),
    StableHlo.binary main_v93 main_v94 main_v95 (addf : (⟨S_, .f32⟩ : BufTy).Contents (Elt F) → (⟨S_, .f32⟩ : BufTy).Contents (Elt F) → (⟨S_, .f32⟩ : BufTy).Contents (Elt F)),
    StableHlo.nullary main_cst_28 (constant S_ .f32 0x3F800000#32),
    StableHlo.binary main_cst_28 main_v89 main_v96 (mulf : (⟨S_, .f32⟩ : BufTy).Contents (Elt F) → (⟨S_, .f32⟩ : BufTy).Contents (Elt F) → (⟨S_, .f32⟩ : BufTy).Contents (Elt F)),
    StableHlo.binary main_v95 main_v96 main_v97 (addf : (⟨S_, .f32⟩ : BufTy).Contents (Elt F) → (⟨S_, .f32⟩ : BufTy).Contents (Elt F) → (⟨S_, .f32⟩ : BufTy).Contents (Elt F)),
    StableHlo.nullary main_cst_29 (constant S_ .f32 0x3F800000#32),
    StableHlo.binary main_cst_29 main_v92 main_v98 (mulf : (⟨S_, .f32⟩ : BufTy).Contents (Elt F) → (⟨S_, .f32⟩ : BufTy).Contents (Elt F) → (⟨S_, .f32⟩ : BufTy).Contents (Elt F)),
    StableHlo.binary main_v97 main_v98 main_v99 (addf : (⟨S_, .f32⟩ : BufTy).Contents (Elt F) → (⟨S_, .f32⟩ : BufTy).Contents (Elt F) → (⟨S_, .f32⟩ : BufTy).Contents (Elt F)),
    StableHlo.binary main_v83 main_v86 main_v100 (addf : (⟨S_, .f32⟩ : BufTy).Contents (Elt F) → (⟨S_, .f32⟩ : BufTy).Contents (Elt F) → (⟨S_, .f32⟩ : BufTy).Contents (Elt F)),
    StableHlo.binary main_v100 main_v89 main_v101 (addf : (⟨S_, .f32⟩ : BufTy).Contents (Elt F) → (⟨S_, .f32⟩ : BufTy).Contents (Elt F) → (⟨S_, .f32⟩ : BufTy).Contents (Elt F)),
    StableHlo.binary main_v101 main_v92 main_v102 (addf : (⟨S_, .f32⟩ : BufTy).Contents (Elt F) → (⟨S_, .f32⟩ : BufTy).Contents (Elt F) → (⟨S_, .f32⟩ : BufTy).Contents (Elt F)),
    StableHlo.nullary main_cst_30 (constant S_ .f32 0x00000000#32),
    StableHlo.binary main_v102 main_cst_30 main_v103 (cmpf .ogt : (⟨S_, .f32⟩ : BufTy).Contents (Elt F) → (⟨S_, .f32⟩ : BufTy).Contents (Elt F) → (⟨S_, .i1⟩ : BufTy).Contents (Elt F)),
    StableHlo.nullary main_cst_31 (constant S_ .f32 0x3F800000#32),
    StableHlo.binary main_v102 main_cst_31 main_v104 (maximumf : (⟨S_, .f32⟩ : BufTy).Contents (Elt F) → (⟨S_, .f32⟩ : BufTy).Contents (Elt F) → (⟨S_, .f32⟩ : BufTy).Contents (Elt F)),
    StableHlo.binary main_v99 main_v104 main_v105 (Host.divf : (⟨S_, .f32⟩ : BufTy).Contents (Elt F) → (⟨S_, .f32⟩ : BufTy).Contents (Elt F) → (⟨S_, .f32⟩ : BufTy).Contents (Elt F)),
    StableHlo.nullary main_cst_32 (constant S_ .f32 0x00000000#32),
    StableHlo.TRef.unary (.of main_cst_32 : StableHlo.TRef sig ⟨S_, .f32⟩) (.of main_call4_v0 : StableHlo.TRef sig ⟨S_, .f32⟩) id,
    StableHlo.TRef.ternary (.of main_v103 : StableHlo.TRef sig ⟨S_, .i1⟩) (.of main_v105 : StableHlo.TRef sig ⟨S_, .f32⟩) (.of main_call4_v0 : StableHlo.TRef sig ⟨S_, .f32⟩) (.of main_v106 : StableHlo.TRef sig ⟨S_, .f32⟩) select,
    StableHlo.nullary main_cst_33 (constant S_ .f32 0x3DCCCCCD#32),
    StableHlo.binary main_cst_33 main_v106 main_v107 (mulf : (⟨S_, .f32⟩ : BufTy).Contents (Elt F) → (⟨S_, .f32⟩ : BufTy).Contents (Elt F) → (⟨S_, .f32⟩ : BufTy).Contents (Elt F)),
    StableHlo.binary main_v5 main_v107 main_v108 (addf : (⟨S_, .f32⟩ : BufTy).Contents (Elt F) → (⟨S_, .f32⟩ : BufTy).Contents (Elt F) → (⟨S_, .f32⟩ : BufTy).Contents (Elt F)) ]
theorem pen2_sub : (pen2 : List (HloOp τ sig (Elt F))).Forall fun op => op.bufs ⊆ tcRefs τ sig :=
  ⟨unary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub .., binary_bufs_sub .., binary_bufs_sub .., binary_bufs_sub .., nullary_bufs_sub .., binary_bufs_sub .., nullary_bufs_sub .., binary_bufs_sub .., binary_bufs_sub .., nullary_bufs_sub .., unary_bufs_sub .., ternary_bufs_sub .., nullary_bufs_sub .., binary_bufs_sub .., binary_bufs_sub ..⟩
theorem pen2_fresh : (pen2 : List (HloOp τ sig (Elt F))).Forall fun op => op.fresh = ∅ := by
  simp only [List.Forall]; repeat' constructor

/-- Everything after the negated mean, through the final sum. -/
abbrev opsPen : List (HloOp τ sig (Elt F)) := pen0 ++ ((pen1a ++ pen1b) ++ pen2)
/-- @main's operations, in order. -/
abbrev ops : List (HloOp τ sig (Elt F)) := opsCe ++ opsPen

/-- The first window is its operations in order (its last statement is in tail position: running the list's closing
    return after it changes nothing). -/
theorem part0_eq (c : Dev nD) : main_part0 (F := F) c
    = (seq (opsCe ++ pen0) : Prog (TpuEff nD τ sig (Elt F) (Pipeline.Sig Λ₀ (Fin 0) fun p => (pcfgs (F := F) p).Adm) .tc) PUnit) := by
  chain_rfl
theorem part1_eq (c : Dev nD) : main_part1 (F := F) c
    = (seq (pen1a ++ pen1b) : Prog (TpuEff nD τ sig (Elt F) (Pipeline.Sig Λ₀ (Fin 0) fun p => (pcfgs (F := F) p).Adm) .tc) PUnit) := by
  chain_rfl
theorem part2_eq (c : Dev nD) : main_part2 (F := F) c
    = (seq pen2 : Prog (TpuEff nD τ sig (Elt F) (Pipeline.Sig Λ₀ (Fin 0) fun p => (pcfgs (F := F) p).Adm) .tc) PUnit) := by
  chain_rfl

/-- @main is that straight line: its three windows one after the other are the concatenation run as one. -/
theorem main_eq (c : Dev nD) : main (F := F) c = StableHlo.seq ops := by
  show (main_part0 (F := F) c >>= fun _ => main_part1 (F := F) c >>= fun _ => main_part2 (F := F) c) = _
  rw [part0_eq, part1_eq, part2_eq, ← seq_append, ← seq_append, List.append_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨opsCe_sub, List.forall_append.2 ⟨pen0_sub, List.forall_append.2
    ⟨List.forall_append.2 ⟨pen1a_sub, pen1b_sub⟩, pen2_sub⟩⟩⟩
theorem ops_fresh : (ops : List (HloOp τ sig (Elt F))).Forall fun op => op.fresh = ∅ :=
  List.forall_append.2 ⟨opsCe_fresh, List.forall_append.2 ⟨pen0_fresh, List.forall_append.2
    ⟨List.forall_append.2 ⟨pen1a_fresh, pen1b_fresh⟩, pen2_fresh⟩⟩⟩

/-- On every device, for any float values, from any memory with zero counters: every weakly fair execution of @main
    terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ
    (fun _ => List.forall_iff_forall_mem.1 ops_fresh)

end Cert.ReferenceIdeal.Hand

end
-- ==== Proof.RefCe.lean ====
/-
  What the reference's cross-entropy value is, read over the extended reals. The reference takes the row maximum
  M (a fold of max from −∞, then one more max against −∞), the shifted logits x − M, the logarithm L of the sum of their
  exponentials, the log-probabilities (x − M) − L, reads the one at each row's target word, adds the 2048 readings,
  divides by 2048 and negates. For a target word inside the vocabulary the word is not negative as a signed number,
  so it is read as it stands, the range test holds, and the reading is (x[target] − M) − L.
-/
import proofs.«426039_j807453852038_3_alg».proof.Proof.Spec
import proofs.«426039_j807453852038_3_alg».proof.Proof.Gen.ReferenceIdeal
import proofs.«426039_j807453852038_3_alg».proof.Proof.RefRun
import Idealize.ShloMosaic.Lib.StableHlo.Run
import Idealize.ShloMosaic.Lib.StableHlo.Predicate
import Idealize.ShloMosaic.Lib.IdealHost
import Idealize.ShloMosaic.Lib.Pipeline.Value
import Idealize.ShloMosaic.Lib.ReduceAll
import Idealize.ShloMosaic.PureOps.Ideal.Laws

noncomputable section

open scoped BigOperators

namespace Cert.ReferenceIdeal.Hand

open Idealize.ShloMosaic Idealize.ShloMosaic.ValueIdx Idealize.SL.Sem
open Cert.ReferenceIdeal Cert.ReferenceIdeal.Facts₀

variable {F : FTy → Type} [FloatOps F]

/-! ## The composed value, at any float instance -/

/-- The row maxima: the reduce-max over the vocabulary from −∞, then the maximum with a −∞ broadcast. -/
def vMax (x : FVec F S2x1024x50257 .f32) : FVec F S2x1024 .f32 :=
  maximumf (broadcastInDim S2x1024 ![] bcast_S_S2x1024 (constant S_ .f32 0xFF800000#32))
    (Host.reduce FloatOps.maximumf x (constant S_ .f32 0xFF800000#32) reducesTo_S2x1024x50257_S2x1024_d2 h_S_)

/-- The shifted logits x − M. -/
def vShift (x : FVec F S2x1024x50257 .f32) : FVec F S2x1024x50257 .f32 :=
  subf x (broadcastInDim S2x1024x50257 ![0, 1, 2] bcast_S2x1024x1_S2x1024x50257_0_1_2
    (broadcastInDim S2x1024x1 ![0, 1] bcast_S2x1024_S2x1024x1_0_1 (vMax x)))

/-- The logarithm of each row's sum of exponentials, as a [2, 1024, 1] array. -/
def vLog (x : FVec F S2x1024x50257 .f32) : FVec F S2x1024x1 .f32 :=
  Host.log (broadcastInDim S2x1024x1 ![0, 1] bcast_S2x1024_S2x1024x1_0_1
    (Host.reduceAdd (Host.exp (vShift x)) (constant S_ .f32 0x00000000#32) reducesTo_S2x1024x50257_S2x1024_d2 h_S_))

/-- The log-probabilities. -/
def vLsm (x : FVec F S2x1024x50257 .f32) : FVec F S2x1024x50257 .f32 :=
  subf (vShift x) (broadcastInDim S2x1024x50257 ![0, 1, 2] bcast_S2x1024x1_S2x1024x50257_0_1_2 (vLog x))

/-- The targets as a [2, 1024, 1] array. -/
def vT1 (t : IVec S2x1024 32) : IVec S2x1024x1 32 := broadcastInDim S2x1024x1 ![0, 1] bcast_S2x1024_S2x1024x1_0_1 t

/-- The start indices: a negative word moved up by the vocabulary's size, as a [2, 1024, 1, 1] array. -/
def vIdx (t : IVec S2x1024 32) : IVec S2x1024x1x1 32 :=
  shapeCast S2x1024x1x1
    (select (cmpi .slt (vT1 t) (broadcastInDim S2x1024x1 ![] bcast_S_S2x1024x1 (constantI S_ 32 0#32)))
      (addi (vT1 t) (broadcastInDim S2x1024x1 ![] bcast_S_S2x1024x1 (constantI S_ 32 50257#32))) (vT1 t))
    shapeCasts_S2x1024x1_S2x1024x1x1

/-- The range test 0 ≤ index ≤ 50256, reduced by and over the index vector's axis. -/
def vOk (t : IVec S2x1024 32) : IVec S2x1024x1 1 :=
  Host.reduce IntOp.andi
    (andi (cmpi .sge (vIdx t) (broadcastInDim S2x1024x1x1 ![] bcast_S_S2x1024x1x1 (constantI S_ 32 0#32)))
      (cmpi .sle (vIdx t) (broadcastInDim S2x1024x1x1 ![0, 1, 2, 3] bcast_S1x1x1x1_S2x1024x1x1_0_1_2_3
        (broadcastInDim S1x1x1x1 ![3] bcast_S1_S1x1x1x1_3 (constantI S1 32 50256#32)))))
    (constantI S_ 1 1#1) reducesTo_S2x1024x1x1_S2x1024x1_d3 h_S_

/-- The per-row readings: the gathered log-probability where the range test holds, the fill value elsewhere. -/
def vTake (x : FVec F S2x1024x50257 .f32) (t : IVec S2x1024 32) : FVec F S2x1024x1 .f32 :=
  select (vOk t)
    (Host.gather gather_S2x1024x50257_S2x1024x1x1_S2x1024x1_n_2_01_01_2_3_111 (vLsm x) (vIdx t))
    (broadcastInDim S2x1024x1 ![] bcast_S_S2x1024x1 (constant S_ .f32 0x7FC00000#32))

/-- The cross-entropy: minus the readings' total over 2048. -/
def vCe (x : FVec F S2x1024x50257 .f32) (t : IVec S2x1024 32) : FVec F S_ .f32 :=
  Host.negf (Host.divf
    (Host.reduceAdd (vTake x t) (constant S_ .f32 0x00000000#32) reducesTo_S2x1024x1_S_d0_1_2 h_S_)
    (constant S_ .f32 0x45000000#32))

/-! ## The run, with every operation's function a variable

The buffer a straight line of operations leaves is the composition of the operations' functions, whatever the functions
are: stated here once with the 44 functions as variables; the reference's own operations are then one instance. -/

/-- A value carried to a buffer's own type and back is the value. -/
theorem cast_trans_self {A B : Type} (h1 : A = B) (h2 : B = A) (v : A) : cast (h1.trans h2) v = v := rfl

set_option maxHeartbeats 1000000 in
/-- The line's last buffer as the composition of the functions. -/
theorem after_generic
    (f0 : (⟨S19, .i32⟩ : BufTy).Contents (Elt F))
    (f1 : (⟨S19x7, .i32⟩ : BufTy).Contents (Elt F))
    (f2 : (⟨S_, .f32⟩ : BufTy).Contents (Elt F))
    (f3 : (⟨S2x1024x50257, .f32⟩ : BufTy).Contents (Elt F) → (⟨S_, .f32⟩ : BufTy).Contents (Elt F) → (⟨S2x1024, .f32⟩ : BufTy).Contents (Elt F))
    (f4 : (⟨S_, .f32⟩ : BufTy).Contents (Elt F))
    (f5 : (⟨S_, .f32⟩ : BufTy).Contents (Elt F) → (⟨S2x1024, .f32⟩ : BufTy).Contents (Elt F))
    (f6 : (⟨S2x1024, .f32⟩ : BufTy).Contents (Elt F) → (⟨S2x1024, .f32⟩ : BufTy).Contents (Elt F) → (⟨S2x1024, .f32⟩ : BufTy).Contents (Elt F))
    (f7 : (⟨S2x1024, .f32⟩ : BufTy).Contents (Elt F) → (⟨S2x1024x1, .f32⟩ : BufTy).Contents (Elt F))
    (f8 : (⟨S2x1024x1, .f32⟩ : BufTy).Contents (Elt F) → (⟨S2x1024x50257, .f32⟩ : BufTy).Contents (Elt F))
    (f9 : (⟨S2x1024x50257, .f32⟩ : BufTy).Contents (Elt F) → (⟨S2x1024x50257, .f32⟩ : BufTy).Contents (Elt F) → (⟨S2x1024x50257, .f32⟩ : BufTy).Contents (Elt F))
    (f10 : (⟨S2x1024x50257, .f32⟩ : BufTy).Contents (Elt F) → (⟨S2x1024x50257, .f32⟩ : BufTy).Contents (Elt F))
    (f11 : (⟨S_, .f32⟩ : BufTy).Contents (Elt F))
    (f12 : (⟨S2x1024x50257, .f32⟩ : BufTy).Contents (Elt F) → (⟨S_, .f32⟩ : BufTy).Contents (Elt F) → (⟨S2x1024, .f32⟩ : BufTy).Contents (Elt F))
    (f13 : (⟨S2x1024, .f32⟩ : BufTy).Contents (Elt F) → (⟨S2x1024x1, .f32⟩ : BufTy).Contents (Elt F))
    (f14 : (⟨S2x1024x1, .f32⟩ : BufTy).Contents (Elt F) → (⟨S2x1024x1, .f32⟩ : BufTy).Contents (Elt F))
    (f15 : (⟨S2x1024x1, .f32⟩ : BufTy).Contents (Elt F) → (⟨S2x1024x50257, .f32⟩ : BufTy).Contents (Elt F))
    (f16 : (⟨S2x1024x50257, .f32⟩ : BufTy).Contents (Elt F) → (⟨S2x1024x50257, .f32⟩ : BufTy).Contents (Elt F) → (⟨S2x1024x50257, .f32⟩ : BufTy).Contents (Elt F))
    (f17 : (⟨S2x1024, .i32⟩ : BufTy).Contents (Elt F) → (⟨S2x1024x1, .i32⟩ : BufTy).Contents (Elt F))
    (f18 : (⟨S_, .i32⟩ : BufTy).Contents (Elt F))
    (f19 : (⟨S_, .i32⟩ : BufTy).Contents (Elt F) → (⟨S2x1024x1, .i32⟩ : BufTy).Contents (Elt F))
    (f20 : (⟨S2x1024x1, .i32⟩ : BufTy).Contents (Elt F) → (⟨S2x1024x1, .i32⟩ : BufTy).Contents (Elt F) → (⟨S2x1024x1, .i1⟩ : BufTy).Contents (Elt F))
    (f21 : (⟨S_, .i32⟩ : BufTy).Contents (Elt F))
    (f22 : (⟨S_, .i32⟩ : BufTy).Contents (Elt F) → (⟨S2x1024x1, .i32⟩ : BufTy).Contents (Elt F))
    (f23 : (⟨S2x1024x1, .i32⟩ : BufTy).Contents (Elt F) → (⟨S2x1024x1, .i32⟩ : BufTy).Contents (Elt F) → (⟨S2x1024x1, .i32⟩ : BufTy).Contents (Elt F))
    (f24 : (⟨S2x1024x1, .i1⟩ : BufTy).Contents (Elt F) → (⟨S2x1024x1, .i32⟩ : BufTy).Contents (Elt F) → (⟨S2x1024x1, .i32⟩ : BufTy).Contents (Elt F) → (⟨S2x1024x1, .i32⟩ : BufTy).Contents (Elt F))
    (f26 : (⟨S1, .i32⟩ : BufTy).Contents (Elt F))
    (f27 : (⟨S_, .i32⟩ : BufTy).Contents (Elt F))
    (f28 : (⟨S_, .i32⟩ : BufTy).Contents (Elt F) → (⟨S2x1024x1x1, .i32⟩ : BufTy).Contents (Elt F))
    (f29 : (⟨S2x1024x1x1, .i32⟩ : BufTy).Contents (Elt F) → (⟨S2x1024x1x1, .i32⟩ : BufTy).Contents (Elt F) → (⟨S2x1024x1x1, .i1⟩ : BufTy).Contents (Elt F))
    (f30 : (⟨S1, .i32⟩ : BufTy).Contents (Elt F) → (⟨S1x1x1x1, .i32⟩ : BufTy).Contents (Elt F))
    (f31 : (⟨S1x1x1x1, .i32⟩ : BufTy).Contents (Elt F) → (⟨S2x1024x1x1, .i32⟩ : BufTy).Contents (Elt F))
    (f32 : (⟨S2x1024x1x1, .i32⟩ : BufTy).Contents (Elt F) → (⟨S2x1024x1x1, .i32⟩ : BufTy).Contents (Elt F) → (⟨S2x1024x1x1, .i1⟩ : BufTy).Contents (Elt F))
    (f33 : (⟨S2x1024x1x1, .i1⟩ : BufTy).Contents (Elt F) → (⟨S2x1024x1x1, .i1⟩ : BufTy).Contents (Elt F) → (⟨S2x1024x1x1, .i1⟩ : BufTy).Contents (Elt F))
    (f34 : (⟨S_, .i1⟩ : BufTy).Contents (Elt F))
    (f35 : (⟨S2x1024x1x1, .i1⟩ : BufTy).Contents (Elt F) → (⟨S_, .i1⟩ : BufTy).Contents (Elt F) → (⟨S2x1024x1, .i1⟩ : BufTy).Contents (Elt F))
    (f36 : (⟨S2x1024x50257, .f32⟩ : BufTy).Contents (Elt F) → (⟨S2x1024x1x1, .i32⟩ : BufTy).Contents (Elt F) → (⟨S2x1024x1, .f32⟩ : BufTy).Contents (Elt F))
    (f37 : (⟨S_, .f32⟩ : BufTy).Contents (Elt F))
    (f38 : (⟨S_, .f32⟩ : BufTy).Contents (Elt F) → (⟨S2x1024x1, .f32⟩ : BufTy).Contents (Elt F))
    (f39 : (⟨S2x1024x1, .i1⟩ : BufTy).Contents (Elt F) → (⟨S2x1024x1, .f32⟩ : BufTy).Contents (Elt F) → (⟨S2x1024x1, .f32⟩ : BufTy).Contents (Elt F) → (⟨S2x1024x1, .f32⟩ : BufTy).Contents (Elt F))
    (f40 : (⟨S_, .f32⟩ : BufTy).Contents (Elt F))
    (f41 : (⟨S2x1024x1, .f32⟩ : BufTy).Contents (Elt F) → (⟨S_, .f32⟩ : BufTy).Contents (Elt F) → (⟨S_, .f32⟩ : BufTy).Contents (Elt F))
    (f42 : (⟨S_, .f32⟩ : BufTy).Contents (Elt F))
    (f43 : (⟨S_, .f32⟩ : BufTy).Contents (Elt F) → (⟨S_, .f32⟩ : BufTy).Contents (Elt F) → (⟨S_, .f32⟩ : BufTy).Contents (Elt F))
    (f44 : (⟨S_, .f32⟩ : BufTy).Contents (Elt F) → (⟨S_, .f32⟩ : BufTy).Contents (Elt F))
    (W : Valuation τ sig (Elt F)) :
    (StableHlo.after (Val := Elt F) (τ := τ) (sig := sig)
      [ StableHlo.nullary main_c f0,
        StableHlo.nullary main_c_0 f1,
        StableHlo.TRef.nullary (.of main_call0_cst : StableHlo.TRef sig ⟨S_, .f32⟩) f2,
        StableHlo.TRef.binary (.of main_arg0 : StableHlo.TRef sig ⟨S2x1024x50257, .f32⟩) (.of main_call0_cst : StableHlo.TRef sig ⟨S_, .f32⟩) (.of main_call0_v0 : StableHlo.TRef sig ⟨S2x1024, .f32⟩) f3,
        StableHlo.TRef.nullary (.of main_call0_cst_0 : StableHlo.TRef sig ⟨S_, .f32⟩) f4,
        StableHlo.TRef.unary (.of main_call0_cst_0 : StableHlo.TRef sig ⟨S_, .f32⟩) (.of main_call0_v1 : StableHlo.TRef sig ⟨S2x1024, .f32⟩) f5,
        StableHlo.TRef.binary (.of main_call0_v1 : StableHlo.TRef sig ⟨S2x1024, .f32⟩) (.of main_call0_v0 : StableHlo.TRef sig ⟨S2x1024, .f32⟩) (.of main_call0_v2 : StableHlo.TRef sig ⟨S2x1024, .f32⟩) f6,
        StableHlo.TRef.unary (.of main_call0_v2 : StableHlo.TRef sig ⟨S2x1024, .f32⟩) (.of main_call0_v3 : StableHlo.TRef sig ⟨S2x1024x1, .f32⟩) f7,
        StableHlo.TRef.unary (.of main_call0_v3 : StableHlo.TRef sig ⟨S2x1024x1, .f32⟩) (.of main_call0_v4 : StableHlo.TRef sig ⟨S2x1024x50257, .f32⟩) f8,
        StableHlo.TRef.binary (.of main_arg0 : StableHlo.TRef sig ⟨S2x1024x50257, .f32⟩) (.of main_call0_v4 : StableHlo.TRef sig ⟨S2x1024x50257, .f32⟩) (.of main_call0_v5 : StableHlo.TRef sig ⟨S2x1024x50257, .f32⟩) f9,
        StableHlo.TRef.unary (.of main_call0_v5 : StableHlo.TRef sig ⟨S2x1024x50257, .f32⟩) (.of main_call0_v6 : StableHlo.TRef sig ⟨S2x1024x50257, .f32⟩) f10,
        StableHlo.TRef.nullary (.of main_call0_cst_1 : StableHlo.TRef sig ⟨S_, .f32⟩) f11,
        StableHlo.TRef.binary (.of main_call0_v6 : StableHlo.TRef sig ⟨S2x1024x50257, .f32⟩) (.of main_call0_cst_1 : StableHlo.TRef sig ⟨S_, .f32⟩) (.of main_call0_v7 : StableHlo.TRef sig ⟨S2x1024, .f32⟩) f12,
        StableHlo.TRef.unary (.of main_call0_v7 : StableHlo.TRef sig ⟨S2x1024, .f32⟩) (.of main_call0_v8 : StableHlo.TRef sig ⟨S2x1024x1, .f32⟩) f13,
        StableHlo.TRef.unary (.of main_call0_v8 : StableHlo.TRef sig ⟨S2x1024x1, .f32⟩) (.of main_call0_v9 : StableHlo.TRef sig ⟨S2x1024x1, .f32⟩) f14,
        StableHlo.TRef.unary (.of main_call0_v9 : StableHlo.TRef sig ⟨S2x1024x1, .f32⟩) (.of main_call0_v10 : StableHlo.TRef sig ⟨S2x1024x50257, .f32⟩) f15,
        StableHlo.TRef.binary (.of main_call0_v5 : StableHlo.TRef sig ⟨S2x1024x50257, .f32⟩) (.of main_call0_v10 : StableHlo.TRef sig ⟨S2x1024x50257, .f32⟩) (.of main_v0 : StableHlo.TRef sig ⟨S2x1024x50257, .f32⟩) f16,
        StableHlo.unary main_arg1 main_v1 f17,
        StableHlo.TRef.nullary (.of main_call1_c : StableHlo.TRef sig ⟨S_, .i32⟩) f18,
        StableHlo.TRef.unary (.of main_call1_c : StableHlo.TRef sig ⟨S_, .i32⟩) (.of main_call1_v0 : StableHlo.TRef sig ⟨S2x1024x1, .i32⟩) f19,
        StableHlo.TRef.binary (.of main_v1 : StableHlo.TRef sig ⟨S2x1024x1, .i32⟩) (.of main_call1_v0 : StableHlo.TRef sig ⟨S2x1024x1, .i32⟩) (.of main_call1_v1 : StableHlo.TRef sig ⟨S2x1024x1, .i1⟩) f20,
        StableHlo.TRef.nullary (.of main_call1_c_0 : StableHlo.TRef sig ⟨S_, .i32⟩) f21,
        StableHlo.TRef.unary (.of main_call1_c_0 : StableHlo.TRef sig ⟨S_, .i32⟩) (.of main_call1_v2 : StableHlo.TRef sig ⟨S2x1024x1, .i32⟩) f22,
        StableHlo.TRef.binary (.of main_v1 : StableHlo.TRef sig ⟨S2x1024x1, .i32⟩) (.of main_call1_v2 : StableHlo.TRef sig ⟨S2x1024x1, .i32⟩) (.of main_call1_v3 : StableHlo.TRef sig ⟨S2x1024x1, .i32⟩) f23,
        StableHlo.TRef.ternary (.of main_call1_v1 : StableHlo.TRef sig ⟨S2x1024x1, .i1⟩) (.of main_call1_v3 : StableHlo.TRef sig ⟨S2x1024x1, .i32⟩) (.of main_v1 : StableHlo.TRef sig ⟨S2x1024x1, .i32⟩) (.of main_call1_v4 : StableHlo.TRef sig ⟨S2x1024x1, .i32⟩) f24,
        StableHlo.TRef.reshape (.of main_call1_v4 : StableHlo.TRef sig ⟨S2x1024x1, .i32⟩) (.of main_call1_v5 : StableHlo.TRef sig ⟨S2x1024x1x1, .i32⟩) rfl shapeCasts_S2x1024x1_S2x1024x1x1,
        StableHlo.TRef.nullary (.of main_call1_c_1 : StableHlo.TRef sig ⟨S1, .i32⟩) f26,
        StableHlo.TRef.nullary (.of main_call1_c_2 : StableHlo.TRef sig ⟨S_, .i32⟩) f27,
        StableHlo.TRef.unary (.of main_call1_c_2 : StableHlo.TRef sig ⟨S_, .i32⟩) (.of main_call1_v6 : StableHlo.TRef sig ⟨S2x1024x1x1, .i32⟩) f28,
        StableHlo.TRef.binary (.of main_call1_v5 : StableHlo.TRef sig ⟨S2x1024x1x1, .i32⟩) (.of main_call1_v6 : StableHlo.TRef sig ⟨S2x1024x1x1, .i32⟩) (.of main_call1_v7 : StableHlo.TRef sig ⟨S2x1024x1x1, .i1⟩) f29,
        StableHlo.TRef.unary (.of main_call1_c_1 : StableHlo.TRef sig ⟨S1, .i32⟩) (.of main_call1_v8 : StableHlo.TRef sig ⟨S1x1x1x1, .i32⟩) f30,
        StableHlo.TRef.unary (.of main_call1_v8 : StableHlo.TRef sig ⟨S1x1x1x1, .i32⟩) (.of main_call1_v9 : StableHlo.TRef sig ⟨S2x1024x1x1, .i32⟩) f31,
        StableHlo.TRef.binary (.of main_call1_v5 : StableHlo.TRef sig ⟨S2x1024x1x1, .i32⟩) (.of main_call1_v9 : StableHlo.TRef sig ⟨S2x1024x1x1, .i32⟩) (.of main_call1_v10 : StableHlo.TRef sig ⟨S2x1024x1x1, .i1⟩) f32,
        StableHlo.TRef.binary (.of main_call1_v7 : StableHlo.TRef sig ⟨S2x1024x1x1, .i1⟩) (.of main_call1_v10 : StableHlo.TRef sig ⟨S2x1024x1x1, .i1⟩) (.of main_call1_v11 : StableHlo.TRef sig ⟨S2x1024x1x1, .i1⟩) f33,
        StableHlo.TRef.nullary (.of main_call1_c_3 : StableHlo.TRef sig ⟨S_, .i1⟩) f34,
        StableHlo.TRef.binary (.of main_call1_v11 : StableHlo.TRef sig ⟨S2x1024x1x1, .i1⟩) (.of main_call1_c_3 : StableHlo.TRef sig ⟨S_, .i1⟩) (.of main_call1_v12 : StableHlo.TRef sig ⟨S2x1024x1, .i1⟩) f35,
        StableHlo.TRef.binary (.of main_v0 : StableHlo.TRef sig ⟨S2x1024x50257, .f32⟩) (.of main_call1_v5 : StableHlo.TRef sig ⟨S2x1024x1x1, .i32⟩) (.of main_call1_v13 : StableHlo.TRef sig ⟨S2x1024x1, .f32⟩) f36,
        StableHlo.TRef.nullary (.of main_call1_cst : StableHlo.TRef sig ⟨S_, .f32⟩) f37,
        StableHlo.TRef.unary (.of main_call1_cst : StableHlo.TRef sig ⟨S_, .f32⟩) (.of main_call1_v14 : StableHlo.TRef sig ⟨S2x1024x1, .f32⟩) f38,
        StableHlo.TRef.ternary (.of main_call1_v12 : StableHlo.TRef sig ⟨S2x1024x1, .i1⟩) (.of main_call1_v13 : StableHlo.TRef sig ⟨S2x1024x1, .f32⟩) (.of main_call1_v14 : StableHlo.TRef sig ⟨S2x1024x1, .f32⟩) (.of main_v2 : StableHlo.TRef sig ⟨S2x1024x1, .f32⟩) f39,
        StableHlo.nullary main_cst f40,
        StableHlo.binary main_v2 main_cst main_v3 f41,
        StableHlo.nullary main_cst_1 f42,
        StableHlo.binary main_v3 main_cst_1 main_v4 f43,
        StableHlo.unary main_v4 main_v5 f44 ]
      W (Proc.devRef .tc main_v5) : FVec F S_ .f32)
      = (f44 (f43 (f41 (f39 (f35 (f33 (f29 (shapeCast S2x1024x1x1 (f24 (f20 (f17 (W (Proc.devRef .tc main_arg1))) (f19 f18)) (f23 (f17 (W (Proc.devRef .tc main_arg1))) (f22 f21)) (f17 (W (Proc.devRef .tc main_arg1)))) shapeCasts_S2x1024x1_S2x1024x1x1 : (⟨S2x1024x1x1, .i32⟩ : BufTy).Contents (Elt F)) (f28 f27)) (f32 (shapeCast S2x1024x1x1 (f24 (f20 (f17 (W (Proc.devRef .tc main_arg1))) (f19 f18)) (f23 (f17 (W (Proc.devRef .tc main_arg1))) (f22 f21)) (f17 (W (Proc.devRef .tc main_arg1)))) shapeCasts_S2x1024x1_S2x1024x1x1 : (⟨S2x1024x1x1, .i32⟩ : BufTy).Contents (Elt F)) (f31 (f30 f26)))) f34) (f36 (f16 (f9 (W (Proc.devRef .tc main_arg0)) (f8 (f7 (f6 (f5 f4) (f3 (W (Proc.devRef .tc main_arg0)) f2))))) (f15 (f14 (f13 (f12 (f10 (f9 (W (Proc.devRef .tc main_arg0)) (f8 (f7 (f6 (f5 f4) (f3 (W (Proc.devRef .tc main_arg0)) f2)))))) f11))))) (shapeCast S2x1024x1x1 (f24 (f20 (f17 (W (Proc.devRef .tc main_arg1))) (f19 f18)) (f23 (f17 (W (Proc.devRef .tc main_arg1))) (f22 f21)) (f17 (W (Proc.devRef .tc main_arg1)))) shapeCasts_S2x1024x1_S2x1024x1x1 : (⟨S2x1024x1x1, .i32⟩ : BufTy).Contents (Elt F))) (f38 f37)) f40) f42)) := by
  after_results_simp
  simp only [cast_cast]
  simp only [cast_trans_self, cast_eq]
  try rfl

/-- The reference's operations compose to the value above. -/
theorem after_opsCe (W : Valuation τ sig (Elt F)) :
    (StableHlo.after opsCe W (Proc.devRef .tc main_v5) : FVec F S_ .f32)
      = vCe (W (Proc.devRef .tc main_arg0)) (W (Proc.devRef .tc main_arg1)) :=
  after_generic
    (fun i => lit0 (S19.rowMajor i))
    (fun i => lit1 (S19x7.rowMajor i))
    (constant S_ .f32 0xFF800000#32)
    (fun x v => Host.reduce FloatOps.maximumf x v reducesTo_S2x1024x50257_S2x1024_d2 h_S_)
    (constant S_ .f32 0xFF800000#32)
    (broadcastInDim S2x1024 ![] bcast_S_S2x1024)
    maximumf
    (broadcastInDim S2x1024x1 ![0, 1] bcast_S2x1024_S2x1024x1_0_1)
    (broadcastInDim S2x1024x50257 ![0, 1, 2] bcast_S2x1024x1_S2x1024x50257_0_1_2)
    subf
    Host.exp
    (constant S_ .f32 0x00000000#32)
    (fun x v => Host.reduceAdd x v reducesTo_S2x1024x50257_S2x1024_d2 h_S_)
    (broadcastInDim S2x1024x1 ![0, 1] bcast_S2x1024_S2x1024x1_0_1)
    Host.log
    (broadcastInDim S2x1024x50257 ![0, 1, 2] bcast_S2x1024x1_S2x1024x50257_0_1_2)
    subf
    (broadcastInDim S2x1024x1 ![0, 1] bcast_S2x1024_S2x1024x1_0_1 : (⟨S2x1024, .i32⟩ : BufTy).Contents (Elt F) → (⟨S2x1024x1, .i32⟩ : BufTy).Contents (Elt F))
    (constantI S_ 32 0#32)
    (broadcastInDim S2x1024x1 ![] bcast_S_S2x1024x1)
    (cmpi .slt)
    (constantI S_ 32 50257#32)
    (broadcastInDim S2x1024x1 ![] bcast_S_S2x1024x1)
    addi
    select
    (constantI S1 32 50256#32)
    (constantI S_ 32 0#32)
    (broadcastInDim S2x1024x1x1 ![] bcast_S_S2x1024x1x1)
    (cmpi .sge)
    (broadcastInDim S1x1x1x1 ![3] bcast_S1_S1x1x1x1_3)
    (broadcastInDim S2x1024x1x1 ![0, 1, 2, 3] bcast_S1x1x1x1_S2x1024x1x1_0_1_2_3)
    (cmpi .sle)
    andi
    (constantI S_ 1 1#1)
    (fun x v => Host.reduce IntOp.andi x v reducesTo_S2x1024x1x1_S2x1024x1_d3 h_S_)
    (fun x i => Host.gather gather_S2x1024x50257_S2x1024x1x1_S2x1024x1_n_2_01_01_2_3_111 x i)
    (constant S_ .f32 0x7FC00000#32)
    (broadcastInDim S2x1024x1 ![] bcast_S_S2x1024x1)
    select
    (constant S_ .f32 0x00000000#32)
    ((fun x v => Host.reduceAdd x v reducesTo_S2x1024x1_S_d0_1_2 h_S_) : (⟨S2x1024x1, .f32⟩ : BufTy).Contents (Elt F) → (⟨S_, .f32⟩ : BufTy).Contents (Elt F) → (⟨S_, .f32⟩ : BufTy).Contents (Elt F))
    (constant S_ .f32 0x45000000#32)
    (Host.divf : (⟨S_, .f32⟩ : BufTy).Contents (Elt F) → (⟨S_, .f32⟩ : BufTy).Contents (Elt F) → (⟨S_, .f32⟩ : BufTy).Contents (Elt F))
    (Host.negf : (⟨S_, .f32⟩ : BufTy).Contents (Elt F) → (⟨S_, .f32⟩ : BufTy).Contents (Elt F))
    W

/-! ## The value read over the extended reals -/

section Read

open Cert.Spec (row tgt rowMax rowLse pickR nllR gR)

theorem negf_host_apply {s : Shape} (a : FVec Ideal s .f32) (i : s.Idx) : Host.negf a i = -(a i) := rfl
theorem hostLog_apply {s : Shape} (a : FVec Ideal s .f32) (i : s.Idx) : Host.log a i = Ideal.log (a i) := rfl
theorem hostExp_apply {s : Shape} (a : FVec Ideal s .f32) (i : s.Idx) : Host.exp a i = Ideal.exp (a i) := rfl
theorem andi_apply {s : Shape} {w : Nat} (a b : IVec s w) (i : s.Idx) : andi a b i = IntOp.andi (a i) (b i) := rfl
theorem cmpi_apply {s : Shape} {w : Nat} (p : CmpIPredicate) (a b : IVec s w) (i : s.Idx) :
    cmpi p a b i = IntOp.cmpi p (a i) (b i) := rfl

/-- A fold over the one-element index set is one application. -/
theorem fold_fin_one {α : Type} (f : α → α → α) [Std.Commutative f] [Std.Associative f] (init : α) (g : Fin 1 → α) :
    (Finset.univ : Finset (Fin 1)).fold f init g = f (g 0) init := by
  rw [Finset.univ_unique, Finset.fold_singleton]; rfl

/-- The bit pattern of −∞ is the bottom of the extended reals. -/
theorem ofBits_neg_inf : Ideal.ofBits .f32 0xFF800000#32 = (⊥ : EReal) := by simp [Ideal.ofBits, Ideal.ieee]

/-- A [2, 1024, 1] array broadcast along the vocabulary reads its one column. -/
theorem bc3_apply {α : Type} (y : S2x1024x1.Idx → α) (b : Fin 2) (s : Fin 1024) (v : Fin 50257) :
    broadcastInDim S2x1024x50257 ![0, 1, 2] bcast_S2x1024x1_S2x1024x50257_0_1_2 y (ix3 b s v) = y (ix3 b s 0) := by
  refine broadcastInDim_apply _ _ y _ (ix3 b s 0) (fun a => ?_)
  fin_cases a <;> rfl

/-- A [2, 1024] array given a trailing unit axis reads the same element. -/
theorem bc2_apply {α : Type} (y : S2x1024.Idx → α) (b : Fin 2) (s : Fin 1024) (z : Fin 1) :
    broadcastInDim S2x1024x1 ![0, 1] bcast_S2x1024_S2x1024x1_0_1 y (ix3 b s z) = y (ix2 b s) := by
  refine broadcastInDim_apply _ _ y _ (ix2 b s) (fun a => ?_)
  fin_cases a <;> rfl

/-- The witness that dropping the vocabulary axis of [2, 1024, 50257] leaves [2, 1024]. -/
theorem redV : S2x1024x50257.Reduces [2] S2x1024 := by decide

/-- The index of [2, 1024, 50257] that drops to (b, s) with v on the vocabulary axis is (b, s, v). -/
theorem liftV (b : Fin 2) (s : Fin 1024) (v : Fin 50257) : redV.lift (ix2 b s) v = ix3 b s v := by
  funext a
  refine Fin.ext ?_
  fin_cases a <;> rfl

/-- A sum over the vocabulary axis's coordinates of the indices that drop to (b, s) is the sum over the row. -/
theorem sumV (f : S2x1024x50257.Idx → EReal) (b : Fin 2) (s : Fin 1024) :
    (∑ k : Fin (S2x1024x50257.size 2), f (redV.lift (ix2 b s) k)) = ∑ v : Fin 50257, f (ix3 b s v) :=
  Finset.sum_congr rfl fun v _ => congrArg f (liftV b s v)

/-- The row maximum the reference takes is the fold of max from −∞. -/
theorem vMax_apply (x : FVec Ideal S2x1024x50257 .f32) (b : Fin 2) (s : Fin 1024) :
    vMax x (ix2 b s) = rowMax (row x b s) := by
  unfold vMax
  rw [maximumf_apply, broadcastInDim_scalar_apply, constant_apply, ofBits_neg_inf, bot_sup_eq,
    Host.reduce_eq_fold_single FloatOps.maximumf x _ reducesTo_S2x1024x50257_S2x1024_d2 redV h_S_ (ix2 b s),
    constant_apply, ofBits_neg_inf]
  show (Finset.univ : Finset (Fin 50257)).fold max ⊥ (x ∘ redV.lift (ix2 b s)) = _
  unfold rowMax
  congr 1
  funext v
  exact congrArg x (liftV b s v)

/-- The shifted logit. -/
theorem vShift_apply (x : FVec Ideal S2x1024x50257 .f32) (b : Fin 2) (s : Fin 1024) (v : Fin 50257) :
    vShift x (ix3 b s v) = x (ix3 b s v) - rowMax (row x b s) := by
  unfold vShift
  rw [subf_apply, bc3_apply, bc2_apply, vMax_apply]

/-- The logarithm of the row's sum of exponentials. -/
theorem vLog_apply (x : FVec Ideal S2x1024x50257 .f32) (b : Fin 2) (s : Fin 1024) (z : Fin 1) :
    vLog x (ix3 b s z) = rowLse (row x b s) := by
  unfold vLog
  rw [hostLog_apply, bc2_apply, hostReduceAdd_apply, Ideal.hostReduceAdd_single _ redV, constant_apply, Ideal.ofBits_zero_f32, zero_add]
  unfold rowLse
  refine (congrArg Ideal.log (sumV (Host.exp (vShift x)) b s)).trans ?_
  refine congrArg Ideal.log (Finset.sum_congr rfl fun v _ => ?_)
  rw [hostExp_apply, vShift_apply]
  rfl

/-- The log-probability. -/
theorem vLsm_apply (x : FVec Ideal S2x1024x50257 .f32) (b : Fin 2) (s : Fin 1024) (v : Fin 50257) :
    vLsm x (ix3 b s v) = (x (ix3 b s v) - rowMax (row x b s)) - rowLse (row x b s) := by
  unfold vLsm
  rw [subf_apply, vShift_apply, bc3_apply, vLog_apply]

/-- A word below 50257 is not negative as a signed number. -/
theorem toInt_of_lt {w : BitVec 32} (h : w.toNat < 50257) : w.toInt = (w.toNat : Int) :=
  StableHlo.Predicate.toInt_eq_toNat_of_lt (by omega)

/-- For a target inside the vocabulary the start index is the target itself. -/
theorem vIdx_apply (t : IVec S2x1024 32) (b : Fin 2) (s : Fin 1024) (z z' : Fin 1) (h : (t (ix2 b s)).toNat < 50257) :
    vIdx t (ix4 b s z z') = t (ix2 b s) := by
  unfold vIdx
  rw [shapeCast_apply _ _ (ix4 b s z z') (ix3 b s 0) (by
    rw [Shape.rowMajor_val_three, Shape.rowMajor_val_four]
    show (b.val * 1024 + s.val) * 1 + 0 = ((b.val * 1024 + s.val) * 1 + z.val) * 1 + z'.val
    have := z.isLt; have := z'.isLt
    omega)]
  rw [select_apply]
  have hT : vT1 t (ix3 b s 0) = t (ix2 b s) := by unfold vT1; exact bc2_apply t b s 0
  have hc : cmpi .slt (vT1 t) (broadcastInDim S2x1024x1 ![] bcast_S_S2x1024x1 (constantI S_ 32 0#32)) (ix3 b s 0) = 0#1 := by
    rw [cmpi_apply, hT, broadcastInDim_scalar_apply]
    refine eq_zero_of_ne_one fun e => ?_
    have e' := IntOp.cmpi_slt.1 e
    rw [toInt_of_lt h] at e'
    have : (constantI S_ 32 0#32 ix0).toInt = 0 := by decide
    omega
  rw [hc, select_zero, hT]

/-- The witness that dropping the index vector's axis of [2, 1024, 1, 1] leaves [2, 1024, 1]. -/
theorem redI : S2x1024x1x1.Reduces [3] S2x1024x1 := by decide

theorem liftI (b : Fin 2) (s : Fin 1024) (z z' : Fin 1) : redI.lift (ix3 b s z) z' = ix4 b s z z' := by
  funext a
  refine Fin.ext ?_
  fin_cases a <;> rfl

/-- A fold over the index vector's one coordinate is one application, at the index (b, s, z, 0). -/
theorem foldI {α : Type} (f : α → α → α) [Std.Commutative f] [Std.Associative f] (init : α) (g : S2x1024x1x1.Idx → α)
    (b : Fin 2) (s : Fin 1024) (z : Fin 1) :
    (Finset.univ : Finset (Fin (S2x1024x1x1.size 3))).fold f init (g ∘ redI.lift (ix3 b s z)) = f (g (ix4 b s z 0)) init := by
  refine (fold_fin_one f init _).trans ?_
  exact congrArg (fun u => f (g u) init) (liftI b s z 0)

/-- For a target inside the vocabulary the range test holds. -/
theorem vOk_apply (t : IVec S2x1024 32) (b : Fin 2) (s : Fin 1024) (z : Fin 1) (h : (t (ix2 b s)).toNat < 50257) :
    vOk t (ix3 b s z) = 1#1 := by
  unfold vOk
  rw [Host.reduce_eq_fold_single IntOp.andi _ _ reducesTo_S2x1024x1x1_S2x1024x1_d3 redI h_S_ (ix3 b s z)]
  refine (foldI IntOp.andi _ _ b s z).trans ?_
  rw [andi_apply, cmpi_apply, cmpi_apply, vIdx_apply t b s z 0 h]
  have h0 : IntOp.cmpi .sge (t (ix2 b s))
      (broadcastInDim S2x1024x1x1 ![] bcast_S_S2x1024x1x1 (constantI S_ 32 0#32) (ix4 b s z 0)) = 1#1 := by
    rw [broadcastInDim_scalar_apply]
    refine IntOp.cmpi_sge.2 ?_
    rw [toInt_of_lt h]
    have : (constantI S_ 32 0#32 ix0).toInt = 0 := by decide
    omega
  have h1 : IntOp.cmpi .sle (t (ix2 b s))
      (broadcastInDim S2x1024x1x1 ![0, 1, 2, 3] bcast_S1x1x1x1_S2x1024x1x1_0_1_2_3
        (broadcastInDim S1x1x1x1 ![3] bcast_S1_S1x1x1x1_3 (constantI S1 32 50256#32)) (ix4 b s z 0)) = 1#1 := by
    refine IntOp.cmpi_sle.2 ?_
    rw [toInt_of_lt h]
    have : (broadcastInDim S2x1024x1x1 ![0, 1, 2, 3] bcast_S1x1x1x1_S2x1024x1x1_0_1_2_3
        (broadcastInDim S1x1x1x1 ![3] bcast_S1_S1x1x1x1_3 (constantI S1 32 50256#32)) (ix4 b s z 0)).toInt = 50256 := by
      show (50256#32 : BitVec 32).toInt = 50256
      decide
    omega
  rw [h0, h1]
  rfl

/-- The gather's dimension numbers, by a short name. -/
abbrev gd : GatherDims S2x1024x50257 S2x1024x1x1 S2x1024x1 := gather_S2x1024x50257_S2x1024x1x1_S2x1024x1_n_2_01_01_2_3_111

/-- The gather read at (b, s, z): the operand at (b, s, the start index read signed and clamped into the vocabulary). -/
theorem gather_apply {α : Type} (y : S2x1024x50257.Idx → α) (idx : IVec S2x1024x1x1 32) (b : Fin 2) (s : Fin 1024) (z : Fin 1) :
    Host.gather gd y idx (ix3 b s z)
      = y (ix3 b s ⟨min (idx (ix4 b s z 0)).toInt.toNat 50256, by omega⟩) := by
  unfold Host.gather
  refine congrArg y (funext fun a => Fin.ext ?_)
  show gd.start (ix3 b s z) idx a + gd.batchCoord (ix3 b s z) a + gd.offCoord (ix3 b s z) a = _
  match a with
  | ⟨0, _⟩ =>
    have h1 : gd.start (ix3 b s z) idx 0 = 0 := gd.start_batching _ _ _ (by decide)
    have h2 : gd.offCoord (ix3 b s z) 0 = 0 := gd.offCoord_eq_zero _ _ (by decide)
    have h3 : gd.batchCoord (ix3 b s z) 0 = b.val := rfl
    show gd.start (ix3 b s z) idx 0 + gd.batchCoord (ix3 b s z) 0 + gd.offCoord (ix3 b s z) 0 = b.val
    omega
  | ⟨1, _⟩ =>
    have h1 : gd.start (ix3 b s z) idx 1 = 0 := gd.start_batching _ _ _ (by decide)
    have h2 : gd.offCoord (ix3 b s z) 1 = 0 := gd.offCoord_eq_zero _ _ (by decide)
    have h3 : gd.batchCoord (ix3 b s z) 1 = s.val := rfl
    show gd.start (ix3 b s z) idx 1 + gd.batchCoord (ix3 b s z) 1 + gd.offCoord (ix3 b s z) 1 = s.val
    omega
  | ⟨2, _⟩ =>
    have h2 : gd.offCoord (ix3 b s z) 2 = 0 := gd.offCoord_eq_zero _ _ (by decide)
    have h3 : gd.batchCoord (ix3 b s z) 2 = 0 := gd.batchCoord_eq_zero _ _ (by decide)
    have h1 : gd.start (ix3 b s z) idx 2 = min (idx (ix4 b s z 0)).toInt.toNat 50256 := by
      unfold GatherDims.start
      rw [dif_pos (show (2 : Fin 3) ∈ gd.startIndexMap by decide)]
      have hsi : gd.siIdx (ix3 b s z) ⟨List.idxOf (2 : Fin 3) gd.startIndexMap,
          List.idxOf_lt_length_iff.2 (show (2 : Fin 3) ∈ gd.startIndexMap by decide)⟩ = ix4 b s z 0 := by
        funext c
        refine Fin.ext ?_
        match c with
        | ⟨0, _⟩ => rfl
        | ⟨1, _⟩ => rfl
        | ⟨2, _⟩ => rfl
        | ⟨3, _⟩ => rfl
      rw [hsi]
      rfl
    show gd.start (ix3 b s z) idx 2 + gd.batchCoord (ix3 b s z) 2 + gd.offCoord (ix3 b s z) 2
      = min (idx (ix4 b s z 0)).toInt.toNat 50256
    omega

/-- Each row's reading is the reference's per-row term. -/
theorem vTake_apply (x : FVec Ideal S2x1024x50257 .f32) (t : IVec S2x1024 32) (ht : ∀ j, (t j).toNat < 50257)
    (i : S2x1024x1.Idx) : vTake x t i = gR x t i := by
  obtain ⟨b, s, z, rfl⟩ : ∃ (b : Fin 2) (s : Fin 1024) (z : Fin 1), i = ix3 b s z :=
    ⟨i 0, i 1, i 2, eq_ix3 (n0 := 2) (n1 := 1024) (n2 := 1) i⟩
  have h := ht (ix2 b s)
  unfold vTake
  rw [select_apply, vOk_apply t b s z h, select_one, gather_apply, vLsm_apply]
  unfold gR nllR pickR tgt
  have e : (vIdx t (ix4 b s z 0)).toInt.toNat = (t (ix2 b s)).toNat := by
    rw [vIdx_apply t b s z 0 h, toInt_of_lt h, Int.toNat_natCast]
  simp only [e]
  rfl

/-- THE VALUE: minus the per-row terms' total over 2048. -/
theorem vCe_eq (x : FVec Ideal S2x1024x50257 .f32) (t : IVec S2x1024 32) (ht : ∀ j, (t j).toNat < 50257) :
    vCe x t = fun _ => -(Ideal.div (0 + ∑ i : Cert.Spec.SG.Idx, gR x t i) Cert.Spec.c2048) := by
  funext j
  unfold vCe
  rw [negf_host_apply, hostDivf_apply, hostReduceAdd_apply, Ideal.hostReduceAdd_total _ (fun b => b.elim0), constant_apply,
    constant_apply, Ideal.ofBits_zero_f32]
  refine congrArg (fun u => -(Ideal.div (0 + u) Cert.Spec.c2048)) ?_
  exact Finset.sum_congr rfl fun i _ => vTake_apply x t ht i

end Read

/-- THE REFERENCE'S CROSS-ENTROPY: for targets inside the vocabulary, what the negation's buffer holds after the
    reference's operations is minus the per-row terms' total over 2048. -/
theorem ce_value (W : Valuation τ sig (Elt Ideal))
    (ht : ∀ j, ((W (Proc.devRef .tc main_arg1) : IVec S2x1024 32) j).toNat < 50257) :
    (StableHlo.after opsCe W (Proc.devRef .tc main_v5) : FVec Ideal S_ .f32)
      = fun _ => -(Ideal.div (0 + ∑ i : Cert.Spec.SG.Idx,
          Cert.Spec.gR (W (Proc.devRef .tc main_arg0)) (W (Proc.devRef .tc main_arg1)) i) Cert.Spec.c2048) :=
  (after_opsCe W).trans (vCe_eq _ _ ht)

end Cert.ReferenceIdeal.Hand

end
-- ==== Proof.TailEq.lean ====
/-
  The host operations the two programs share after their cross-entropy parts.
  Both programs end by adding a tenth of a penalty to their cross-entropy term, and both compute that penalty
  from the targets alone, by the same operations in the same order: comparisons of each target and its successor
  with two constant tables, two running counts, four integer totals turned into floats, a weighted sum of them
  over their guarded plain sum. So the final buffer of each program is its cross-entropy term plus a tenth of
  its penalty (ker_result, ref_result), the two penalties are one function of the targets and the two tables
  (pen_core, pen_eq), the operations of the penalty leave the reference's cross-entropy term alone (ref_v5) and
  no operation writes an argument (ref_arg0, ref_arg1). The program with the launch divides the launch's
  single output by the row count (ker_v4).
-/
import proofs.«426039_j807453852038_3_alg».proof.Proof.RefRun
import proofs.«426039_j807453852038_3_alg».proof.Proof.Gen.KernelIdeal.Launch
import Idealize.ShloMosaic.Lib.Pipeline.Frame

set_option maxRecDepth 4096

noncomputable section

namespace Cert.Tail

open Idealize.ShloMosaic Idealize.ShloMosaic.TcCoe Idealize.SL.Sem Idealize.ShloMosaic.StableHlo
open Cert.ReferenceIdeal.Hand (ops opsCe opsPen pen0 pen1a pen1b pen2)

variable {F : FTy → Type} [FloatOps F]

/-- The kernel program's host operations after its one launch, but for the last three. -/
abbrev tailPre : List (HloOp Cert.KernelIdeal.τ Cert.KernelIdeal.sig (Elt F)) :=
  List.flatten [Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5]

/-- The kernel program's host operations after its one launch. -/
abbrev tailK : List (HloOp Cert.KernelIdeal.τ Cert.KernelIdeal.sig (Elt F)) :=
  List.flatten [Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5,
    Cert.KernelIdeal.Gen.hostOps1_6]

theorem tailK_split : (tailK : List (HloOp Cert.KernelIdeal.τ Cert.KernelIdeal.sig (Elt F))) = tailPre ++ Cert.KernelIdeal.Gen.hostOps1_6 := by
  simp only [tailK, tailPre, List.flatten_cons, List.flatten_nil, List.append_nil, List.append_assoc]

/-- The final buffer: the cross-entropy term plus a tenth of the penalty. -/
theorem ker_result (W : Valuation Cert.KernelIdeal.τ Cert.KernelIdeal.sig (Elt F)) :
    after tailK W (Cert.KernelIdeal.main_v107 : DevRef Cert.KernelIdeal.τ Cert.KernelIdeal.sig)
      = (addf (after tailK W (Cert.KernelIdeal.main_v4 : DevRef Cert.KernelIdeal.τ Cert.KernelIdeal.sig))
          (mulf (constant Cert.KernelIdeal.S_ .f32 0x3DCCCCCD#32)
            (after tailK W (Cert.KernelIdeal.main_v105 : DevRef Cert.KernelIdeal.τ Cert.KernelIdeal.sig)))
          : (⟨Cert.KernelIdeal.S_, .f32⟩ : BufTy).Contents (Elt F)) := by
  rw [tailK_split, StableHlo.after_append]
  generalize after tailPre W = V
  after_results

/-- The cross-entropy term: the launch's one output element, as a scalar, over the row count. -/
theorem ker_v4 (W : Valuation Cert.KernelIdeal.τ Cert.KernelIdeal.sig (Elt F)) :
    after tailK W (Cert.KernelIdeal.main_v4 : DevRef Cert.KernelIdeal.τ Cert.KernelIdeal.sig)
      = (Host.divf (shapeCast Cert.KernelIdeal.S_ (W (Cert.KernelIdeal.main_v2 : DevRef Cert.KernelIdeal.τ Cert.KernelIdeal.sig)) Cert.KernelIdeal.Gen.shapeCasts_S1x1_S_)
          (constant Cert.KernelIdeal.S_ .f32 0x45000000#32) : (⟨Cert.KernelIdeal.S_, .f32⟩ : BufTy).Contents (Elt F)) := by
  simp only [tailK, List.flatten_cons, List.flatten_nil, List.append_nil, List.cons_append, List.nil_append]
  after_results_simp
  rfl

/-- The reference's operations, cut before the last three. -/
theorem ops_split : (ops : List (HloOp Cert.ReferenceIdeal.τ Cert.ReferenceIdeal.sig (Elt F)))
    = (opsCe ++ (pen0 ++ ((pen1a ++ pen1b) ++ List.take 23 pen2))) ++ List.drop 23 pen2 := by
  simp only [ops, opsPen, List.append_assoc, List.take_append_drop]

/-- The reference's final buffer: its cross-entropy term plus a tenth of its penalty. -/
theorem ref_result (W' : Valuation Cert.ReferenceIdeal.τ Cert.ReferenceIdeal.sig (Elt F)) :
    after ops W' (Cert.ReferenceIdeal.main_v108 : DevRef Cert.ReferenceIdeal.τ Cert.ReferenceIdeal.sig)
      = (addf (after ops W' (Cert.ReferenceIdeal.main_v5 : DevRef Cert.ReferenceIdeal.τ Cert.ReferenceIdeal.sig))
          (mulf (constant Cert.ReferenceIdeal.S_ .f32 0x3DCCCCCD#32)
            (after ops W' (Cert.ReferenceIdeal.main_v106 : DevRef Cert.ReferenceIdeal.τ Cert.ReferenceIdeal.sig)))
          : (⟨Cert.ReferenceIdeal.S_, .f32⟩ : BufTy).Contents (Elt F)) := by
  rw [ops_split, StableHlo.after_append]
  generalize after (opsCe ++ (pen0 ++ ((pen1a ++ pen1b) ++ List.take 23 pen2))) W' = V
  simp only [pen2, List.drop_succ_cons, List.drop_zero]
  after_results

/-- The penalty's operations write none of the buffers the cross-entropy term is computed in. -/
theorem ref_v5 (W' : Valuation Cert.ReferenceIdeal.τ Cert.ReferenceIdeal.sig (Elt F)) :
    after ops W' (Cert.ReferenceIdeal.main_v5 : DevRef Cert.ReferenceIdeal.τ Cert.ReferenceIdeal.sig)
      = after opsCe W' (Cert.ReferenceIdeal.main_v5 : DevRef Cert.ReferenceIdeal.τ Cert.ReferenceIdeal.sig) := by
  rw [show (ops : List (HloOp Cert.ReferenceIdeal.τ Cert.ReferenceIdeal.sig (Elt F))) = opsCe ++ opsPen from rfl, StableHlo.after_append]
  generalize after opsCe W' = V
  simp only [opsPen, pen0, pen1a, pen1b, pen2, List.append_assoc, List.cons_append, List.nil_append]
  after_results_simp

/-- No operation writes the logits. -/
theorem ref_arg0 (W' : Valuation Cert.ReferenceIdeal.τ Cert.ReferenceIdeal.sig (Elt F)) :
    after ops W' (Cert.ReferenceIdeal.main_arg0 : DevRef Cert.ReferenceIdeal.τ Cert.ReferenceIdeal.sig)
      = W' (Cert.ReferenceIdeal.main_arg0 : DevRef Cert.ReferenceIdeal.τ Cert.ReferenceIdeal.sig) := by
  simp only [ops, opsCe, opsPen, pen0, pen1a, pen1b, pen2, List.append_assoc, List.cons_append, List.nil_append]
  after_results_simp

/-- No operation writes the targets. -/
theorem ref_arg1 (W' : Valuation Cert.ReferenceIdeal.τ Cert.ReferenceIdeal.sig (Elt F)) :
    after ops W' (Cert.ReferenceIdeal.main_arg1 : DevRef Cert.ReferenceIdeal.τ Cert.ReferenceIdeal.sig)
      = W' (Cert.ReferenceIdeal.main_arg1 : DevRef Cert.ReferenceIdeal.τ Cert.ReferenceIdeal.sig) := by
  simp only [ops, opsCe, opsPen, pen0, pen1a, pen1b, pen2, List.append_assoc, List.cons_append, List.nil_append]
  after_results_simp

/-- The two programs' constant tables are the same words in the same order. -/
theorem lit0_eq : (fun i => Cert.ReferenceIdeal.lit0 (Cert.ReferenceIdeal.S19.rowMajor i)) = fun i => Cert.KernelIdeal.lit0 (Cert.KernelIdeal.S19.rowMajor i) := rfl
theorem lit1_eq : (fun i => Cert.ReferenceIdeal.lit1 (Cert.ReferenceIdeal.S19x7.rowMajor i)) = fun i => Cert.KernelIdeal.lit1 (Cert.KernelIdeal.S19x7.rowMajor i) := rfl

/-- After the reference's cross-entropy operations the targets are untouched and the two tables are written. -/
theorem opsCe_arg1 (W' : Valuation Cert.ReferenceIdeal.τ Cert.ReferenceIdeal.sig (Elt F)) :
    after opsCe W' (Cert.ReferenceIdeal.main_arg1 : DevRef Cert.ReferenceIdeal.τ Cert.ReferenceIdeal.sig)
      = W' (Cert.ReferenceIdeal.main_arg1 : DevRef Cert.ReferenceIdeal.τ Cert.ReferenceIdeal.sig) := by
  after_results_simp
theorem opsCe_c (W' : Valuation Cert.ReferenceIdeal.τ Cert.ReferenceIdeal.sig (Elt F)) :
    after opsCe W' (Cert.ReferenceIdeal.main_c : DevRef Cert.ReferenceIdeal.τ Cert.ReferenceIdeal.sig)
      = fun i => Cert.ReferenceIdeal.lit0 (Cert.ReferenceIdeal.S19.rowMajor i) := by
  after_results_simp
  rfl
theorem opsCe_c0 (W' : Valuation Cert.ReferenceIdeal.τ Cert.ReferenceIdeal.sig (Elt F)) :
    after opsCe W' (Cert.ReferenceIdeal.main_c_0 : DevRef Cert.ReferenceIdeal.τ Cert.ReferenceIdeal.sig)
      = fun i => Cert.ReferenceIdeal.lit1 (Cert.ReferenceIdeal.S19x7.rowMajor i) := by
  after_results_simp
  rfl

set_option maxHeartbeats 4000000 in
/-- The penalty is one function of the targets and the two tables: from valuations that agree on those three
    buffers the two programs' penalty operations leave the same scalar. Both sides are read back as the composed
    term of their operations; the two terms are the same operations applied to the same three values. -/
theorem pen_core (V : Valuation Cert.ReferenceIdeal.τ Cert.ReferenceIdeal.sig (Elt F))
    (W : Valuation Cert.KernelIdeal.τ Cert.KernelIdeal.sig (Elt F))
    (h : (V (Cert.ReferenceIdeal.main_arg1 : DevRef Cert.ReferenceIdeal.τ Cert.ReferenceIdeal.sig) : (⟨Cert.KernelIdeal.S2x1024, .i32⟩ : BufTy).Contents (Elt F))
          = W (Cert.KernelIdeal.main_arg1 : DevRef Cert.KernelIdeal.τ Cert.KernelIdeal.sig))
    (hc : (V (Cert.ReferenceIdeal.main_c : DevRef Cert.ReferenceIdeal.τ Cert.ReferenceIdeal.sig) : (⟨Cert.KernelIdeal.S19, .i32⟩ : BufTy).Contents (Elt F))
          = W (Cert.KernelIdeal.main_c : DevRef Cert.KernelIdeal.τ Cert.KernelIdeal.sig))
    (hc0 : (V (Cert.ReferenceIdeal.main_c_0 : DevRef Cert.ReferenceIdeal.τ Cert.ReferenceIdeal.sig) : (⟨Cert.KernelIdeal.S19x7, .i32⟩ : BufTy).Contents (Elt F))
          = W (Cert.KernelIdeal.main_c_0 : DevRef Cert.KernelIdeal.τ Cert.KernelIdeal.sig)) :
    (after opsPen V (Cert.ReferenceIdeal.main_v106 : DevRef Cert.ReferenceIdeal.τ Cert.ReferenceIdeal.sig) : (⟨Cert.KernelIdeal.S_, .f32⟩ : BufTy).Contents (Elt F))
      = after tailK W (Cert.KernelIdeal.main_v105 : DevRef Cert.KernelIdeal.τ Cert.KernelIdeal.sig) := by
  simp only [opsPen, pen0, pen1a, pen1b, pen2, tailK, List.flatten_cons, List.flatten_nil, List.append_nil, List.append_assoc,
    List.cons_append, List.nil_append]
  after_results_simp
  rw [h, hc, hc0]
  rfl

/-- THE PENALTY. Where the reference's targets are the other program's and that program's two table buffers hold
    the tables, the two penalties are equal. -/
theorem pen_eq (W' : Valuation Cert.ReferenceIdeal.τ Cert.ReferenceIdeal.sig (Elt F))
    (W : Valuation Cert.KernelIdeal.τ Cert.KernelIdeal.sig (Elt F))
    (hc : W (Cert.KernelIdeal.main_c : DevRef Cert.KernelIdeal.τ Cert.KernelIdeal.sig)
          = fun i => Cert.KernelIdeal.lit0 (Cert.KernelIdeal.S19.rowMajor i))
    (hc0 : W (Cert.KernelIdeal.main_c_0 : DevRef Cert.KernelIdeal.τ Cert.KernelIdeal.sig)
          = fun i => Cert.KernelIdeal.lit1 (Cert.KernelIdeal.S19x7.rowMajor i))
    (h : (W' (Cert.ReferenceIdeal.main_arg1 : DevRef Cert.ReferenceIdeal.τ Cert.ReferenceIdeal.sig) : (⟨Cert.KernelIdeal.S2x1024, .i32⟩ : BufTy).Contents (Elt F))
          = W (Cert.KernelIdeal.main_arg1 : DevRef Cert.KernelIdeal.τ Cert.KernelIdeal.sig)) :
    (after ops W' (Cert.ReferenceIdeal.main_v106 : DevRef Cert.ReferenceIdeal.τ Cert.ReferenceIdeal.sig) : (⟨Cert.KernelIdeal.S_, .f32⟩ : BufTy).Contents (Elt F))
      = after tailK W (Cert.KernelIdeal.main_v105 : DevRef Cert.KernelIdeal.τ Cert.KernelIdeal.sig) := by
  rw [show (ops : List (HloOp Cert.ReferenceIdeal.τ Cert.ReferenceIdeal.sig (Elt F))) = opsCe ++ opsPen from rfl, StableHlo.after_append]
  exact pen_core _ W ((opsCe_arg1 W').trans h) ((opsCe_c W').trans (lit0_eq.trans hc.symm))
    ((opsCe_c0 W').trans (lit1_eq.trans hc0.symm))

end Cert.Tail

end
-- ==== Proof.PreDecode.lean ====
/-
  The precondition read back. The printed predicate is the conjunction of two "for all" statements: every logit's
  absolute value lies strictly below +∞, and every target word is signed-nonnegative and signed-below 50257. Each
  "for all" is a reduction by `and` over every axis into a single bit; a conjunction of bits that is 1 had a 1 at
  every position. Over the extended reals, max a (−a) < +∞ rules out a = +∞ and a = −∞, so a is a real number; a
  32-bit word whose signed reading lies in [0, 50257) has its top bit clear, so its unsigned reading is the same number.
-/
import proofs.«426039_j807453852038_3_alg».proof.Pre_finite_inputs
import Idealize.ShloMosaic.Lib.ReduceAll
import Idealize.ShloMosaic.Lib.StableHlo.Predicate
import Idealize.ShloMosaic.PureOps.Ideal
import Idealize.ShloMosaic.PureOps.Ideal.Laws

noncomputable section

namespace Cert.PreDecode

open Idealize.ShloMosaic

/-- A value whose absolute value lies strictly below +∞ is a real number. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  have hlt : max a (-a) < ⊤ := by
    simpa [Ideal.cmp, StableHlo.Predicate.ofBool_eq_one_iff] using h
  rw [max_lt_iff] at hlt
  induction a using EReal.rec with
  | bot => exact absurd hlt.2 (by simp)
  | coe r => exact ⟨r, rfl⟩
  | top => exact absurd hlt.1 (by simp)

/-- A 32-bit word that is signed-nonnegative and signed-below 50257 has value below 50257. -/
theorem toNat_lt_of_signed (w : BitVec 32) (h0 : IntOp.cmpi .sge w 0#32 = 1#1) (h1 : IntOp.cmpi .slt w 50257#32 = 1#1) :
    w.toNat < 50257 := by
  rw [IntOp.cmpi_sge] at h0
  rw [IntOp.cmpi_slt] at h1
  have e0 : (0#32 : BitVec 32).toInt = 0 := by decide
  have e1 : (50257#32 : BitVec 32).toInt = 50257 := by decide
  rw [e0] at h0
  rw [e1] at h1
  rw [BitVec.toInt_eq_toNat_cond] at h0 h1
  split at h0 <;> omega

theorem decode [Cert.Pre_finite_inputs.Facts] (x : FVec Ideal Cert.Pre_finite_inputs.S2x1024x50257 .f32)
    (t : IVec Cert.Pre_finite_inputs.S2x1024 32)
    (h : Cert.Pre_finite_inputs.fn (F := Ideal) x t = fun _ => 1#1) :
    (∀ i, ∃ r : ℝ, x i = (r : EReal)) ∧ (∀ j, (t j).toNat < 50257) := by
  haveI : Subsingleton Cert.Pre_finite_inputs.S_.Idx := ⟨fun a b => funext fun d => d.elim0⟩
  have h0 := congrFun h (fun d => d.elim0)
  dsimp only [Cert.Pre_finite_inputs.fn] at h0
  obtain ⟨hx, ht⟩ := IntOp.andi_eq_one.1 h0
  refine ⟨fun i => ?_, fun j => ?_⟩
  · have e := Host.reduce_andi_all _ _ _ _ _ hx i
    exact real_of_abs_lt_top (x i) e
  · have e := Host.reduce_andi_all _ _ _ _ _ ht j
    obtain ⟨a, b⟩ := IntOp.andi_eq_one.1 e
    exact toNat_lt_of_signed (t j) a b

end Cert.PreDecode

end
-- ==== Proof.lean ====
/-
  Mean cross-entropy with a syntax penalty: the Pallas kernel against its jnp reference, over the extended reals.

  Both programs return  CE(x, t) + 0.1 · penalty(t)  for logits x : [2, 1024, 50257] and targets t : [2, 1024].
  The penalty is the same sequence of integer operations on t in both programs and is never opened here: the two
  programs' penalty buffers are shown to hold one term of t. The cross-entropy is where they differ. Per row the
  reference takes log_softmax, (x − M) − L with M the row's maximum and L = log ∑ᵥ exp (xᵥ − M), reads it at the
  target, sums all 2048 rows, divides by 2048 and negates. The kernel walks the 2048 rows in 64 blocks of 32: per
  row it forms a − (M + L), with the target's logit a as a masked lane sum; per block it takes minus the sum over the
  block's rows; a (1, 1) scratch accumulates the blocks (reset at grid point 0) and is stored to the output at grid
  point 63; the host divides by 2048. For finite logits and targets inside the vocabulary every one of these terms
  is a real number, the masked sum is the indexed read, a − (M + L) = (a − M) − L, and the two totals over 2048 are
  opposite numbers (Spec.ce_eq). The precondition supplies exactly that: every logit finite, every target in
  [0, 50257).

  The three frames: the kernel's program (at both float instances) by the frame run around its one pipelined region
  (the body run whole in each of its three control cases: the first grid point, the middle ones, the last), the
  reference by its run as a straight line of host operations.
-/
import proofs.«426039_j807453852038_3_alg».proof.Defs
import proofs.«426039_j807453852038_3_alg».proof.Proof.Gen.Kernel
import proofs.«426039_j807453852038_3_alg».proof.Proof.Gen.KernelIdeal
import proofs.«426039_j807453852038_3_alg».proof.Proof.Gen.ReferenceIdeal
import proofs.«426039_j807453852038_3_alg».proof.Proof.Gen.Pre_finite_inputs
import proofs.«426039_j807453852038_3_alg».proof.Proof.KBFrame
import proofs.«426039_j807453852038_3_alg».proof.Proof.KIOut
import proofs.«426039_j807453852038_3_alg».proof.Proof.KIValue
import proofs.«426039_j807453852038_3_alg».proof.Proof.RefCe
import proofs.«426039_j807453852038_3_alg».proof.Proof.TailEq
import proofs.«426039_j807453852038_3_alg».proof.Proof.PreDecode
import Idealize.ShloMosaic.Adequacy
import Idealize.ShloMosaic.Init

noncomputable section

namespace Cert.Proof

open Idealize.ShloMosaic Idealize.SL.Sem Idealize.ShloMosaic.TcCoe

/-- The kernel's program, word level and idealized: the frame run around its region. -/
theorem frame_p : Cert.frame_Kernel := fun m ρ _ => Cert.Kernel.Fr.frame m ρ
theorem frame_pi : Cert.frame_KernelIdeal := fun m ρ _ => Cert.KernelIdeal.Fr.frame m ρ

/-- The reference: its run as a straight line; no operation writes an argument. -/
theorem frame_ri : Cert.frame_ReferenceIdeal := fun m ρ _ =>
  (θ_run Cert.ReferenceIdeal.defs _ _).mono (fun _ h c =>
    ⟨(h c Cert.ReferenceIdeal.main_arg0).trans (Cert.Tail.ref_arg0 _), (h c Cert.ReferenceIdeal.main_arg1).trans (Cert.Tail.ref_arg1 _)⟩)
    (Cert.ReferenceIdeal.Hand.run_after m ρ)

/-- The ideal pass rewrote nothing. -/
theorem preserves : Cert.preserves_Kernel_KernelIdeal := trivial

set_option backward.isDefEq.respectTransparency.types false in
/-- THE TWO RESULTS ARE ONE VALUE. From memories that agree on the logits x and the targets t, with x finite and t inside
    the vocabulary: the reference's result buffer is its cross-entropy buffer plus 0.1 × its penalty buffer, the kernel's
    is its divided total plus 0.1 × its penalty buffer; the penalty buffers hold one term of t; the reference's
    cross-entropy is −(∑ gR / 2048), the kernel's total is accK 63, and accK 63 / 2048 = −(∑ gR / 2048). -/
theorem value_eq [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = fun _ => 1#1)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    StableHlo.after Cert.ReferenceIdeal.Hand.ops (StableHlo.launchContents m' c) (Proc.devRef .tc Cert.ReferenceIdeal.main_v108)
      = StableHlo.after (List.flatten (Cert.KernelIdeal.Fr.tailOps (F := Ideal))) (Cert.KernelIdeal.Out.W m c) (Proc.devRef .tc Cert.KernelIdeal.main_v107) := by
  obtain ⟨hx, ht⟩ := Cert.PreDecode.decode _ _ hpre
  have e1 := Cert.Tail.ref_result (F := Ideal) (StableHlo.launchContents m' c)
  have e2 := Cert.Tail.ker_result (F := Ideal) (Cert.KernelIdeal.Out.W m c)
  refine @Eq.trans (FVec Ideal Cert.KernelIdeal.S_ .f32) _ _ _ e1 (@Eq.trans (FVec Ideal Cert.KernelIdeal.S_ .f32) _ _ _ ?_ e2.symm)
  rw [Cert.Tail.pen_eq (StableHlo.launchContents m' c) (Cert.KernelIdeal.Out.W m c) (Cert.KernelIdeal.Out.W_c m c) (Cert.KernelIdeal.Out.W_c_0 m c)
    (by rw [Cert.KernelIdeal.Out.W_arg1]; exact h1)]
  refine congrArg (fun z => addf z _) ?_
  rw [Cert.Tail.ref_v5, Cert.Tail.ker_v4]
  refine (Cert.ReferenceIdeal.Hand.ce_value _ (fun j => by
    rw [show StableHlo.launchContents m' c (Proc.devRef .tc Cert.ReferenceIdeal.main_arg1)
      = m ((c.tc : Thread Cert.KernelIdeal.nD Cert.KernelIdeal.τ).loc Cert.KernelIdeal.main_arg1) from h1]; exact ht j)).trans ?_
  rw [show StableHlo.launchContents m' c (Proc.devRef .tc Cert.ReferenceIdeal.main_arg0)
      = m ((c.tc : Thread Cert.KernelIdeal.nD Cert.KernelIdeal.τ).loc Cert.KernelIdeal.main_arg0) from h0,
    show StableHlo.launchContents m' c (Proc.devRef .tc Cert.ReferenceIdeal.main_arg1)
      = m ((c.tc : Thread Cert.KernelIdeal.nD Cert.KernelIdeal.τ).loc Cert.KernelIdeal.main_arg1) from h1]
  rw [show Cert.KernelIdeal.Out.W m c (Proc.devRef .tc Cert.KernelIdeal.main_v2)
      = (Cert.KernelIdeal.Fr.dats m 0 c).arrAt 2 Cert.KernelIdeal.cfg0.N from Cert.KernelIdeal.Out.W_out m c,
    Cert.KernelIdeal.Val.out_value]
  funext i
  show _ = Ideal.div (Cert.Spec.accK _ _ 63) Cert.Spec.c2048
  exact (Cert.Spec.ce_eq _ _ hx ht).symm

/-- Both programs run, end with that one value in their result buffers, and leave their arguments as they were. -/
theorem algebraic : Cert.algebraic_KernelIdeal_ReferenceIdeal := by
  intro m ρ m' ρ' hpre hagree
  refine ⟨fun c => StableHlo.after (List.flatten (Cert.KernelIdeal.Fr.tailOps (F := Ideal))) (Cert.KernelIdeal.Out.W m c) (Proc.devRef .tc Cert.KernelIdeal.main_v107),
    Cert.KernelIdeal.Out.run_value m ρ, ?_⟩
  refine (θ_run Cert.ReferenceIdeal.defs _ _).mono (fun _ h c =>
    ⟨(h c Cert.ReferenceIdeal.main_v108).trans (value_eq m m' c (hpre c) (hagree c).1 (hagree c).2),
     (h c Cert.ReferenceIdeal.main_arg0).trans (Cert.Tail.ref_arg0 _), (h c Cert.ReferenceIdeal.main_arg1).trans (Cert.Tail.ref_arg1 _)⟩)
    (Cert.ReferenceIdeal.Hand.run_after m' ρ')

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
